-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048 : Shape := ⟨1, ![2048]⟩
abbrev S50257x2048 : Shape := ⟨2, ![50257, 2048]⟩
abbrev S2x2048 : Shape := ⟨2, ![2, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S50257x2048 : S_.BroadcastsInDim S50257x2048 (![] : Fin 0 → Fin S50257x2048.rank)
  reducesTo_S50257x2048_S_d0_1 : S50257x2048.ReducesTo [0, 1] S_
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_arg3 : IVec S2x2048 32) (main_v13 : IVec S_ 1) (main_v15 : IVec S2x2048 1) (main_c_5 : IVec S_ 32) : IVec S_ 1 :=
  let main_v16 : IVec S2x2048 32 := broadcastInDim S2x2048 ![] bcast_S_S2x2048 main_c_5
  let main_v17 : IVec S2x2048 1 := cmpi .slt main_arg3 main_v16
  let main_v18 : IVec S2x2048 1 := andi main_v15 main_v17
  let main_c_6 : IVec S_ 32 := constantI S_ 32 4294967196#32
  let main_v19 : IVec S2x2048 32 := broadcastInDim S2x2048 ![] bcast_S_S2x2048 main_c_6
  let main_v20 : IVec S2x2048 1 := cmpi .eq main_arg3 main_v19
  let main_v21 : IVec S2x2048 1 := ori main_v18 main_v20
  let main_c_7 : IVec S_ 1 := constantI S_ 1 1#1
  let main_v22 : IVec S_ 1 := (fun x v => Host.reduce IntOp.andi x v reducesTo_S2x2048_S_d0_1 h_S_) main_v21 main_c_7
  let main_v23 : IVec S_ 1 := andi main_v13 main_v22
  main_v23

def fn {F : FTy → Type} [FloatOps F] (main_arg0 : FVec F S2x2048x2048 .f32) (main_arg1 : FVec F S2048 .f32) (main_arg2 : FVec F S50257x2048 .f32) (main_arg3 : IVec S2x2048 32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S50257x2048 .f32 := Host.absf main_arg2
  let main_cst_2 : FVec F S_ .f32 := constant S_ .f32 0x7F800000#32
  let main_v10 : FVec F S50257x2048 .f32 := broadcastInDim S50257x2048 ![] bcast_S_S50257x2048 main_cst_2
  let main_v11 : IVec S50257x2048 1 := cmpf .olt main_v9 main_v10
  let main_c_3 : IVec S_ 1 := constantI S_ 1 1#1
  let main_v12 : IVec S_ 1 := (fun x v => Host.reduce IntOp.andi x v reducesTo_S50257x2048_S_d0_1 h_S_) main_v11 main_c_3
  let main_v13 : IVec S_ 1 := andi main_v8 main_v12
  let main_c_4 : IVec S_ 32 := constantI S_ 32 0#32
  let main_v14 : IVec S2x2048 32 := broadcastInDim S2x2048 ![] bcast_S_S2x2048 main_c_4
  let main_v15 : IVec S2x2048 1 := cmpi .sge main_arg3 main_v14
  let main_c_5 : IVec S_ 32 := constantI S_ 32 50257#32
  fn_part1 (F := F) main_arg3 main_v13 main_v15 main_c_5
-- ==== Kernel.lean ====
abbrev S2x2048x2048 : Shape := ⟨3, ![2, 2048, 2048]⟩
abbrev S2048 : Shape := ⟨1, ![2048]⟩
abbrev S50257x2048 : Shape := ⟨2, ![50257, 2048]⟩
abbrev S2x2048 : Shape := ⟨2, ![2, 2048]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S_ : Shape := ⟨0, ![]⟩
abbrev S2x1 : Shape := ⟨2, ![2, 1]⟩
abbrev S2x2047 : Shape := ⟨2, ![2, 2047]⟩
abbrev S4096x1 : Shape := ⟨2, ![4096, 1]⟩
abbrev S4096 : Shape := ⟨1, ![4096]⟩
abbrev S1024x2048 : Shape := ⟨2, ![1024, 2048]⟩
abbrev S1024x1 : Shape := ⟨2, ![1024, 1]⟩
abbrev S2048x512 : Shape := ⟨2, ![2048, 512]⟩
abbrev S1024x512 : Shape := ⟨2, ![1024, 512]⟩
abbrev S1024 : Shape := ⟨1, ![1024]⟩

abbrev nBuf : Space → Nat
  | .hbm => 34
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2048, .f32⟩
  | .hbm, ⟨2, _⟩ => ⟨S50257x2048, .f32⟩
  | .hbm, ⟨3, _⟩ => ⟨S2x2048, .i32⟩
  | .hbm, ⟨4, _⟩ => ⟨S4096x2048, .f32⟩
  | .hbm, ⟨5, _⟩ => ⟨S4096x2048, .bf16⟩
  | .hbm, ⟨6, _⟩ => ⟨S_, .i32⟩
  | .hbm, ⟨7, _⟩ => ⟨S2x1, .i32⟩
  | .hbm, ⟨8, _⟩ => ⟨S2x2047, .i32⟩
  | .hbm, ⟨9, _⟩ => ⟨S2x2048, .i32⟩
  | .hbm, ⟨10, _⟩ => ⟨S4096x1, .i32⟩
  | .hbm, ⟨11, _⟩ => ⟨S_, .i32⟩
  | .hbm, ⟨12, _⟩ => ⟨S2x2048, .i32⟩
  | .hbm, ⟨13, _⟩ => ⟨S2x2048, .i1⟩
  | .hbm, ⟨14, _⟩ => ⟨S_, .i32⟩
  | .hbm, ⟨15, _⟩ => ⟨S2x2048, .i32⟩
  | .hbm, ⟨16, _⟩ => ⟨S2x2048, .i1⟩
  | .hbm, ⟨17, _⟩ => ⟨S2x2048, .i1⟩
  | .hbm, ⟨18, _⟩ => ⟨S_, .i32⟩
  | .hbm, ⟨19, _⟩ => ⟨S2x2048, .i32⟩
  | .hbm, ⟨20, _⟩ => ⟨S2x2048, .i1⟩
  | .hbm, ⟨21, _⟩ => ⟨S2x2048, .i1⟩
  | .hbm, ⟨22, _⟩ => ⟨S2x2048, .f32⟩
  | .hbm, ⟨23, _⟩ => ⟨S4096, .f32⟩
  | .hbm, ⟨24, _⟩ => ⟨S4096x1, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .f32⟩
  | .local _ .vmem, ⟨8, _⟩ => ⟨S512x2048, .f32⟩
  | .local _ .vmem, ⟨9, _⟩ => ⟨S1024x1, .i32⟩
  | .local _ .vmem, ⟨10, _⟩ => ⟨S1024x1, .i32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 99], ![false, false]⟩

def k1_cond2 (i : grid1.Coords) : BitVec 1 :=
  let arg1 : BitVec 32 := BitVec.ofNat 32 (i 1).val
  let c98_i32 : BitVec 32 := 98#32
  let v50 : BitVec 1 := Scalar.cmpi .eq arg1 c98_i32
  let v51 : BitVec 32 := Scalar.extui v50
  let c0_i32_23 : BitVec 32 := 0#32
  let v52 : BitVec 1 := Scalar.cmpi .ne v51 c0_i32_23
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  reduces_S512x2048_S512 : S512x2048.Reduces [1] S512
  shapeCasts_S512_S512x1 : S512.ShapeCasts S512x1
  broadcasts_S512x1_S512x2048 : S512x1.Broadcasts S512x2048
  shapeCasts_S2048_S1x2048 : S2048.ShapeCasts S1x2048
  broadcasts_S1x2048_S512x2048 : S1x2048.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  bcast_S_S2x1 : S_.BroadcastsInDim S2x1 (![] : Fin 0 → Fin S2x1.rank)
  slices_S2x2048_S2x2047_0_1 : S2x2048.Slices ![0, 1] S2x2047
  concatenates_S2x2047_S2x1_S2x2048_d1 : Shape.Concatenates [S2x2047, S2x1] S2x2048 1
  shapeCasts_S2x2048_S4096x1 : S2x2048.ShapeCasts S4096x1
  bcast_S_S2x2048 : S_.BroadcastsInDim S2x2048 (![] : Fin 0 → Fin S2x2048.rank)
  shapeCasts_S2x2048_S4096 : S2x2048.ShapeCasts S4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S512x2048_p1_0_S2048x512 : S512x2048.Transposes [1, 0] S2048x512
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  shapeCasts_S4096x1_S4096 : S4096x1.ShapeCasts S4096
  reducesTo_S4096_S_d0 : S4096.ReducesTo [0] S_
  h_S_ : 0 < S_.numel
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .bf16 = 32 ∨ (Rect.block (s := S4096x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .bf16 = 32 ∨ (Rect.block (s := S4096x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S512x2048.size a < S50257x2048.size a
  hwx1_1 : ∀ i : grid1.Coords, EltTy.bits .f32 = 32 ∨ (Rect.unit (s := S50257x2048) (fun a => cc1_transform_1 i a * S512x2048.size a) (fun a => (Pipeline.Clip.of (cc1_transform_1 i a) (S512x2048.size a) (S50257x2048.size a)).extent (S512x2048.size a)) fun a => Pipeline.Clip.inb (Pipeline.Clip.ok_of (hstart1_1 i a))).WholeWords (EltTy.packing .f32)
  hwxs1_1 : ∀ i : grid1.Coords, EltTy.bits .f32 = 32 ∨ (Rect.unit (s := S512x2048) (fun _ => 0) (fun a => (Pipeline.Clip.of (cc1_transform_1 i a) (S512x2048.size a) (S50257x2048.size a)).extent (S512x2048.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .i32 = 32 ∨ (Rect.block (s := S4096x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_arg2) S512x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v5) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S2048 : Shape := ⟨1, ![2048]⟩
abbrev S50257x2048 : Shape := ⟨2, ![50257, 2048]⟩
abbrev S2x2048 : Shape := ⟨2, ![2, 2048]⟩
abbrev S_ : Shape := ⟨0, ![]⟩
abbrev S2x2048x1 : Shape := ⟨3, ![2, 2048, 1]⟩
abbrev S1x1x2048 : Shape := ⟨3, ![1, 1, 2048]⟩
abbrev S2x2048x50257 : Shape := ⟨3, ![2, 2048, 50257]⟩
abbrev S2x2047x50257 : Shape := ⟨3, ![2, 2047, 50257]⟩
abbrev S2x2047 : Shape := ⟨2, ![2, 2047]⟩
abbrev S2x2047x1 : Shape := ⟨3, ![2, 2047, 1]⟩
abbrev S2x2047x1x1 : Shape := ⟨4, ![2, 2047, 1, 1]⟩
abbrev S1 : Shape := ⟨1, ![1]⟩
abbrev S1x1x1x1 : Shape := ⟨4, ![1, 1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048, .f32⟩
  | .hbm, ⟨2, _⟩ => ⟨S50257x2048, .f32⟩
  | .hbm, ⟨3, _⟩ => ⟨S2x2048, .i32⟩
  | .hbm, ⟨4, _⟩ => ⟨S2x2048x2048, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x2048, .f32⟩
  | .hbm, ⟨16, _⟩ => ⟨S2x2048x2048, .f32⟩
  | .hbm, ⟨17, _⟩ => ⟨S1x1x2048, .f32⟩
  | .hbm, ⟨18, _⟩ => ⟨S2x2048x2048, .f32⟩
  | .hbm, ⟨19, _⟩ => ⟨S2x2048x2048, .f32⟩
  | .hbm, ⟨20, _⟩ => ⟨S2x2048x50257, .f32⟩
  | .hbm, ⟨21, _⟩ => ⟨S2x2047x50257, .f32⟩
  | .hbm, ⟨22, _⟩ => ⟨S2x2047, .i32⟩
  | .hbm, ⟨23, _⟩ => ⟨S_, .f32⟩
  | .hbm, ⟨24, _⟩ => ⟨S2x2047, .f32⟩
  | .hbm, ⟨25, _⟩ => ⟨S_, .f32⟩
  | .hbm, ⟨26, _⟩ => ⟨S2x2047, .f32⟩
  | .hbm, ⟨27, _⟩ => ⟨S2x2047, .f32⟩
  | .hbm, ⟨28, _⟩ => ⟨S2x2047x1, .f32⟩
  | .hbm, ⟨29, _⟩ => ⟨S2x2047x50257, .f32⟩
  | .hbm, ⟨30, _⟩ => ⟨S2x2047x50257, .f32⟩
  | .hbm, ⟨31, _⟩ => ⟨S2x2047x50257, .f32⟩
  | .hbm, ⟨32, _⟩ => ⟨S_, .f32⟩
  | .hbm, ⟨33, _⟩ => ⟨S2x2047, .f32⟩
  | .hbm, ⟨34, _⟩ => ⟨S2x2047x1, .f32⟩
  | .hbm, ⟨35, _⟩ => ⟨S2x2047x1, .f32⟩
  | .hbm, ⟨36, _⟩ => ⟨S2x2047x50257, .f32⟩
  | .hbm, ⟨37, _⟩ => ⟨S2x2047x50257, .f32⟩
  | .hbm, ⟨38, _⟩ => ⟨S_, .i32⟩
  | .hbm, ⟨39, _⟩ => ⟨S2x2047, .i32⟩
  | .hbm, ⟨40, _⟩ => ⟨S2x2047, .i1⟩
  | .hbm, ⟨41, _⟩ => ⟨S_, .i32⟩
  | .hbm, ⟨42, _⟩ => ⟨S_, .i32⟩
  | .hbm, ⟨43, _⟩ => ⟨S2x2047, .i32⟩
  | .hbm, ⟨44, _⟩ => ⟨S2x2047, .i32⟩
  | .hbm, ⟨45, _⟩ => ⟨S2x2047x1, .i32⟩
  | .hbm, ⟨46, _⟩ => ⟨S_, .i32⟩
  | .hbm, ⟨47, _⟩ => ⟨S2x2047x1, .i32⟩
  | .hbm, ⟨48, _⟩ => ⟨S2x2047x1, .i1⟩
  | .hbm, ⟨49, _⟩ => ⟨S_, .i32⟩
  | .hbm, ⟨50, _⟩ => ⟨S2x2047x1, .i32⟩
  | .hbm, ⟨51, _⟩ => ⟨S2x2047x1, .i32⟩
  | .hbm, ⟨52, _⟩ => ⟨S2x2047x1, .i32⟩
  | .hbm, ⟨53, _⟩ => ⟨S2x2047x1x1, .i32⟩
  | .hbm, ⟨54, _⟩ => ⟨S1, .i32⟩
  | .hbm, ⟨55, _⟩ => ⟨S_, .i32⟩
  | .hbm, ⟨56, _⟩ => ⟨S2x2047x1x1, .i32⟩
  | .hbm, ⟨57, _⟩ => ⟨S2x2047x1x1, .i1⟩
  | .hbm, ⟨58, _⟩ => ⟨S1x1x1x1, .i32⟩
  | .hbm, ⟨59, _⟩ => ⟨S2x2047x1x1, .i32⟩
  | .hbm, ⟨60, _⟩ => ⟨S2x2047x1x1, .i1⟩
  | .hbm, ⟨61, _⟩ => ⟨S2x2047x1x1, .i1⟩
  | .hbm, ⟨62, _⟩ => ⟨S_, .i1⟩
  | .hbm, ⟨63, _⟩ => ⟨S2x2047x1, .i1⟩
  | .hbm, ⟨64, _⟩ => ⟨S2x2047x1, .f32⟩
  | .hbm, ⟨65, _⟩ => ⟨S_, .f32⟩
  | .hbm, ⟨66, _⟩ => ⟨S2x2047x1, .f32⟩
  | .hbm, ⟨67, _⟩ => ⟨S2x2047x1, .f32⟩
  | .hbm, ⟨68, _⟩ => ⟨S2x2047, .f32⟩
  | .hbm, ⟨69, _⟩ => ⟨S2x2047, .f32⟩
  | .hbm, ⟨70, _⟩ => ⟨S_, .i32⟩
  | .hbm, ⟨71, _⟩ => ⟨S2x2047, .i32⟩
  | .hbm, ⟨72, _⟩ => ⟨S2x2047, .i1⟩
  | .hbm, ⟨73, _⟩ => ⟨S2x2047, .f32⟩
  | .hbm, ⟨74, _⟩ => ⟨S2x2047, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c_3 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_4 : Ref sig .tc := ⟨.hbm, 75, rfl⟩
abbrev main_v28 : Ref sig .tc := ⟨.hbm, 76, rfl⟩
abbrev main_cst_5 : Ref sig .tc := ⟨.hbm, 77, rfl⟩
abbrev main_v29 : Ref sig .tc := ⟨.hbm, 78, rfl⟩
abbrev main_cst_6 : Ref sig .tc := ⟨.hbm, 79, rfl⟩
abbrev main_v30 : Ref sig .tc := ⟨.hbm, 80, rfl⟩
abbrev main_v31 : Ref sig .tc := ⟨.hbm, 81, rfl⟩

abbrev nD : Nat := 1
abbrev τ : Topo := Topo.v7x

variable {F : FTy → Type} [FloatOps F]

class Facts₀ : Prop where
  reducesTo_S2x2048x2048_S2x2048_d2 : S2x2048x2048.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  slices_S2x2048x50257_S2x2047x50257_0_0_0 : S2x2048x50257.Slices ![0, 0, 0] S2x2047x50257
  slices_S2x2048_S2x2047_0_1 : S2x2048.Slices ![0, 1] S2x2047
  reducesTo_S2x2047x50257_S2x2047_d2 : S2x2047x50257.ReducesTo [2] S2x2047
  bcast_S_S2x2047 : S_.BroadcastsInDim S2x2047 (![] : Fin 0 → Fin S2x2047.rank)
  bcast_S2x2047_S2x2047x1_0_1 : S2x2047.BroadcastsInDim S2x2047x1 (![0, 1] : Fin 2 → Fin S2x2047x1.rank)
  bcast_S2x2047x1_S2x2047x50257_0_1_2 : S2x2047x1.BroadcastsInDim S2x2047x50257 (![0, 1, 2] : Fin 3 → Fin S2x2047x50257.rank)
  bcast_S_S2x2047x1 : S_.BroadcastsInDim S2x2047x1 (![] : Fin 0 → Fin S2x2047x1.rank)
  shapeCasts_S2x2047x1_S2x2047x1x1 : S2x2047x1.ShapeCasts S2x2047x1x1
  bcast_S_S2x2047x1x1 : S_.BroadcastsInDim S2x2047x1x1 (![] : Fin 0 → Fin S2x2047x1x1.rank)
  bcast_S1_S1x1x1x1_3 : S1.BroadcastsInDim S1x1x1x1 (![3] : Fin 1 → Fin S1x1x1x1.rank)
  bcast_S1x1x1x1_S2x2047x1x1_0_1_2_3 : S1x1x1x1.BroadcastsInDim S2x2047x1x1 (![0, 1, 2, 3] : Fin 4 → Fin S2x2047x1x1.rank)
  reducesTo_S2x2047x1x1_S2x2047x1_d3 : S2x2047x1x1.ReducesTo [3] S2x2047x1
  shapeCasts_S2x2047x1_S2x2047 : S2x2047x1.ShapeCasts S2x2047
  reducesTo_S2x2047_S_d0_1 : S2x2047.ReducesTo [0, 1] S_
  dot_S2x2048x2048_S50257x2048_S2x2048x50257_2_1_01_0_n_n_wf : DotDims.WF S2x2048x2048 S50257x2048 S2x2048x50257 [2] [1] [0, 1] [0] [] []
  gather_S2x2047x50257_S2x2047x1x1_S2x2047x1_n_2_01_01_2_3_111_wf : GatherDims.WF S2x2047x50257 S2x2047x1x1 S2x2047x1 [] [2] [0, 1] [2] [0, 1] 3 ![1, 1, 1]

variable [Facts₀]

def dot_S2x2048x2048_S50257x2048_S2x2048x50257_2_1_01_0_n_n : DotDims S2x2048x2048 S50257x2048 S2x2048x50257 where
  lhsContracting := [2]
  rhsContracting := [1]
  lhsNonContracting := [0, 1]
  rhsNonContracting := [0]
  lhsBatch := []
  rhsBatch := []
  wf := dot_S2x2048x2048_S50257x2048_S2x2048x50257_2_1_01_0_n_n_wf
def gather_S2x2047x50257_S2x2047x1x1_S2x2047x1_n_2_01_01_2_3_111 : GatherDims S2x2047x50257 S2x2047x1x1 S2x2047x1 where
  offsetDims := []
  collapsedSliceDims := [2]
  operandBatchingDims := [0, 1]
  startIndicesBatchingDims := [0, 1]
  startIndexMap := [2]
  indexVectorDim := 3
  sliceSizes := ![1, 1, 1]
  wf := gather_S2x2047x50257_S2x2047x1x1_S2x2047x1_n_2_01_01_2_3_111_wf

class Facts : Prop extends Facts₀ where

variable [Facts]
-- ==== Proof.R0K.lean ====
/- The first kernel region (the RMS normalisation, a grid of 8 row tiles of 512 rows) of `Cert.Kernel`:
   its proof data and body obligation, at a PARAMETER `V` (the TensorCore's buffer contents when the region is
   entered), generic in the float instance. Two input windows (window 0: a block of 512 rows of the activations;
   window 1: the whole weight vector, fetched at the first point only) and one output window (window 2: the
   bf16 block of 512 rows). The body reads both inputs and writes ONE whole-block value, the skeleton's payload
   `k0_pay1` of the two values read. -/
import proofs.«416190_j54460185313708_2_alg».proof.Proof.Gen.Kernel.Launch
import proofs.«416190_j54460185313708_2_alg».proof.Proof.Gen.Kernel.Skeleton
import proofs.«416190_j54460185313708_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extents 512 × 2048 is decided by structural evaluation, which recurses
-- once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 512 rows of the activations at the point) holds its block at every point, for ANY proof
    data whose array is `V`'s and whose body leaves the block in place: the window is an input, never idle and
    uncut, so wherever it was not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight vector, one block for the whole grid, fetched at the first point only) likewise:
    at the seven later points the buffer still holds the first point's block, which is every point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 2048 block, as the rectangle at offset zero of full extent. -/
abbrev r0_0 : Rect S512x2048 := Rect.unit (s := S512x2048) ![0, 0] S512x2048.size inb_S512x2048_S512x2048_0_0
/-- The whole weight vector, likewise. -/
abbrev r0_1 : Rect S2048 := Rect.unit (s := S2048) ![0] S2048.size inb_S2048_S2048_0

/-! ## What the body leaves in the output window's buffer -/

/-- Window 2's buffer after the body, from the two input blocks: its one store as a piece over the whole block,
    the payload that of the skeleton at the two values loaded. -/
def out0_2 (x0 : Vec F S512x2048 .f32) (x1 : Vec F S2048 .f32) : Vec F S512x2048 .bf16 :=
  View.canon [⟨r0_0, k0_pay1 (View.ld x0 r0_0) (View.ld x1 r0_1)⟩]

/-- The one store's rectangle is the whole block, so it covers it. -/
theorem cover0_2 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The kernel body on whole staging memrefs, the two inputs' at read contents `x0`, `x1` and the output's at
    anything, runs to the continuation holding the inputs' as they were and the output's at `out0_2 x0 x1`:
    the printed function is its skeleton, three loads (the third, of the output buffer, reads a value nothing uses)
    and one store of the payload over the whole block. -/
theorem sound_kernel0 (c : Dev nD) (E : Set ℕ) (i : grid0.Coords)
    (arg1 : Memref sig .tc .vmem S512x2048 .f32) (harg1 : arg1.IsWhole)
    (arg2 : Memref sig .tc .vmem S2048 .f32) (harg2 : arg2.IsWhole)
    (arg3 : Memref sig .tc .vmem S512x2048 .bf16) (harg3 : arg3.IsWhole)
    (x0 : Vec F S512x2048 .f32) (x1 : Vec F S2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__rmsnorm_kernel i arg1 harg1 arg2 harg2 arg3 harg3) K := by
  simp only [cc0__rmsnorm_kernel_eq_skeleton]; unfold cc0__rmsnorm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them (`V`); after the body at
    point `t` each input's buffer at its block and the output's at `out0_2` of the two input blocks; the invariant
    "the scoped rest and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debt, and the three windows' current
    staging buffers, each at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.R1DefsK.lean ====
/-
  The second kernel region (the cross-entropy kernel over a 4 × 99 grid of row tiles and vocabulary tiles): the names
  its proofs are stated over. A grid point is (row tile, vocabulary tile); the three scratch columns carry the running
  maximum, the running sum of exponentials and the picked logit from one vocabulary tile to the next; they are reset
  at vocabulary tile 0 and the output block is written at vocabulary tile 98.
-/
import proofs.«416190_j54460185313708_2_alg».proof.Proof.Gen.Kernel.Launch
import proofs.«416190_j54460185313708_2_alg».proof.Proof.Gen.Kernel.Skeleton
import proofs.«416190_j54460185313708_2_alg».proof.Proof.Gen.Kernel.Points
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.Sem

variable {F : FTy → Type} [FloatOps F]

/-- The three scratch columns as whole memrefs. -/
abbrev scM : Memref sig .tc .vmem S1024x1 .f32 := Memref.whole cc1_scratch0
abbrev scL : Memref sig .tc .vmem S1024x1 .f32 := Memref.whole cc1_scratch1
abbrev scC : Memref sig .tc .vmem S1024x1 .f32 := Memref.whole cc1_scratch2

/-- The reset condition of the body's first conditional (vocabulary tile 0), as the body computes it. -/
abbrev condFirst (i : grid1.Coords) : Prop :=
  Scalar.cmpi .ne (Scalar.extui (Scalar.cmpi .eq (BitVec.ofNat 32 (i 1).val) 0#32)) 0#32 = 1#1
/-- The write-out condition of the body's last conditional (vocabulary tile 98). -/
abbrev condLast (i : grid1.Coords) : Prop := k1_cond2 i = 1#1

/-- The reset holds exactly at the points ≡ 0 (mod 99). -/
theorem hcondFirst : ∀ t : Fin cfg1.N, condFirst (grid1.coords t) ↔ t.val % 99 = 0 :=
  (by decide +kernel : ∀ t : Fin grid1.N, condFirst (grid1.coords t) ↔ t.val % 99 = 0)
/-- The write-out holds exactly at the points ≡ 98 (mod 99). -/
theorem hcondLast : ∀ t : Fin cfg1.N, condLast (grid1.coords t) ↔ t.val % 99 = 98 :=
  (by decide +kernel : ∀ t : Fin grid1.N, condLast (grid1.coords t) ↔ t.val % 99 = 98)

/-- A point's coordinates: row tile t / 99, vocabulary tile t % 99. -/
theorem coords1_0 : ∀ t : Fin cfg1.N, ((grid1.coords t) 0).val = t.val / 99 :=
  (by decide +kernel : ∀ t : Fin grid1.N, ((grid1.coords t) 0).val = t.val / 99)
theorem coords1_1 : ∀ t : Fin cfg1.N, ((grid1.coords t) 1).val = t.val % 99 :=
  (by decide +kernel : ∀ t : Fin grid1.N, ((grid1.coords t) 1).val = t.val % 99)

/-- What one grid point makes of the running values, from the hidden block `x0`, the vocabulary block `x1`, the label
    block `x2` and the running values it starts from. -/
def mNew (i : grid1.Coords) (x0 : Vec F S1024x2048 .bf16) (x1 : Vec F S512x2048 .f32) (m : Vec F S1024x1 .f32) : Vec F S1024x1 .f32 :=
  k1_pay2 (k1_pay10 i x0 x1 m)
def lNew (i : grid1.Coords) (x0 : Vec F S1024x2048 .bf16) (x1 : Vec F S512x2048 .f32) (m l : Vec F S1024x1 .f32) : Vec F S1024x1 .f32 :=
  k1_pay11 i x0 x1 m l
def cNew (i : grid1.Coords) (x0 : Vec F S1024x2048 .bf16) (x1 : Vec F S512x2048 .f32) (x2 : Vec F S1024x1 .i32) (c : Vec F S1024x1 .f32) : Vec F S1024x1 .f32 :=
  k1_pay1 (k1_pay7 i) (k1_pay8 i x0 x1) (k1_pay9 x2) c
/-- The output block from the final running values. -/
def oNew (m l c : Vec F S1024x1 .f32) : Vec F S1024x1 .f32 := k1_pay3 m l c
/-- The reset values. -/
def mReset : Vec F S1024x1 .f32 := k1_pay4 (F := F)
def lReset : Vec F S1024x1 .f32 := k1_pay5 (F := F)
def cReset : Vec F S1024x1 .f32 := k1_pay6 (F := F)

end Cert.Kernel.Hand

end
-- ==== Proof.R1RunK.lean ====
/-
  The second kernel region's body, run symbolically on whole buffers: in each of its three control cases (reset at
  vocabulary tile 0, neither, write-out at vocabulary tile 98) the body takes the hidden block, the vocabulary block, the
  label block and the three running columns to the new running columns (and, in the last case, writes the output block),
  each stated through the named payloads of the skeleton.
-/
import proofs.«416190_j54460185313708_2_alg».proof.Proof.R1DefsK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle. -/
private theorem hz2 : (![0, 0] : Fin 2 → Nat) = fun _ => 0 := funext fun a => by fin_cases a <;> rfl

/-- A store through the whole-shape rectangle at offset zero, made last, leaves its payload, whatever the earlier stores
    and the contents before them were. -/
private theorem read_writes_cons_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero (S := S) h inb y⟩),
    View.canon_cons_unit_zero (S := S) h inb w L]

/-- Neither the reset nor the write-out: the three running columns go from (m, l, cc) to their updates; everything else
    is as it was. -/
theorem kernelRun1_mid (c : Dev nD) (i : grid1.Coords)
    (arg2 : Memref sig .tc .vmem S1024x2048 .bf16) (harg2 : arg2.IsWhole) (arg3 : Memref sig .tc .vmem S512x2048 .f32) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hf : ¬ condFirst i) (hl : ¬ condLast i)
    (x0 : Vec F S1024x2048 .bf16) (x1 : Vec F S512x2048 .f32) (x2 : Vec F S1024x1 .i32) (o m l cc : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare m ∗ owns (c : Thread nD τ) arg7 fullShare l
        ∗ owns (c : Thread nD τ) arg8 fullShare cc
        ∗ (iprop(owns (c : Thread nD τ) arg2 fullShare x0 ∗ owns (c : Thread nD τ) arg3 fullShare x1 ∗ owns (c : Thread nD τ) arg4 fullShare x2
            ∗ owns (c : Thread nD τ) arg5 fullShare o
            ∗ owns (c : Thread nD τ) arg6 fullShare (mNew i x0 x1 m)
            ∗ owns (c : Thread nD τ) arg7 fullShare (lNew i x0 x1 m l)
            ∗ owns (c : Thread nD τ) arg8 fullShare (cNew i x0 x1 x2 cc)) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2]
    unfold mNew; rfl
  isplitl [H7]
  · iexists _; isplitr; swap; · iexact H7
    ipureintro
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2]
    unfold lNew; rfl
  iexists _; isplitr; swap; · iexact H8
  ipureintro
  refine (read_writes_cons_unit_zero (S := S1024x1) _ _ hz2 _ _ _).trans ?_
  dsimp only
  simp only [View.readAt_eq_ld, View.ld_unit_zero (S := S1024x2048) hz2, View.ld_unit_zero (S := S512x2048) hz2, View.ld_unit_zero (S := S1024x1) hz2]
  unfold cNew; rfl

/-- The reset (vocabulary tile 0): whatever the running columns held, they are updated from the reset values. -/
theorem kernelRun1_first (c : Dev nD) (i : grid1.Coords)
    (arg2 : Memref sig .tc .vmem S1024x2048 .bf16) (harg2 : arg2.IsWhole) (arg3 : Memref sig .tc .vmem S512x2048 .f32) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hf : condFirst i) (hl : ¬ condLast i)
    (x0 : Vec F S1024x2048 .bf16) (x1 : Vec F S512x2048 .f32) (x2 : Vec F S1024x1 .i32) (o m l cc : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare m ∗ owns (c : Thread nD τ) arg7 fullShare l
        ∗ owns (c : Thread nD τ) arg8 fullShare cc
        ∗ (iprop(owns (c : Thread nD τ) arg2 fullShare x0 ∗ owns (c : Thread nD τ) arg3 fullShare x1 ∗ owns (c : Thread nD τ) arg4 fullShare x2
            ∗ owns (c : Thread nD τ) arg5 fullShare o
            ∗ owns (c : Thread nD τ) arg6 fullShare (mNew i x0 x1 mReset)
            ∗ owns (c : Thread nD τ) arg7 fullShare (lNew i x0 x1 mReset lReset)
            ∗ owns (c : Thread nD τ) arg8 fullShare (cNew i x0 x1 x2 cReset)) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold mNew mReset; rfl
  isplitl [H7]
  · iexists _; isplitr; swap; · iexact H7
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold lNew mReset lReset; rfl
  iexists _; isplitr; swap; · iexact H8
  ipureintro
  sl_unfold_words
  refine (read_writes_cons_unit_zero (S := S1024x1) _ _ hz2 _ _ _).trans ?_
  dsimp only
  simp only [View.readAt_eq_ld, View.ld_unit_zero (S := S1024x2048) hz2, View.ld_unit_zero (S := S512x2048) hz2, View.ld_unit_zero (S := S1024x1) hz2, View.readCov_unit_zero (S := S1024x1) _ hz2]
  unfold cNew cReset; rfl

/-- The write-out (vocabulary tile 98): the running columns are updated and the output block is computed from the
    updated columns, whatever the output buffer held. -/
theorem kernelRun1_last (c : Dev nD) (i : grid1.Coords)
    (arg2 : Memref sig .tc .vmem S1024x2048 .bf16) (harg2 : arg2.IsWhole) (arg3 : Memref sig .tc .vmem S512x2048 .f32) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hf : ¬ condFirst i) (hl : condLast i)
    (x0 : Vec F S1024x2048 .bf16) (x1 : Vec F S512x2048 .f32) (x2 : Vec F S1024x1 .i32) (o m l cc : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare m ∗ owns (c : Thread nD τ) arg7 fullShare l
        ∗ owns (c : Thread nD τ) arg8 fullShare cc
        ∗ (iprop(owns (c : Thread nD τ) arg2 fullShare x0 ∗ owns (c : Thread nD τ) arg3 fullShare x1 ∗ owns (c : Thread nD τ) arg4 fullShare x2
            ∗ owns (c : Thread nD τ) arg5 fullShare (oNew (mNew i x0 x1 m) (lNew i x0 x1 m l) (cNew i x0 x1 x2 cc))
            ∗ owns (c : Thread nD τ) arg6 fullShare (mNew i x0 x1 m)
            ∗ owns (c : Thread nD τ) arg7 fullShare (lNew i x0 x1 m l)
            ∗ owns (c : Thread nD τ) arg8 fullShare (cNew i x0 x1 x2 cc)) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold oNew mNew lNew cNew; rfl
  isplitl [H6]
  · iexists _; isplitr; swap; · iexact H6
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold mNew; rfl
  isplitl [H7]
  · iexists _; isplitr; swap; · iexact H7
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold lNew; rfl
  iexists _; isplitr; swap; · iexact H8
  ipureintro
  sl_unfold_words
  refine (read_writes_cons_unit_zero (S := S1024x1) _ _ hz2 _ _ _).trans ?_
  dsimp only
  simp only [View.readAt_eq_ld, View.ld_unit_zero (S := S1024x2048) hz2, View.ld_unit_zero (S := S512x2048) hz2, View.ld_unit_zero (S := S1024x1) hz2, View.readCov_unit_zero (S := S1024x1) _ hz2]
  unfold cNew; rfl

end Cert.Kernel.Hand

end
-- ==== Proof.R1F.lean ====
/-
  The second kernel region (the cross-entropy kernel, a grid of 4 row tiles by 99 vocabulary tiles) of the word-level
  program, for the FRAME claim: its proof data at a PARAMETER `V` (the TensorCore's buffer contents when the region is
  entered) with every window FORGOTTEN. The vocabulary window's last block reaches past the array's end, so its staging
  rows there hold contents nobody names, and the matrix product carries them into the three running columns and the
  output block; the frame claim reads none of these, so the body is asked only to run without fault and to hand back
  every buffer it was given, at whatever contents.
-/
import proofs.«416190_j54460185313708_2_alg».proof.Proof.R1RunK
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The region's proof data, every window forgotten -/

/-- Every window of the region is forgotten: the claim this data serves reads no array the region writes, and of the
    arrays it only reads, that they are unchanged is a fact of the pipeline, not of the body. -/
abbrev forgets1 : Fin 4 → Bool := fun _ => true

/-- The proof data of the region on core `c`: the arrays as the region finds them (`V`); what the body leaves in each
    window's buffer is not named; the invariant "the scoped rest (the three running columns among it) and the generator
    register, each at some contents"; nothing owed; full shares. -/
def dat1F (c : Dev nD) : Dat τ (Elt F) Unit ℕ (UR sig nD τ) ℕ cfg1 c where
  A w := V c (Pipeline.arrRef spec1 w)
  after w t := match w with
    | ⟨0, h⟩ => Pipeline.Dat.unnamed (cfg := cfg1) ⟨0, h⟩ t
    | ⟨1, h⟩ => Pipeline.Dat.unnamed (cfg := cfg1) ⟨1, h⟩ t
    | ⟨2, h⟩ => Pipeline.Dat.unnamed (cfg := cfg1) ⟨2, h⟩ t
    | ⟨3, h⟩ => Pipeline.Dat.unnamed (cfg := cfg1) ⟨3, h⟩ t
  Φ _ := Pipeline.ΦA spec1 c
  q _ := fullShare
  owed _ := 0

/-- The proof data's arrays are the region-entry contents. -/
theorem A_eq1F (c : Dev nD) (w : Fin cfg1.W) : (dat1F V c).A w = V c (Pipeline.arrRef spec1 w) := by
  dsimp only [dat1F]

/-! ## The invariant, with the three running columns as whole memrefs -/

/-- The invariant lists the eight scoped buffers that are no staging buffer of this region — the five staging buffers of
    the first region, idle here, and the three running columns — beside the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM fullShare d)
          ∗ (∃ d, owns (c : Thread nD τ) scL fullShare d)
          ∗ (∃ d, owns (c : Thread nD τ) scC fullShare d)) ∗ (∃ r, prngReg c r)) := by
  unfold Pipeline.ΦA; rw [scopedRest1_eq]; simp only [scM, scL, scC, owns_whole]; try rfl

/-! ## The body obligation, at a generic point -/

/-- What the body is called with at point `t`: the invariant, the core's debt, and the four windows' current staging
    buffers, each at whatever it holds, -/
def bodyPre1F (c : Dev nD) (t : Fin cfg1.N) : sProp 𝕄 :=
  iprop((dat1F V c).Φ t.castSucc ∗ (dat1F V c).owesAt () t.castSucc
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X))

/-- and what it returns: the same, each buffer again at whatever it holds. -/
def bodyPost1F (c : Dev nD) (t : Fin cfg1.N) : sProp 𝕄 :=
  iprop((dat1F V c).Φ t.succ ∗ (dat1F V c).owesAt () t.succ
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X))

set_option maxHeartbeats 1000000 in
/-- The body at any point. The point is a reset point (vocabulary tile 0), a write-out point (vocabulary tile 98) or
    neither, never both; in each case the body's triple applies at the contents handed over, the three running columns
    taken out of the invariant and put back at what the body left; the rest of the invariant and the core's debt pass
    through unread. -/
theorem sound_body1F (c : Dev nD) (t : Fin cfg1.N) :
    bodyPre1F V c t ⊢ wp frame (wpE (defs₀ (F := F)) Variants.none c none) Set.univ (bodyAt1 t) (fun _ => bodyPost1F V c t) := by
  unfold bodyPre1F bodyPost1F bodyAt1
  rw [show (dat1F V c).Φ t.succ = Pipeline.ΦA spec1 c from rfl,
    show (dat1F V c).Φ t.castSucc = Pipeline.ΦA spec1 c from rfl,
    show (dat1F V c).owesAt () t.succ = (dat1F V c).owesAt () t.castSucc from rfl, PhiA1_eq]
  iintro ⟨⟨⟨A0, A1, A2, A3, A4, ⟨%m0, HM⟩, ⟨%l0, HL⟩, ⟨%c0, HC⟩⟩, Hp⟩, Ho, ⟨%x0, H0⟩, ⟨%x1, H1⟩, ⟨%x2, H2⟩, ⟨%o, H3⟩⟩
  by_cases h0 : t.val % 99 = 0
  · iapply (kernelRun1_first c (grid1.coords t) _ _ _ _ _ _ _ _ _ _ _ _ _ _ ((hcondFirst t).mpr h0)
      (fun h => by have := (hcondLast t).mp h; omega) x0 x1 x2 o m0 l0 c0 Set.univ _)
    isplitl [H0]; · iexact H0
    isplitl [H1]; · iexact H1
    isplitl [H2]; · iexact H2
    isplitl [H3]; · iexact H3
    isplitl [HM]; · iexact HM
    isplitl [HL]; · iexact HL
    isplitl [HC]; · iexact HC
    iintro ⟨H0, H1, H2, H3, HM, HL, HC⟩
    isplitl [A0 A1 A2 A3 A4 HM HL HC Hp]
    · isplitr [Hp]
      · isplitl [A0]; · iexact A0
        isplitl [A1]; · iexact A1
        isplitl [A2]; · iexact A2
        isplitl [A3]; · iexact A3
        isplitl [A4]; · iexact A4
        isplitl [HM]; · iexists _; iexact HM
        isplitl [HL]; · iexists _; iexact HL
        iexists _; iexact HC
      iexact Hp
    isplitl [Ho]; · iexact Ho
    isplitl [H0]; · iexists _; iexact H0
    isplitl [H1]; · iexists _; iexact H1
    isplitl [H2]; · iexists _; iexact H2
    iexists _; iexact H3
  · by_cases h1 : t.val % 99 = 98
    · iapply (kernelRun1_last c (grid1.coords t) _ _ _ _ _ _ _ _ _ _ _ _ _ _ (fun h => h0 ((hcondFirst t).mp h))
        ((hcondLast t).mpr h1) x0 x1 x2 o m0 l0 c0 Set.univ _)
      isplitl [H0]; · iexact H0
      isplitl [H1]; · iexact H1
      isplitl [H2]; · iexact H2
      isplitl [H3]; · iexact H3
      isplitl [HM]; · iexact HM
      isplitl [HL]; · iexact HL
      isplitl [HC]; · iexact HC
      iintro ⟨H0, H1, H2, H3, HM, HL, HC⟩
      isplitl [A0 A1 A2 A3 A4 HM HL HC Hp]
      · isplitr [Hp]
        · isplitl [A0]; · iexact A0
          isplitl [A1]; · iexact A1
          isplitl [A2]; · iexact A2
          isplitl [A3]; · iexact A3
          isplitl [A4]; · iexact A4
          isplitl [HM]; · iexists _; iexact HM
          isplitl [HL]; · iexists _; iexact HL
          iexists _; iexact HC
        iexact Hp
      isplitl [Ho]; · iexact Ho
      isplitl [H0]; · iexists _; iexact H0
      isplitl [H1]; · iexists _; iexact H1
      isplitl [H2]; · iexists _; iexact H2
      iexists _; iexact H3
    · iapply (kernelRun1_mid c (grid1.coords t) _ _ _ _ _ _ _ _ _ _ _ _ _ _ (fun h => h0 ((hcondFirst t).mp h))
        (fun h => h1 ((hcondLast t).mp h)) x0 x1 x2 o m0 l0 c0 Set.univ _)
      isplitl [H0]; · iexact H0
      isplitl [H1]; · iexact H1
      isplitl [H2]; · iexact H2
      isplitl [H3]; · iexact H3
      isplitl [HM]; · iexact HM
      isplitl [HL]; · iexact HL
      isplitl [HC]; · iexact HC
      iintro ⟨H0, H1, H2, H3, HM, HL, HC⟩
      isplitl [A0 A1 A2 A3 A4 HM HL HC Hp]
      · isplitr [Hp]
        · isplitl [A0]; · iexact A0
          isplitl [A1]; · iexact A1
          isplitl [A2]; · iexact A2
          isplitl [A3]; · iexact A3
          isplitl [A4]; · iexact A4
          isplitl [HM]; · iexists _; iexact HM
          isplitl [HL]; · iexists _; iexact HL
          iexists _; iexact HC
        iexact Hp
      isplitl [Ho]; · iexact Ho
      isplitl [H0]; · iexists _; iexact H0
      isplitl [H1]; · iexists _; iexact H1
      isplitl [H2]; · iexists _; iexact H2
      iexists _; iexact H3

/-- The library's body obligation with every window forgotten, at every point. -/
theorem body_obligation1F (c : Dev nD) :
    BodyObligationLoose (dat1F (F := F) V c) (defs₀ (F := F)) Variants.none () Set.univ forgets1 := fun t => by
  rw [bigSep_W1]
  exact sound_body1F V c t

end Cert.Kernel.Hand

end
-- ==== Proof.RunBits.lean ====
/-
  The FRAME of the word-level kernel program: every weakly fair execution of @main from any memory with zero counters
  terminates without fault and ends with the four argument arrays as launched. @main is a host stretch, the first kernel
  region (the RMS normalisation), a host stretch, the second kernel region (the cross-entropy kernel), a host stretch.

  The second region's vocabulary window runs past its array's end, so what that region computes — its output array
  among it — has contents nobody names. The claim reads none of them. The first region is certified with exact proof
  data read relationally; the second with every window forgotten, so that it leaves its output array at SOME contents
  `Y`; the thread state after it says "every unscoped buffer at the valuation that has `Y` in the output array and
  is otherwise as the region was entered, for some `Y`", and the last host stretch runs from that state for whichever
  `Y` it is. No branch, address or trip count is ever taken from `Y`, and no argument array is written by any item, so
  the fold of valuations read at an argument walks back to the launch memory whatever `Y` is.
-/
import proofs.«416190_j54460185313708_2_alg».proof.Proof.R0K
import proofs.«416190_j54460185313708_2_alg».proof.Proof.R1F
import proofs.«416190_j54460185313708_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary between two items: a fold from the launch memory -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references (what the first region's proof data take). -/
abbrev VT1 : (c : Dev nD) → (b : Ref sig .tc) → Buf (Elt F) ((c : Thread nD τ).loc b) := fun c b => W1 m c b
/-- At the first region's exit: its arrays at what the pipeline leaves (the inputs as entered, the output's
    write-backs folded), every other buffer as entered. -/
def W2 (c : Dev nD) : Valuation τ sig (Elt F) :=
  Pipeline.withArrays spec0 c (W1 m c) fun w => (dat0 (VT1 m) c).arrAt w cfg0.N
theorem W2_arr (c : Dev nD) (w : Fin cfg0.W) :
    W2 m c (Proc.devRef .tc (Pipeline.arrRef spec0 w)) = (dat0 (VT1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the first region's exit contents). -/
abbrev VT2 : (c : Dev nD) → (b : Ref sig .tc) → Buf (Elt F) ((c : Thread nD τ).loc b) := fun c b => W2 m c b
/-- At the first region's exit each of its arrays holds what the pipeline leaves and every other buffer what it held
    at entry. -/
theorem hF0 (c : Dev nD) (w : Fin cfg0.W) : (dat0 (VT1 m) c).arrAt w cfg0.N = VT2 m c (Pipeline.arrRef spec0 w) :=
  (W2_arr m c w).symm
theorem hrest0 (c : Dev nD) : ∀ b, b ∉ Finset.univ.image (Pipeline.arrRef spec0) → VT2 m c b = VT1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
/-- The same read at the TensorCore's references (what the second region's proof data take). -/
abbrev VT3 : (c : Dev nD) → (b : Ref sig .tc) → Buf (Elt F) ((c : Thread nD τ).loc b) := fun c b => W3 m c b
/-- At the second region's exit, its output array holding `Y`: every other buffer as the region was entered (its three
    input arrays among them: an input array is never written back). -/
def W4 (c : Dev nD) (Y : Buf (Elt F) ((c : Thread nD τ).loc main_v16)) : Valuation τ sig (Elt F) :=
  Function.update (W3 m c) (Proc.devRef .tc main_v16) Y
theorem W4_self (c : Dev nD) (Y : Buf (Elt F) ((c : Thread nD τ).loc main_v16)) :
    W4 m c Y (Proc.devRef .tc main_v16) = Y := by
  unfold W4; exact Function.update_self ..
theorem W4_of_ne (c : Dev nD) (Y : Buf (Elt F) ((c : Thread nD τ).loc main_v16)) (r : Ref sig .tc) (h : r ≠ main_v16) :
    W4 m c Y (Proc.devRef .tc r) = W3 m c (Proc.devRef .tc r) := by
  unfold W4; exact Function.update_of_ne (StableHlo.devRef_ne_of_ne h) _ _
/-- After the last host stretch (the end of @main), the second region's output having held `Y`. -/
abbrev W5 (c : Dev nD) (Y : Buf (Elt F) ((c : Thread nD τ).loc main_v16)) : Valuation τ sig (Elt F) :=
  StableHlo.after hostOps2 (W4 m c Y)

/-- Off the second region's arrays the exit valuation is the entry valuation, whatever the output holds. -/
theorem hrest1 (c : Dev nD) (Y : Buf (Elt F) ((c : Thread nD τ).loc main_v16)) :
    ∀ b, b ∉ Finset.univ.image (Pipeline.arrRef spec1) → (fun b : Ref sig .tc => W4 m c Y b) b = VT3 m c b :=
  fun b hb => W4_of_ne m c Y b fun e => hb (Finset.mem_image.mpr ⟨3, Finset.mem_univ _, e ▸ rfl⟩)

/-! ### The arguments end as launched: no host operation and no region writes one (a region reads it through an
    input window or bypasses it), so the fold at an argument's buffer walks back to the launch memory -/

theorem W5_main_arg0 (c : Dev nD) (Y : Buf (Elt F) ((c : Thread nD τ).loc main_v16)) :
    W5 m c Y (Proc.devRef .tc main_arg0) = m ((c : Thread nD τ).loc main_arg0) :=
  calc W5 m c Y (Proc.devRef .tc main_arg0)
    _ = W4 m c Y (Proc.devRef .tc main_arg0) := StableHlo.after_of_writes_sub hostOps2 _ hostOps2_writes (by decide)
    _ = W3 m c (Proc.devRef .tc main_arg0) := W4_of_ne m c Y main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) (Y : Buf (Elt F) ((c : Thread nD τ).loc main_v16)) :
    W5 m c Y (Proc.devRef .tc main_arg1) = m ((c : Thread nD τ).loc main_arg1) :=
  calc W5 m c Y (Proc.devRef .tc main_arg1)
    _ = W4 m c Y (Proc.devRef .tc main_arg1) := StableHlo.after_of_writes_sub hostOps2 _ hostOps2_writes (by decide)
    _ = W3 m c (Proc.devRef .tc main_arg1) := W4_of_ne m c Y main_arg1 (by decide)
    _ = W2 m c (Proc.devRef .tc main_arg1) := StableHlo.after_of_writes_sub hostOps1 _ hostOps1_writes (by decide)
    _ = W1 m c (Proc.devRef .tc main_arg1) := (W2_arr m c 1).trans (((dat0 (VT1 m) c).arrAt_in 1 rfl _).trans (A_eq0 (VT1 m) c 1))
    _ = W0 m c (Proc.devRef .tc main_arg1) := StableHlo.after_of_writes_sub hostOps0 _ hostOps0_writes (by decide)
    _ = m ((c : Thread nD τ).loc main_arg1) := rfl

theorem W5_main_arg2 (c : Dev nD) (Y : Buf (Elt F) ((c : Thread nD τ).loc main_v16)) :
    W5 m c Y (Proc.devRef .tc main_arg2) = m ((c : Thread nD τ).loc main_arg2) :=
  calc W5 m c Y (Proc.devRef .tc main_arg2)
    _ = W4 m c Y (Proc.devRef .tc main_arg2) := StableHlo.after_of_writes_sub hostOps2 _ hostOps2_writes (by decide)
    _ = W3 m c (Proc.devRef .tc main_arg2) := W4_of_ne m c Y main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W5_main_arg3 (c : Dev nD) (Y : Buf (Elt F) ((c : Thread nD τ).loc main_v16)) :
    W5 m c Y (Proc.devRef .tc main_arg3) = m ((c : Thread nD τ).loc main_arg3) :=
  calc W5 m c Y (Proc.devRef .tc main_arg3)
    _ = W4 m c Y (Proc.devRef .tc main_arg3) := StableHlo.after_of_writes_sub hostOps2 _ hostOps2_writes (by decide)
    _ = W3 m c (Proc.devRef .tc main_arg3) := W4_of_ne m c Y main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data families and the thread state -/

/-- Every pipeline's exact proof data, each at its region's entry contents — a literal `match`, so that the pinned
    configuration at a numeral reduces to the printed one. The second region's names nothing of what its body leaves. -/
def pdats : (p : Fin 2) → (c : Dev nD) → Dat τ (Elt F) Unit ℕ (UR sig nD τ) ℕ (Pipeline.pin (pcfgs (F := F)) adm p) c
  | ⟨0, _⟩ => fun c => dat0 (VT1 m) c
  | ⟨1, _⟩ => fun c => dat1F (VT3 m) c
/-- The same read relationally: the first region's exactly, the second's with every window forgotten. -/
def rdats : (p : Fin 2) → (c : Dev nD) → RDat τ (Elt F) Unit ℕ (UR sig nD τ) ℕ (Pipeline.pin (pcfgs (F := F)) adm p) c
  | ⟨0, _⟩ => fun c => (dat0 (VT1 m) c).toR
  | ⟨1, _⟩ => fun c => (dat1F (VT3 m) c).toRForget forgets1
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: for SOME contents `Y` the second region left in its output array, every
    unscoped buffer at the last boundary's contents, and the generator register at some state. -/
abbrev Tₙ (c : Dev nD) : sProp 𝕄 :=
  iprop(∃ Y, StableHlo.held (c : Thread nD τ) (Pipeline.ucRefs τ sig) (W5 m c Y) ∗ ∃ r, prngReg c r)

/-! ## The last host stretch, from whatever the second region left -/

-- a rule stated for any thread unifies at the TensorCore thread only when unification may unfold plain definitions in
-- a metavariable's type
set_option backward.isDefEq.respectTransparency.types false in
/-- The last host stretch as a segment entered from "the unscoped buffers at the exit valuation of the second region,
    for SOME contents `Y` of its output array": whichever `Y` it is, the straight line runs from that valuation to its
    `after`, and nothing it does depends on `Y` but the contents it computes. -/
def segLast : Pipeline.HostSeg (Name := ℕ) (U := UR sig nD τ) (pcfgs (F := F)) defs₀ 𝒱₀ L lv where
  prog := StableHlo.seq hostOps2
  pre c := iprop(∃ Y, StableHlo.held (c : Thread nD τ) (Pipeline.ucRefs τ sig) (W4 m c Y) ∗ R c)
  post c := iprop(∃ Y, StableHlo.held (c : Thread nD τ) (Pipeline.ucRefs τ sig) (W5 m c Y) ∗ R c)
  run c {β} k K := by
    iintro ⟨Hk, Hbd, ⟨%Y, Hh, HR⟩, -⟩
    have hseq := StableHlo.wp_seq (defs := Pipeline.defs (pcfgs (F := F)) defs₀) (Variants.lift 𝒱₀) none Set.univ c (Pipeline.ucRefs τ sig) k (K := K)
      hostOps2 (fun op h => Pipeline.sub_ucRefs op ((List.forall_iff_forall_mem.mp hostOps2_sub) op h))
      (fun op h => (List.forall_iff_forall_mem.mp hostOps2_fresh) op h) (W4 m c Y)
    iapply hseq $$ [Hbd Hh]
    · isplitl [Hbd] <;> iassumption
    iintro ⟨Hbd, Hh⟩
    iapply Hk
    isplitl [Hbd]; · iexact Hbd
    iexists Y
    isplitl [Hh] <;> iassumption

/-! ## The regions as segments -/

/-- The second region's arrays at its exit: the three inputs hold their entry contents, the output some `Y`; so they
    are the region's arrays read off the exit valuation at that `Y`. -/
theorem arraysAt1_exit (c : Dev nD) :
    (((dat1F (VT3 m) c).toRForget forgets1).arraysAt cfg1.N : sProp 𝕄)
      ⊢ iprop(∃ Y, (dat1F (VT3 m) c).arrays (fun w => W4 m c Y (Pipeline.arrRef spec1 w))) := by
  unfold Pipeline.RDat.arraysAt Pipeline.Dat.arrays
  rw [bigSep_W1]
  iintro ⟨⟨%F0, %h0, H0⟩, ⟨%F1, %h1, H1⟩, ⟨%F2, %h2, H2⟩, ⟨%F3, -, H3⟩⟩
  have e0 : F0 = _ := (congrFun (((dat1F (VT3 m) c).toRForget forgets1).ArrAt_in 0 rfl cfg1.N) F0).mp h0
  have e1 : F1 = _ := (congrFun (((dat1F (VT3 m) c).toRForget forgets1).ArrAt_in 1 rfl cfg1.N) F1).mp h1
  have e2 : F2 = _ := (congrFun (((dat1F (VT3 m) c).toRForget forgets1).ArrAt_in 2 rfl cfg1.N) F2).mp h2
  have hw0 : W4 m c F3 (Proc.devRef .tc (Pipeline.arrRef spec1 0)) = F0 :=
    (W4_of_ne m c F3 (Pipeline.arrRef spec1 0) (by decide)).trans e0.symm
  have hw1 : W4 m c F3 (Proc.devRef .tc (Pipeline.arrRef spec1 1)) = F1 :=
    (W4_of_ne m c F3 (Pipeline.arrRef spec1 1) (by decide)).trans e1.symm
  have hw2 : W4 m c F3 (Proc.devRef .tc (Pipeline.arrRef spec1 2)) = F2 :=
    (W4_of_ne m c F3 (Pipeline.arrRef spec1 2) (by decide)).trans e2.symm
  have hw3 : W4 m c F3 (Proc.devRef .tc (Pipeline.arrRef spec1 3)) = F3 := W4_self m c F3
  iexists F3
  rw [bigSep_W1]
  simp only [hw0, hw1, hw2, hw3]
  isplitl [H0]; · iexact H0
  isplitl [H1]; · iexact H1
  isplitl [H2]; · iexact H2
  iexact H3

-- a library lemma stated over the pinned configuration unifies with the printed one only when unification may unfold
-- plain definitions in a metavariable's type
set_option backward.isDefEq.respectTransparency.types false in
/-- The first region over the thread state: entered from every unscoped buffer at `W1`, left at `W2`. Its arrays split
    out of the unscoped buffers and put back at the exit contents; the generator register into the invariant and out;
    nothing owed; no semaphore of the kernel's own. Exact proof data read relationally: at the exit the arrays "at some
    contents they may hold" are the arrays at the contents the data names. -/
def reg0 : RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VT1 m) c).loose.toR
  hwaits := RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VT1 m c)
  hentry c := by
    rw [Pipeline.ownSems0_none]
    have hsplit := RDat.arrays_of_unscopedBufs (p := 0) (pcfgs (F := F)) adm (rdats m) launch0.win launch0.arr_whole c
      ((rdats m 0 c).share_full fun _ => rfl) (VT1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VT1 m c) (VT2 m c) ((pdats m 0 c).arrAt · cfg0.N) (hF0 m c) (hrest0 m c)
    rw [Pipeline.unscopedBufs_held] at hjoin
    have hnamed : ((rdats m 0 c).arraysAt cfg0.N : sProp 𝕄) ⊢ (pdats m 0 c).arrays ((pdats m 0 c).arrAt · cfg0.N) :=
      Entails.of_eq ((dat0 (VT1 m) c).toR_arraysAt_eq cfg0.N)
    iintro ⟨Ha, HO, HY, Hrest⟩
    ihave Ha := hnamed $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second region over the thread state: entered from every unscoped buffer at `W3`, left — for SOME contents `Y`
    of its output array — at the valuation that has `Y` there and is otherwise `W3`. -/
def reg1 : RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1F (VT3 m) c).toRForget
  hwaits := RDat.hwaits_of_owed_zero _ _ _ _ L lv 1 fun _ _ => rfl
  pre c := iprop(StableHlo.held (c : Thread nD τ) (Pipeline.ucRefs τ sig) (W3 m c) ∗ R c)
  post c := iprop(∃ Y, StableHlo.held (c : Thread nD τ) (Pipeline.ucRefs τ sig) (W4 m c Y) ∗ R c)
  X c := iprop(∃ r, prngReg c r)
  Y c := iprop(∃ r, prngReg c r)
  Z c := Pipeline.unscopedRest (Ix := Unit) (Name := ℕ) (U := UR sig nD τ) (Lvl := ℕ) spec1 c (VT3 m c)
  hentry c := by
    rw [Pipeline.ownSems0_none]
    have hsplit := RDat.arrays_of_unscopedBufs (p := 1) (pcfgs (F := F)) adm (rdats m) launch1.win launch1.arr_whole c
      ((rdats m 1 c).share_full fun _ => rfl) (VT3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : ∀ Y, iprop((pdats m 1 c).arrays (fun w => W4 m c Y (Pipeline.arrRef spec1 w))
          ∗ Pipeline.unscopedRest (Ix := Unit) (Name := ℕ) (U := UR sig nD τ) (Lvl := ℕ) spec1 c (VT3 m c))
        ⊢ (StableHlo.held (c : Thread nD τ) (Pipeline.ucRefs τ sig) (W4 m c Y) : sProp 𝕄) := fun Y => by
      have h := Pipeline.unscopedBufs_of_arrays (p := 1) (pcfgs (F := F)) adm (Ix := Unit) (Name := ℕ) (U := UR sig nD τ) (Lvl := ℕ)
        launch1.win launch1.arr_whole c (pdats m) ((pdats m 1 c).share_full fun _ => rfl)
        (VT3 m c) (fun b => W4 m c Y b) (fun w => W4 m c Y (Pipeline.arrRef spec1 w)) (fun _ => rfl) (hrest1 m c Y)
      rw [Pipeline.unscopedBufs_held] at h
      exact h
    have hsome : ((rdats m 1 c).arraysAt cfg1.N : sProp 𝕄)
        ⊢ iprop(∃ Y, (pdats m 1 c).arrays (fun w => W4 m c Y (Pipeline.arrRef spec1 w))) := arraysAt1_exit m c
    iintro ⟨Ha, HO, HY, Hrest⟩
    ihave Ha := hsome $$ Ha
    icases Ha with ⟨%Y, Ha⟩
    imodintro
    iexists Y
    isplitl [Ha Hrest]
    · iapply (hjoin Y); isplitl [Ha] <;> iassumption
    isplitl [HY]; · iexact HY
    unfold Pipeline.RDat.owesAt Pipeline.owesWithin
    icases HO with ⟨%W, -, HO⟩; iexists W; iexact HO

/-- The last host stretch's exit state is the last thread state beside the core owing nothing: the same `Y`. -/
theorem segLast_post (c : Dev nD) :
    (segLast m).post c ⊢ iprop(Tₙ m c ∗ ∃ W, owes (c : Thread nD τ) (0 : CellTallies nD τ sig Unit) W) := by
  show iprop(∃ Y, StableHlo.held (c : Thread nD τ) (Pipeline.ucRefs τ sig) (W5 m c Y) ∗ R c) ⊢ _
  iintro ⟨%Y, Hh, Hp, HO⟩
  isplitl [Hh Hp]
  · iexists Y
    isplitl [Hh]; · iexact Hh
    iexact Hp
  iexact HO

/-! ## @main as segments, and the launch -/

/-- @main's five segments in order. -/
abbrev segs : List (RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (segLast m) ]

/-- @main IS the run of the segments: its chain of items, then the segments' run against that chain. -/
theorem main_run (c : Dev nD) : main (F := F) c = RDat.Seg.run (segs m) := (main_chain c).trans (by chain_rfl)

set_option backward.isDefEq.respectTransparency.types false in
/-- THE FRAME, at any float instance: from any memory with zero counters, every weakly fair execution of @main on the
    TensorCore terminates, nothing faulting, and every final state has the four argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  RDat.θ_run_regions_kit (pcfgs (F := F)) adm (rdats m) () cellOf_inj emb₁ defs₀ 𝒱₀ L lv m ρ main (segs m)
    (fun c Q => by rw [main_run m c])
    (by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, segLast_post m⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => by
      iintro ⟨⟨%Y, Hh, -⟩, HSI⟩
      unfold StableHlo.held
      ihave Hr := (pointsTo_read_all (Pipeline.ucRefs τ sig) (fun b => (((c : Thread nD τ)).1, b)) (W5 m c Y) s') $$ [Hh HSI]
      · isplitl [Hh] <;> iassumption
      icases Hr with ⟨%h, HSI⟩
      imodintro
      isplitr
      · ipureintro
        exact ⟨(h _ (mem_uc main_arg0 (by decide))).trans (W5_main_arg0 m c Y),
          (h _ (mem_uc main_arg1 (by decide))).trans (W5_main_arg1 m c Y),
          (h _ (mem_uc main_arg2 (by decide))).trans (W5_main_arg2 m c Y),
          (h _ (mem_uc main_arg3 (by decide))).trans (W5_main_arg3 m c Y)⟩
      iexact HSI)
    (hQ := fun _ h => h)

end Cert.Kernel.Hand

end
-- ==== Proof.R0.lean ====
/- The first kernel region (the RMS normalisation, a grid of 8 row tiles of 512 rows) of `Cert.KernelIdeal`:
   its proof data and body obligation, at a PARAMETER `V` (the TensorCore's buffer contents when the region is
   entered), generic in the float instance. Two input windows (window 0: a block of 512 rows of the activations;
   window 1: the whole weight vector, fetched at the first point only) and one output window (window 2: the
   bf16 block of 512 rows). The body reads both inputs and writes ONE whole-block value, the skeleton's payload
   `k0_pay1` of the two values read. -/
import proofs.«416190_j54460185313708_2_alg».proof.Proof.Gen.KernelIdeal.Launch
import proofs.«416190_j54460185313708_2_alg».proof.Proof.Gen.KernelIdeal.Skeleton
import proofs.«416190_j54460185313708_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extents 512 × 2048 is decided by structural evaluation, which recurses
-- once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 512 rows of the activations at the point) holds its block at every point, for ANY proof
    data whose array is `V`'s and whose body leaves the block in place: the window is an input, never idle and
    uncut, so wherever it was not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight vector, one block for the whole grid, fetched at the first point only) likewise:
    at the seven later points the buffer still holds the first point's block, which is every point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 2048 block, as the rectangle at offset zero of full extent. -/
abbrev r0_0 : Rect S512x2048 := Rect.unit (s := S512x2048) ![0, 0] S512x2048.size inb_S512x2048_S512x2048_0_0
/-- The whole weight vector, likewise. -/
abbrev r0_1 : Rect S2048 := Rect.unit (s := S2048) ![0] S2048.size inb_S2048_S2048_0

/-! ## What the body leaves in the output window's buffer -/

/-- Window 2's buffer after the body, from the two input blocks: its one store as a piece over the whole block,
    the payload that of the skeleton at the two values loaded. -/
def out0_2 (x0 : Vec F S512x2048 .f32) (x1 : Vec F S2048 .f32) : Vec F S512x2048 .bf16 :=
  View.canon [⟨r0_0, k0_pay1 (View.ld x0 r0_0) (View.ld x1 r0_1)⟩]

/-- The one store's rectangle is the whole block, so it covers it. -/
theorem cover0_2 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The kernel body on whole staging memrefs, the two inputs' at read contents `x0`, `x1` and the output's at
    anything, runs to the continuation holding the inputs' as they were and the output's at `out0_2 x0 x1`:
    the printed function is its skeleton, three loads (the third, of the output buffer, reads a value nothing uses)
    and one store of the payload over the whole block. -/
theorem sound_kernel0 (c : Dev nD) (E : Set ℕ) (i : grid0.Coords)
    (arg1 : Memref sig .tc .vmem S512x2048 .f32) (harg1 : arg1.IsWhole)
    (arg2 : Memref sig .tc .vmem S2048 .f32) (harg2 : arg2.IsWhole)
    (arg3 : Memref sig .tc .vmem S512x2048 .bf16) (harg3 : arg3.IsWhole)
    (x0 : Vec F S512x2048 .f32) (x1 : Vec F S2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__rmsnorm_kernel i arg1 harg1 arg2 harg2 arg3 harg3) K := by
  simp only [cc0__rmsnorm_kernel_eq_skeleton]; unfold cc0__rmsnorm_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them (`V`); after the body at
    point `t` each input's buffer at its block and the output's at `out0_2` of the two input blocks; the invariant
    "the scoped rest and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debt, and the three windows' current
    staging buffers, each at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Defs.lean ====
/-
  The second kernel region (the cross-entropy kernel over a 4 × 99 grid of row tiles and vocabulary tiles): the names
  its proofs are stated over. A grid point is (row tile, vocabulary tile); the three scratch columns carry the running
  maximum, the running sum of exponentials and the picked logit from one vocabulary tile to the next; they are reset
  at vocabulary tile 0 and the output block is written at vocabulary tile 98.
-/
import proofs.«416190_j54460185313708_2_alg».proof.Proof.Gen.KernelIdeal.Launch
import proofs.«416190_j54460185313708_2_alg».proof.Proof.Gen.KernelIdeal.Skeleton
import proofs.«416190_j54460185313708_2_alg».proof.Proof.Gen.KernelIdeal.Points
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- The three scratch columns as whole memrefs. -/
abbrev scM : Memref sig .tc .vmem S1024x1 .f32 := Memref.whole cc1_scratch0
abbrev scL : Memref sig .tc .vmem S1024x1 .f32 := Memref.whole cc1_scratch1
abbrev scC : Memref sig .tc .vmem S1024x1 .f32 := Memref.whole cc1_scratch2

/-- The reset condition of the body's first conditional (vocabulary tile 0), as the body computes it. -/
abbrev condFirst (i : grid1.Coords) : Prop :=
  Scalar.cmpi .ne (Scalar.extui (Scalar.cmpi .eq (BitVec.ofNat 32 (i 1).val) 0#32)) 0#32 = 1#1
/-- The write-out condition of the body's last conditional (vocabulary tile 98). -/
abbrev condLast (i : grid1.Coords) : Prop := k1_cond2 i = 1#1

/-- The reset holds exactly at the points ≡ 0 (mod 99). -/
theorem hcondFirst : ∀ t : Fin cfg1.N, condFirst (grid1.coords t) ↔ t.val % 99 = 0 :=
  (by decide +kernel : ∀ t : Fin grid1.N, condFirst (grid1.coords t) ↔ t.val % 99 = 0)
/-- The write-out holds exactly at the points ≡ 98 (mod 99). -/
theorem hcondLast : ∀ t : Fin cfg1.N, condLast (grid1.coords t) ↔ t.val % 99 = 98 :=
  (by decide +kernel : ∀ t : Fin grid1.N, condLast (grid1.coords t) ↔ t.val % 99 = 98)

/-- A point's coordinates: row tile t / 99, vocabulary tile t % 99. -/
theorem coords1_0 : ∀ t : Fin cfg1.N, ((grid1.coords t) 0).val = t.val / 99 :=
  (by decide +kernel : ∀ t : Fin grid1.N, ((grid1.coords t) 0).val = t.val / 99)
theorem coords1_1 : ∀ t : Fin cfg1.N, ((grid1.coords t) 1).val = t.val % 99 :=
  (by decide +kernel : ∀ t : Fin grid1.N, ((grid1.coords t) 1).val = t.val % 99)

/-- What one grid point makes of the running values, from the hidden block `x0`, the vocabulary block `x1`, the label
    block `x2` and the running values it starts from. -/
def mNew (i : grid1.Coords) (x0 : Vec F S1024x2048 .bf16) (x1 : Vec F S512x2048 .f32) (m : Vec F S1024x1 .f32) : Vec F S1024x1 .f32 :=
  k1_pay2 (k1_pay10 i x0 x1 m)
def lNew (i : grid1.Coords) (x0 : Vec F S1024x2048 .bf16) (x1 : Vec F S512x2048 .f32) (m l : Vec F S1024x1 .f32) : Vec F S1024x1 .f32 :=
  k1_pay11 i x0 x1 m l
def cNew (i : grid1.Coords) (x0 : Vec F S1024x2048 .bf16) (x1 : Vec F S512x2048 .f32) (x2 : Vec F S1024x1 .i32) (c : Vec F S1024x1 .f32) : Vec F S1024x1 .f32 :=
  k1_pay1 (k1_pay7 i) (k1_pay8 i x0 x1) (k1_pay9 x2) c
/-- The output block from the final running values. -/
def oNew (m l c : Vec F S1024x1 .f32) : Vec F S1024x1 .f32 := k1_pay3 m l c
/-- The reset values. -/
def mReset : Vec F S1024x1 .f32 := k1_pay4 (F := F)
def lReset : Vec F S1024x1 .f32 := k1_pay5 (F := F)
def cReset : Vec F S1024x1 .f32 := k1_pay6 (F := F)

end Cert.KernelIdeal.Hand

end
-- ==== Proof.Spec.lean ====
/-
  The common specification both programs are shown to compute, over the reals.

  Under the precondition every float input is a real number, so the computation runs in ℝ: a row of
  hidden states is scaled by the reciprocal root of its mean square (plus the offset) and by the norm
  weight; its logits are the inner products with the rows of the vocabulary matrix; the row's
  negative log-likelihood of a class is the log-sum-exp of the logits minus the class's logit; the
  loss is the mean of that quantity over the rows whose shifted label is a class (a label outside
  the vocabulary, the ignore label among them, contributes nothing and is not counted), the divisor
  at least one. Rows are the two batches laid end to end (row 2048·b + t); a row's label is the
  label of the next position, the last position of each batch having none.
-/
import Idealize.ShloMosaic.PureOps.Ideal
import Idealize.ShloMosaic.Lib.ValueIdx

noncomputable section

open scoped BigOperators

namespace Cert.Spec

open Idealize.ShloMosaic Idealize.ShloMosaic.ValueIdx

/-- The real data: hidden rows, norm weight, vocabulary matrix, variance offset (positive). -/
structure Data where
  x : Fin 4096 → Fin 2048 → ℝ
  w : Fin 2048 → ℝ
  lm : Fin 50257 → Fin 2048 → ℝ
  eps : ℝ
  eps_pos : 0 < eps

variable (D : Data)

/-- The mean of a row's squares. -/
def meanSq (R : Fin 4096) : ℝ := (∑ d, D.x R d * D.x R d) / 2048

/-- The normalised, weighted hidden state. -/
def hid (R : Fin 4096) (d : Fin 2048) : ℝ := D.x R d * (Real.sqrt (meanSq D R + D.eps))⁻¹ * D.w d

/-- The logit of class `v` in row `R`. -/
def logit (R : Fin 4096) (v : Fin 50257) : ℝ := ∑ d, hid D R d * D.lm v d

/-- A row's greatest logit. -/
def rowMax (R : Fin 4096) : ℝ := Finset.univ.sup' Finset.univ_nonempty (logit D R)

/-- A row's sum of exponentials of the logits shifted by the greatest. -/
def rowSum (R : Fin 4096) : ℝ := ∑ v, Real.exp (logit D R v - rowMax D R)

/-- The negative log-likelihood of class `l` in row `R`: log-sum-exp minus the class's logit. -/
def nll (R : Fin 4096) (l : Fin 50257) : ℝ := rowMax D R + Real.log (rowSum D R) - logit D R l

/-- The row of batch `b`, position `t`. -/
def row (b : Fin 2) (t : Fin 2048) : Fin 4096 := ⟨2048 * b.val + t.val, by omega⟩

/-- The ignore label, −100 as a 32-bit word. -/
abbrev ignoreW : BitVec 32 := 4294967196#32

/-- A label word is a class when, read unsigned, it is below the vocabulary size (a negative word reads above it). -/
def IsClass (z : BitVec 32) : Prop := z.toNat < 50257

instance (z : BitVec 32) : Decidable (IsClass z) := by unfold IsClass; infer_instance

/-- The labels shifted by one position and flattened: row (b, t) is labelled by position t + 1, the last position of each
    batch by the ignore label. -/
def shift (lab : Fin 2 → Fin 2048 → BitVec 32) (R : Fin 4096) : BitVec 32 :=
  if h : R.val % 2048 < 2047 then lab ⟨R.val / 2048, by omega⟩ ⟨R.val % 2048 + 1, by omega⟩ else ignoreW

/-- A row's contribution to the sum: its negative log-likelihood at its label when that is a class, else nothing. -/
def term (R : Fin 4096) (z : BitVec 32) : ℝ := if h : IsClass z then nll D R ⟨z.toNat, h⟩ else 0

/-- A row's contribution to the count. -/
def cnt (z : BitVec 32) : ℝ := if IsClass z then 1 else 0

/-- The loss: the mean over the labelled rows, the divisor at least one. -/
def loss (lab : Fin 2 → Fin 2048 → BitVec 32) : ℝ :=
  (∑ R, term D R (shift lab R)) / max (∑ R, cnt (shift lab R)) 1

/-- The argument arrays hold the data: every float entry is the real number the data names, and the shared variance
    offset's word denotes the data's offset. -/
structure Reads (ax : (⟨3, ![2, 2048, 2048]⟩ : Shape).Idx → EReal) (aw : (⟨1, ![2048]⟩ : Shape).Idx → EReal)
    (al : (⟨2, ![50257, 2048]⟩ : Shape).Idx → EReal) : Prop where
  x_eq : ∀ (b : Fin 2) (t : Fin 2048) (d : Fin 2048), ax (ix3 b t d) = ((D.x (row b t) d : ℝ) : EReal)
  w_eq : ∀ d : Fin 2048, aw (ix1 d) = ((D.w d : ℝ) : EReal)
  lm_eq : ∀ (v : Fin 50257) (d : Fin 2048), al (ix2 v d) = ((D.lm v d : ℝ) : EReal)
  eps_eq : Ideal.ofBits .f32 0x358637BD#32 = ((D.eps : ℝ) : EReal)

/-- Every label is a class or the ignore label. -/
def LabelsOk (alab : (⟨2, ![2, 2048]⟩ : Shape).Idx → BitVec 32) : Prop :=
  ∀ (b : Fin 2) (t : Fin 2048), IsClass (alab (ix2 b t)) ∨ alab (ix2 b t) = ignoreW

/-- The label array as a function of batch and position. -/
def labOf (alab : (⟨2, ![2, 2048]⟩ : Shape).Idx → BitVec 32) : Fin 2 → Fin 2048 → BitVec 32 := fun b t => alab (ix2 b t)

end Cert.Spec

end
-- ==== Proof.SoftmaxDefs.lean ====
/-
  The running form of a row's log-sum-exp, as the kernel takes it tile by tile, and its invariant.

  A row's 50257 logits are visited in 99 tiles of 512 columns; the last tile's columns 81 … 511 lie past the
  vocabulary and read −∞. Per tile the running maximum is raised to the tile's maximum, the running sum of
  exponentials is rescaled to the new maximum and the tile's exponentials are added, and the logit sitting in the
  label's column (if the label is a class) is added to the picked value. After the last tile the maximum is the
  row's, the sum is the row's sum of shifted exponentials, the picked value is the label's logit, and
  maximum + log(sum) − picked is the negative log-likelihood. A column at −∞ contributes exp(−∞) = 0.
-/
import proofs.«416190_j54460185313708_2_alg».proof.Proof.Spec

noncomputable section

open scoped BigOperators

namespace Cert.Spec

open Idealize.ShloMosaic

variable (D : Data)

/-- Column `j` of tile `k` of row `R`: the logit when the column lies inside the vocabulary, −∞ past it. -/
def tileVal (R : Fin 4096) (k : ℕ) (j : Fin 512) : EReal :=
  if h : 512 * k + j.val < 50257 then ((logit D R ⟨512 * k + j.val, h⟩ : ℝ) : EReal) else ⊥

/-- Whether column `j` of tile `k` is the label's column: the column number, as a 32-bit word, is the label word. -/
def tilePick (z : BitVec 32) (k : ℕ) (j : Fin 512) : Prop := BitVec.ofNat 32 (512 * k + j.val) = z

instance (z : BitVec 32) (k : ℕ) (j : Fin 512) : Decidable (tilePick z k j) := by unfold tilePick; infer_instance

/-- The running maximum after a tile. -/
def stepMax (m : EReal) (sv : Fin 512 → EReal) : EReal := max m ((Finset.univ : Finset (Fin 512)).fold max ⊥ sv)

/-- The running sum after a tile: the old sum rescaled to the new maximum, plus the tile's exponentials. -/
def stepSum (m l : EReal) (sv : Fin 512 → EReal) : EReal :=
  Ideal.exp (m - stepMax m sv) * l + ∑ j, Ideal.exp (sv j - stepMax m sv)

/-- The picked value after a tile. -/
def stepPick (c : EReal) (pick : Fin 512 → Prop) [DecidablePred pick] (sv : Fin 512 → EReal) : EReal :=
  c + ∑ j, (if pick j then sv j else 0)

/-- The label's logit when the label is a class, else nothing. -/
def picked (R : Fin 4096) (z : BitVec 32) : ℝ := if h : IsClass z then logit D R ⟨z.toNat, h⟩ else 0

/-- What a row's running values come to: log-sum-exp minus the picked logit. -/
def lsePick (R : Fin 4096) (z : BitVec 32) : ℝ := rowMax D R + Real.log (rowSum D R) - picked D R z

end Cert.Spec

end
-- ==== Proof.SoftmaxMath.lean ====
/-
  The mathematics of the running log-sum-exp.

  A row's logits are visited in tiles of 512 columns. After k ≥ 1 tiles the running maximum is a real number M, the
  greatest logit among the columns below 512·k; the running sum is the sum over those columns of exp(logit − M)
  (a column past the vocabulary contributes nothing); the picked value is the label's logit once the label's
  column has been visited, and nothing before. One tile's step keeps this: the new maximum M' = max(M, tile's
  maximum) is again attained and bounds every visited column, exp(M − M')·Σ exp(s − M) = Σ exp(s − M') rescales
  the old sum, and a class label matches exactly its own column (column numbers stay below 2^32, the ignore
  word reads above every column number). After 99 tiles every column has been visited, so the maximum is the
  row's, the sum is the row's, and maximum + log(sum) − picked is the log-sum-exp minus the label's logit.
-/
import proofs.«416190_j54460185313708_2_alg».proof.Proof.SoftmaxDefs
import Mathlib.Data.EReal.Basic
import Mathlib.Data.EReal.Operations
import Mathlib.Data.EReal.Inv
import Mathlib.Data.Finset.Fold
import Mathlib.Data.Fintype.BigOperators
import Mathlib.Algebra.BigOperators.Fin
import Mathlib.Algebra.BigOperators.Group.Finset.Basic
import Mathlib.Analysis.SpecialFunctions.Exp
import Mathlib.Analysis.SpecialFunctions.Log.Basic
import Mathlib.Analysis.SpecialFunctions.Sqrt
import Mathlib.Logic.Equiv.Fin.Basic

noncomputable section

open scoped BigOperators

namespace Cert.Spec

open Idealize.ShloMosaic

/-- The exponential of column i's logit shifted by M; a column past the vocabulary contributes nothing. -/
def expCol (D : Data) (R : Fin 4096) (M : ℝ) (i : ℕ) : ℝ :=
  if h : i < 50257 then Real.exp (logit D R ⟨i, h⟩ - M) else 0

/-- The label's logit once the label's column lies below n, and nothing before (or when the label is no class). -/
def pickedBelow (D : Data) (R : Fin 4096) (z : BitVec 32) (n : ℕ) : ℝ :=
  if h : IsClass z then (if z.toNat < n then logit D R ⟨z.toNat, h⟩ else 0) else 0

/-- The running values after the columns below n: the maximum is a real M that bounds those columns' logits and is
    one of them, the sum is Σ_{i<n} exp(logit i − M), the picked value is the label's logit if its column is below n. -/
def RowInvAt (D : Data) (R : Fin 4096) (z : BitVec 32) (n : ℕ) (m l c : EReal) : Prop :=
  ∃ M : ℝ, m = (M : EReal) ∧ (∀ v : Fin 50257, v.val < n → logit D R v ≤ M) ∧
    (∃ v : Fin 50257, v.val < n ∧ logit D R v = M) ∧
    l = ((∑ i ∈ Finset.range n, expCol D R M i : ℝ) : EReal) ∧ c = ((pickedBelow D R z n : ℝ) : EReal)

/-- The invariant after k tiles: nothing is claimed before the first tile; after k ≥ 1 tiles the running values are
    those of the columns below 512·k. -/
def RowInv (D : Data) (R : Fin 4096) (z : BitVec 32) : ℕ → EReal → EReal → EReal → Prop :=
  fun k m l c => 0 < k → RowInvAt D R z (512 * k) m l c

theorem rowInv_zero (D : Data) (R : Fin 4096) (z : BitVec 32) (m l c : EReal) : RowInv D R z 0 m l c :=
  fun h => absurd h (lt_irrefl 0)

/-- The embedding of the reals commutes with sums over a finite set. -/
theorem coe_sum_finset {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals commutes with finite sums. -/
theorem coe_sum {ι : Type*} [Fintype ι] (f : ι → ℝ) : ((∑ i, f i : ℝ) : EReal) = ∑ i, (f i : EReal) :=
  coe_sum_finset Finset.univ f

/-- A column number of the first 99 tiles stays below 2^32, so its 32-bit word reads back as the number: the column
    is the label's exactly when the label word reads the column number. -/
theorem tilePick_iff (z : BitVec 32) (k : ℕ) (hk' : k < 99) (j : Fin 512) :
    tilePick z k j ↔ z.toNat = 512 * k + j.val := by
  have hlt : 512 * k + j.val < 2 ^ 32 := by have := j.isLt; omega
  unfold tilePick
  constructor
  · intro h; rw [← h, BitVec.toNat_ofNat, Nat.mod_eq_of_lt hlt]
  · intro h; apply BitVec.eq_of_toNat_eq; rw [BitVec.toNat_ofNat, Nat.mod_eq_of_lt hlt, h]

/-- Within one tile the label's column is met at most once: a class label inside the tile's range picks its own
    logit, any other label (a class elsewhere, or the ignore word, which reads above every column number) picks
    nothing. -/
theorem pick_sum (D : Data) (R : Fin 4096) (z : BitVec 32) (hz : IsClass z ∨ z = ignoreW) (k : ℕ) (hk' : k < 99) :
    (∑ j, if tilePick z k j then tileVal D R k j else 0) =
      (((if h : IsClass z then (if 512 * k ≤ z.toNat ∧ z.toNat < 512 * (k + 1) then logit D R ⟨z.toNat, h⟩ else 0)
        else 0 : ℝ)) : EReal) := by
  by_cases hin : IsClass z ∧ 512 * k ≤ z.toNat ∧ z.toNat < 512 * (k + 1)
  · obtain ⟨hcl, hlo, hhi⟩ := hin
    rw [dif_pos hcl, if_pos ⟨hlo, hhi⟩]
    obtain ⟨j0, hj0⟩ : ∃ j0 : Fin 512, j0.val = z.toNat - 512 * k := ⟨⟨z.toNat - 512 * k, by omega⟩, rfl⟩
    rw [Finset.sum_eq_single j0]
    · have hp : tilePick z k j0 := (tilePick_iff z k hk' j0).mpr (by omega)
      have hlt : 512 * k + j0.val < 50257 := by unfold IsClass at hcl; omega
      have e : (⟨512 * k + j0.val, hlt⟩ : Fin 50257) = ⟨z.toNat, hcl⟩ := Fin.ext (by show 512 * k + j0.val = z.toNat; omega)
      rw [if_pos hp]
      unfold tileVal
      rw [dif_pos hlt, e]
    · intro j _ hne
      rw [if_neg]
      intro hp
      have := (tilePick_iff z k hk' j).mp hp
      exact hne (Fin.ext (by omega))
    · intro hnot; exact absurd (Finset.mem_univ _) hnot
  · have hnone : ∀ j : Fin 512, ¬ tilePick z k j := by
      intro j hp
      have hj := (tilePick_iff z k hk' j).mp hp
      have hjlt := j.isLt
      rcases hz with hcl | hig
      · exact hin ⟨hcl, by omega, by omega⟩
      · rw [hig] at hj
        have hw : ignoreW.toNat = 4294967196 := rfl
        omega
    rw [Finset.sum_eq_zero (fun j _ => if_neg (hnone j))]
    by_cases hcl : IsClass z
    · rw [dif_pos hcl, if_neg (fun h => hin ⟨hcl, h⟩), EReal.coe_zero]
    · rw [dif_neg hcl, EReal.coe_zero]

/-- One tile's step, from the reset values (before the first tile) or from the running values of the columns
    below 512·k, gives the running values of the columns below 512·(k+1). -/
theorem step_core (D : Data) (R : Fin 4096) (z : BitVec 32) (hz : IsClass z ∨ z = ignoreW) (k : ℕ) (hk' : k < 99)
    (m l c : EReal) (h : (k = 0 ∧ m = ⊥ ∧ l = 0 ∧ c = 0) ∨ RowInvAt D R z (512 * k) m l c) :
    RowInvAt D R z (512 * (k + 1)) (stepMax m (tileVal D R k)) (stepSum m l (tileVal D R k))
      (stepPick c (tilePick z k) (tileVal D R k)) := by
  -- the tile's maximum T bounds the tile's columns and, unless it is −∞, is one of them
  obtain ⟨T, hTdef⟩ : ∃ T : EReal, T = (Finset.univ : Finset (Fin 512)).fold max ⊥ (tileVal D R k) := ⟨_, rfl⟩
  have hTle : ∀ j, tileVal D R k j ≤ T := fun j => by
    rw [hTdef]; exact ((Finset.fold_max_le _).mp (le_refl _)).2 j (Finset.mem_univ j)
  have hTatt : T ≤ ⊥ ∨ ∃ j ∈ (Finset.univ : Finset (Fin 512)), T ≤ tileVal D R k j := by
    rw [hTdef]; exact (Finset.le_fold_max _).mp (le_refl _)
  have hXdef : stepMax m (tileVal D R k) = max m T := by rw [hTdef]; rfl
  have hval_lt_top : ∀ j, tileVal D R k j < ⊤ := by
    intro j; unfold tileVal; split_ifs
    · exact EReal.coe_lt_top _
    · exact bot_lt_top
  have hm_top : m < ⊤ := by
    rcases h with ⟨_, hmb, _, _⟩ | ⟨M, hmM, _⟩
    · rw [hmb]; exact bot_lt_top
    · rw [hmM]; exact EReal.coe_lt_top _
  have hT_top : T < ⊤ := by
    rcases hTatt with hb | ⟨j, _, hj⟩
    · exact lt_of_le_of_lt hb bot_lt_top
    · exact lt_of_le_of_lt hj (hval_lt_top j)
  -- the tile's first column lies inside the vocabulary, so the new maximum is a real number
  obtain ⟨j0, hj0⟩ : ∃ j : Fin 512, j.val = 0 := ⟨0, rfl⟩
  have h0 : 512 * k + j0.val < 50257 := by omega
  have hX_top : stepMax m (tileVal D R k) ≠ ⊤ := ne_of_lt (by rw [hXdef]; exact max_lt hm_top hT_top)
  have hX_ge0 : ((logit D R ⟨512 * k + j0.val, h0⟩ : ℝ) : EReal) ≤ stepMax m (tileVal D R k) := by
    have := hTle j0; unfold tileVal at this; rw [dif_pos h0] at this
    rw [hXdef]; exact le_trans this (le_max_right _ _)
  have hX_bot : stepMax m (tileVal D R k) ≠ ⊥ := fun hb => EReal.coe_ne_bot _ (le_bot_iff.mp (hb ▸ hX_ge0))
  obtain ⟨M', hM'⟩ : ∃ M' : ℝ, stepMax m (tileVal D R k) = (M' : EReal) :=
    ⟨_, (EReal.coe_toReal hX_top hX_bot).symm⟩
  -- it bounds every column below 512·(k+1)
  have hub' : ∀ v : Fin 50257, v.val < 512 * (k + 1) → logit D R v ≤ M' := by
    intro v hv
    have goal : ((logit D R v : ℝ) : EReal) ≤ (M' : EReal) := by
      rw [← hM', hXdef]
      by_cases hlt : v.val < 512 * k
      · rcases h with ⟨hk0, _⟩ | ⟨M, hmM, hub, _⟩
        · omega
        · rw [hmM]; exact le_trans (EReal.coe_le_coe_iff.mpr (hub v hlt)) (le_max_left _ _)
      · obtain ⟨j, hj⟩ : ∃ j : Fin 512, j.val = v.val - 512 * k := ⟨⟨v.val - 512 * k, by omega⟩, rfl⟩
        have hin : 512 * k + j.val < 50257 := by have := v.isLt; omega
        have e : (⟨512 * k + j.val, hin⟩ : Fin 50257) = v := Fin.ext (by show 512 * k + j.val = v.val; omega)
        have := hTle j
        unfold tileVal at this; rw [dif_pos hin, e] at this
        exact le_trans this (le_max_right _ _)
    exact EReal.coe_le_coe_iff.mp goal
  -- and it is one of them: the old maximum's column, or the column of the tile's maximum
  have hatt' : ∃ v : Fin 50257, v.val < 512 * (k + 1) ∧ logit D R v = M' := by
    rcases max_choice m T with hc | hc
    · rcases h with ⟨_, hmb, _, _⟩ | ⟨M, hmM, _, ⟨v, hv, hvM⟩, _⟩
      · exact absurd (by rw [hXdef, hc, hmb]) hX_bot
      · refine ⟨v, by omega, ?_⟩
        have : (M' : EReal) = (M : EReal) := by rw [← hM', hXdef, hc, hmM]
        rw [hvM]; exact (EReal.coe_eq_coe_iff.mp this).symm
    · rcases hTatt with hb | ⟨j, _, hj⟩
      · exact absurd (by rw [hXdef, hc]; exact le_bot_iff.mp hb) hX_bot
      · have hTj : T = tileVal D R k j := le_antisymm hj (hTle j)
        by_cases hin : 512 * k + j.val < 50257
        · refine ⟨⟨512 * k + j.val, hin⟩, by have := j.isLt; show 512 * k + j.val < 512 * (k + 1); omega, ?_⟩
          have : (M' : EReal) = ((logit D R ⟨512 * k + j.val, hin⟩ : ℝ) : EReal) := by
            rw [← hM', hXdef, hc, hTj]; unfold tileVal; rw [dif_pos hin]
          exact (EReal.coe_eq_coe_iff.mp this).symm
        · exact absurd (by rw [hXdef, hc, hTj]; unfold tileVal; rw [dif_neg hin]) hX_bot
  -- the sum: the old sum rescaled to the new maximum, plus the tile's columns
  have hsum' : stepSum m l (tileVal D R k)
      = ((∑ i ∈ Finset.range (512 * (k + 1)), expCol D R M' i : ℝ) : EReal) := by
    have htile : (∑ j, Ideal.exp (tileVal D R k j - (M' : EReal)))
        = ((∑ j ∈ Finset.range 512, expCol D R M' (512 * k + j) : ℝ) : EReal) := by
      rw [← Fin.sum_univ_eq_sum_range (fun j => expCol D R M' (512 * k + j)) 512, coe_sum]
      refine Finset.sum_congr rfl (fun j _ => ?_)
      unfold tileVal expCol
      by_cases hin : 512 * k + j.val < 50257
      · rw [dif_pos hin, dif_pos hin, ← EReal.coe_sub, Ideal.exp_coe]
      · rw [dif_neg hin, dif_neg hin, EReal.bot_sub, Ideal.exp_bot, EReal.coe_zero]
    have hold : Ideal.exp (m - (M' : EReal)) * l
        = ((∑ i ∈ Finset.range (512 * k), expCol D R M' i : ℝ) : EReal) := by
      rcases h with ⟨hk0, _, hl0, _⟩ | ⟨M, hmM, _, _, hlM, _⟩
      · rw [hl0, mul_zero, hk0]; simp
      · rw [hmM, hlM, ← EReal.coe_sub, Ideal.exp_coe, ← EReal.coe_mul, Finset.mul_sum]
        congr 1
        refine Finset.sum_congr rfl (fun i _ => ?_)
        unfold expCol
        by_cases hin : i < 50257
        · rw [dif_pos hin, dif_pos hin, ← Real.exp_add]; congr 1; ring
        · rw [dif_neg hin, dif_neg hin, mul_zero]
    unfold stepSum
    rw [hM', hold, htile, ← EReal.coe_add, ← Finset.sum_range_add, show 512 * k + 512 = 512 * (k + 1) by ring]
  -- the picked value: the label's logit joins when the label's column lies in this tile
  have hpick' : stepPick c (tilePick z k) (tileVal D R k) = ((pickedBelow D R z (512 * (k + 1)) : ℝ) : EReal) := by
    have hc : c = ((pickedBelow D R z (512 * k) : ℝ) : EReal) := by
      rcases h with ⟨hk0, _, _, hc0⟩ | ⟨M, _, _, _, _, hcM⟩
      · rw [hc0, hk0]; unfold pickedBelow; simp
      · exact hcM
    unfold stepPick
    rw [hc, pick_sum D R z hz k hk', ← EReal.coe_add]
    congr 1
    unfold pickedBelow
    by_cases hcl : IsClass z
    · simp only [dif_pos hcl]
      split_ifs <;> first | (exfalso; omega) | simp
    · simp only [dif_neg hcl, add_zero]
  exact ⟨M', hM', hub', hatt', hsum', hpick'⟩

/-- The first tile starts from the reset values −∞, 0, 0. -/
theorem rowInv_first (D : Data) (R : Fin 4096) (z : BitVec 32) (hz : IsClass z ∨ z = ignoreW) :
    RowInv D R z 1 (stepMax ⊥ (tileVal D R 0)) (stepSum ⊥ 0 (tileVal D R 0))
      (stepPick 0 (tilePick z 0) (tileVal D R 0)) :=
  fun _ => step_core D R z hz 0 (by norm_num) ⊥ 0 0 (Or.inl ⟨rfl, rfl, rfl, rfl⟩)

theorem rowInv_step (D : Data) (R : Fin 4096) (z : BitVec 32) (hz : IsClass z ∨ z = ignoreW) (k : ℕ) (hk : 0 < k)
    (hk' : k < 99) (m l c : EReal) (h : RowInv D R z k m l c) :
    RowInv D R z (k + 1) (stepMax m (tileVal D R k)) (stepSum m l (tileVal D R k))
      (stepPick c (tilePick z k) (tileVal D R k)) :=
  fun _ => step_core D R z hz k hk' m l c (Or.inr (h hk))

/-- After the 99 tiles every column has been visited: the maximum is the row's, the sum is the row's sum of shifted
    exponentials (positive, so its logarithm is a real), and the picked value is the label's logit. -/
theorem rowInv_final (D : Data) (R : Fin 4096) (z : BitVec 32) (hz : IsClass z ∨ z = ignoreW) (m l c : EReal)
    (h : RowInv D R z 99 m l c) : m + Ideal.log l - c = ((lsePick D R z : ℝ) : EReal) := by
  obtain ⟨M, hm, hub, ⟨v0, _, hv0⟩, hl, hc⟩ := h (by norm_num)
  have hM : M = rowMax D R := by
    apply le_antisymm
    · rw [← hv0]; exact Finset.le_sup' (logit D R) (Finset.mem_univ v0)
    · exact Finset.sup'_le _ _ (fun v _ => hub v (by have := v.isLt; omega))
  have hsum : ∑ i ∈ Finset.range (512 * 99), expCol D R M i = rowSum D R := by
    have e : 512 * 99 = 50257 + 431 := by norm_num
    have h2 : ∑ x ∈ Finset.range 431, expCol D R M (50257 + x) = 0 :=
      Finset.sum_eq_zero (fun x _ => by unfold expCol; rw [dif_neg (by omega)])
    rw [e, Finset.sum_range_add, h2, add_zero, Finset.sum_range, hM, rowSum]
    exact Finset.sum_congr rfl (fun v _ => by unfold expCol; rw [dif_pos v.isLt])
  have hpos : 0 < rowSum D R := by
    unfold rowSum; exact Finset.sum_pos (fun v _ => Real.exp_pos _) Finset.univ_nonempty
  have hpk : pickedBelow D R z (512 * 99) = picked D R z := by
    unfold pickedBelow picked
    by_cases hcl : IsClass z
    · rw [dif_pos hcl, dif_pos hcl, if_pos (by unfold IsClass at hcl; omega)]
    · rw [dif_neg hcl, dif_neg hcl]
  rw [hm, hl, hc, hsum, hpk, Ideal.log_coe, if_neg (not_le.mpr hpos), ← EReal.coe_add, ← EReal.coe_sub, hM, lsePick]

theorem term_eq (D : Data) (R : Fin 4096) (z : BitVec 32) : term D R z = if IsClass z then lsePick D R z else 0 := by
  by_cases h : IsClass z <;> simp [term, lsePick, picked, nll, h]

/-- Sums over the 4096 rows against sums over batch × the 2047 labelled positions. -/
theorem sum_rows_eq (g : Fin 4096 → ℝ) (f : Fin 2 → Fin 2047 → ℝ)
    (h1 : ∀ (b : Fin 2) (t : Fin 2047), g (row b ⟨t.val, by omega⟩) = f b t)
    (h2 : ∀ b : Fin 2, g (row b ⟨2047, by omega⟩) = 0) : ∑ R, g R = ∑ b, ∑ t, f b t := by
  -- a row is a batch and a position: row 2048·b + t
  have e : (∑ R, g R) = ∑ b : Fin 2, ∑ t : Fin 2048, g (row b t) := by
    rw [← Equiv.sum_comp (finProdFinEquiv : Fin 2 × Fin 2048 ≃ Fin 4096) g, Fintype.sum_prod_type]
    refine Finset.sum_congr rfl (fun b _ => Finset.sum_congr rfl (fun t _ => ?_))
    congr 1
    exact Fin.ext (by show t.val + 2048 * b.val = 2048 * b.val + t.val; omega)
  rw [e]
  refine Finset.sum_congr rfl (fun b _ => ?_)
  -- the last position of a batch contributes nothing
  rw [Fin.sum_univ_castSucc (n := 2047) (fun t => g (row b t))]
  have hlast : g (row b (Fin.last 2047)) = 0 := h2 b
  rw [hlast, add_zero]
  exact Finset.sum_congr rfl (fun t _ => h1 b t)

/-- The normalised hidden state computed in the extended reals is the real one: the mean square plus the offset is
    positive, so its reciprocal root is the real one. -/
theorem hid_coe (D : Data) (R : Fin 4096) (d : Fin 2048) :
    ((D.x R d : ℝ) : EReal) *
        Ideal.rsqrt (Ideal.div (∑ d', ((D.x R d' : ℝ) : EReal) * ((D.x R d' : ℝ) : EReal)) ((2048 : ℝ) : EReal) +
          ((D.eps : ℝ) : EReal)) * ((D.w d : ℝ) : EReal) = ((hid D R d : ℝ) : EReal) := by
  have hS : (∑ d', ((D.x R d' : ℝ) : EReal) * ((D.x R d' : ℝ) : EReal))
      = ((∑ d', D.x R d' * D.x R d' : ℝ) : EReal) := by
    rw [coe_sum]; exact Finset.sum_congr rfl (fun d' _ => (EReal.coe_mul _ _).symm)
  have hpos : 0 < meanSq D R + D.eps := by
    have h0 : 0 ≤ meanSq D R := by
      unfold meanSq; exact div_nonneg (Finset.sum_nonneg (fun d' _ => mul_self_nonneg _)) (by norm_num)
    linarith [D.eps_pos]
  have harg : Ideal.div (∑ d', ((D.x R d' : ℝ) : EReal) * ((D.x R d' : ℝ) : EReal)) ((2048 : ℝ) : EReal)
      + ((D.eps : ℝ) : EReal) = ((meanSq D R + D.eps : ℝ) : EReal) := by
    have e : (∑ d', D.x R d' * D.x R d') * (1 / 2048) + D.eps = meanSq D R + D.eps := by
      unfold meanSq
      generalize (∑ d', D.x R d' * D.x R d') = S
      ring
    rw [hS, Ideal.div_coe (by norm_num : (2048 : ℝ) ≠ 0), ← EReal.coe_mul, ← EReal.coe_add, e]
  rw [harg, Ideal.rsqrt_coe, if_neg (not_lt.mpr hpos.le), if_neg hpos.ne', ← EReal.coe_mul, ← EReal.coe_mul, hid]

/-- The logit computed in the extended reals is the real one. -/
theorem logit_coe (D : Data) (R : Fin 4096) (v : Fin 50257) :
    ∑ d, ((hid D R d : ℝ) : EReal) * ((D.lm v d : ℝ) : EReal) = ((logit D R v : ℝ) : EReal) := by
  rw [logit, coe_sum]; exact Finset.sum_congr rfl (fun d _ => EReal.coe_mul _ _)

/-- A label's shifted word is a class or the ignore word when every label is. -/
theorem shift_ok (lab : Fin 2 → Fin 2048 → BitVec 32) (h : ∀ b t, IsClass (lab b t) ∨ lab b t = ignoreW)
    (R : Fin 4096) : IsClass (shift lab R) ∨ shift lab R = ignoreW := by
  unfold shift
  split_ifs with hR
  · exact h _ _
  · exact Or.inr rfl

end Cert.Spec

end
-- ==== Proof.InvDefs.lean ====
/-
  The second region's invariant, on whole scratch columns: at a grid point (row tile, vocabulary tile) every row of the
  row tile satisfies the row invariant of the running log-sum-exp for the vocabulary tiles done so far; and what it means
  for a point's three input blocks to hold the data (the hidden rows of the row tile, the vocabulary rows of the tile that
  lie inside the vocabulary — the rows past it are not constrained —, the rows' shifted labels).
-/
import proofs.«416190_j54460185313708_2_alg».proof.Proof.R1Defs
import proofs.«416190_j54460185313708_2_alg».proof.Proof.SoftmaxMath
import Idealize.ShloMosaic.Lib.ValueIdx

noncomputable section

namespace Cert.KernelIdeal.Hand

open Cert.KernelIdeal Cert.KernelIdeal.Gen Cert.Spec
open Idealize.ShloMosaic Idealize.ShloMosaic.ValueIdx

/-- The array row that row `r` of grid point `t`'s row tile is: 1024 · (t / 99) + r. -/
def rowOf (t : Fin cfg1.N) (r : Fin 1024) : Fin 4096 :=
  ⟨1024 * (t.val / 99) + r.val, by have h1 := t.isLt; have h2 : cfg1.N = 396 := N_1; have h3 := r.isLt; omega⟩

variable (D : Data) (lab : Fin 2 → Fin 2048 → BitVec 32)

/-- A point's three input blocks hold the data. -/
structure BlocksOk (t : Fin cfg1.N) (x0 : Vec Ideal S1024x2048 .bf16) (x1 : Vec Ideal S512x2048 .f32) (x2 : Vec Ideal S1024x1 .i32) : Prop where
  hid_eq : ∀ (r : Fin 1024) (d : Fin 2048), x0 (ix2 r d) = ((hid D (rowOf t r) d : ℝ) : EReal)
  lm_eq : ∀ (j : Fin 512) (d : Fin 2048) (h : 512 * (t.val % 99) + j.val < 50257), x1 (ix2 j d) = ((D.lm ⟨512 * (t.val % 99) + j.val, h⟩ d : ℝ) : EReal)
  lab_eq : ∀ r : Fin 1024, x2 (ix2 r (0 : Fin 1)) = shift lab (rowOf t r)

/-- The scratch columns satisfy the row invariant after `k` vocabulary tiles, in every row of point `t`'s row tile. -/
def InvVec (t : Fin cfg1.N) (k : ℕ) (m l c : Vec Ideal S1024x1 .f32) : Prop :=
  ∀ r : Fin 1024, RowInv D (rowOf t r) (shift lab (rowOf t r)) k (m (ix2 r (0 : Fin 1))) (l (ix2 r (0 : Fin 1))) (c (ix2 r (0 : Fin 1)))

/-- The output block of point `t`'s row tile: each row's log-sum-exp minus its picked logit. -/
def nllBlk (t : Fin cfg1.N) : Vec Ideal S1024x1 .f32 :=
  fun idx => ((lsePick D (rowOf t ⟨(idx 0).val, (idx 0).isLt⟩) (shift lab (rowOf t ⟨(idx 0).val, (idx 0).isLt⟩)) : ℝ) : EReal)

end Cert.KernelIdeal.Hand

end
-- ==== Proof.Consts.lean ====
/-
  The float constants the two programs spell, as the extended reals their words denote.
-/
import Idealize.ShloMosaic.PureOps.Ideal

noncomputable section

namespace Cert.Consts

open Idealize.ShloMosaic

/-- The zero word denotes 0. -/
theorem ofBits_zero : Ideal.ofBits .f32 0x00000000#32 = 0 := by
  simp [Ideal.ofBits, Ideal.ieee]

/-- The divisor of the mean, 2048.0, denotes the real 2048. -/
theorem ofBits_2048 : Ideal.ofBits .f32 0x45000000#32 = ((2048 : ℝ) : EReal) := by
  simp [Ideal.ofBits, Ideal.ieee, -EReal.coe_mul]; norm_num

/-- 1.0 denotes 1. -/
theorem ofBits_one : Ideal.ofBits .f32 0x3F800000#32 = 1 := by
  simp [Ideal.ofBits, Ideal.ieee, -EReal.coe_mul]; norm_num

/-- The negative infinity word denotes −∞. -/
theorem ofBits_neg_inf : Ideal.ofBits .f32 0xFF800000#32 = ⊥ := by
  simp [Ideal.ofBits, Ideal.ieee]

/-- The positive infinity word denotes +∞. -/
theorem ofBits_pos_inf : Ideal.ofBits .f32 0x7F800000#32 = ⊤ := by
  simp [Ideal.ofBits, Ideal.ieee]

/-- The variance offset's word denotes a positive real. -/
theorem eps_pos : ∃ e : ℝ, 0 < e ∧ Ideal.ofBits .f32 0x358637BD#32 = ((e : ℝ) : EReal) := by
  refine ⟨_, ?_, by simp [Ideal.ofBits, Ideal.ieee, -EReal.coe_mul]; rfl⟩
  norm_num

end Cert.Consts

end
-- ==== Proof.PayRead.lean ====
/-
  The second kernel's payloads read at an index, at the ideal values.

  The masked logit of row r and column j of a vocabulary tile is the inner product of the hidden row with vocabulary row j
  when the column 512·(vocabulary tile) + j lies inside the 50257 classes, and −∞ past them. From the tile's 512 masked
  logits of a row, one grid point raises the running maximum, rescales the running sum of exponentials and adds the tile's,
  and adds the logit in the label's column to the picked value; the output is maximum + log(sum) − picked.
-/
import proofs.«416190_j54460185313708_2_alg».proof.Proof.R1Defs
import proofs.«416190_j54460185313708_2_alg».proof.Proof.SoftmaxDefs
import proofs.«416190_j54460185313708_2_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Hand

open Cert.KernelIdeal Cert.KernelIdeal.Gen Idealize.ShloMosaic Idealize.ShloMosaic.ValueIdx

/-! ## The column word and its compare -/

/-- The 32-bit column word at column j of the tile is the column number 512·(vocabulary tile) + j. -/
theorem pay7_apply (i : grid1.Coords) (r : Fin 1024) (j : Fin 512) :
    k1_pay7 i (ix2 r j) = BitVec.ofNat 32 (512 * (i 1).val + j.val) := by
  unfold k1_pay7
  show IntOp.addi (IntOp.muli (BitVec.ofNat 32 (i 1).val) 512#32)
    (iota .tc S1024x512 32 [1] iota_S1024x512_d1_w32 (ix2 r j)) = _
  rw [iota_single_apply]
  show BitVec.ofNat 32 (i 1).val * BitVec.ofNat 32 512 + BitVec.ofNat 32 j.val = _
  rw [Nat.mul_comm 512, BitVec.ofNat_add, BitVec.ofNat_mul]

/-- The vocabulary tile number is below 99. -/
theorem tile_lt (i : grid1.Coords) : (i 1).val < 99 := (i 1).isLt

/-- A column number below 2^31 compares, as a signed word, as the natural number it is. -/
theorem select_slt (n : ℕ) (hn : n < 50688) (a b : EReal) :
    Scalar.select (IntOp.cmpi .slt (BitVec.ofNat 32 n) 50257#32) a b = if n < 50257 then a else b := by
  have h1 : (BitVec.ofNat 32 n).toNat = n := by rw [BitVec.toNat_ofNat]; exact Nat.mod_eq_of_lt (by omega)
  have h2 : (BitVec.ofNat 32 n).toInt = (n : Int) := by
    rw [BitVec.toInt_eq_toNat_of_lt (by rw [h1]; omega), h1]
  have h3 : (50257#32 : BitVec 32).toInt = 50257 := by decide
  have h4 : (BitVec.ofNat 32 n).slt 50257#32 = decide (n < 50257) := by
    unfold BitVec.slt
    rw [h2, h3]
    exact decide_eq_decide.mpr (by omega)
  show Scalar.select (BitVec.ofBool ((BitVec.ofNat 32 n).slt 50257#32)) a b = _
  rw [h4]
  by_cases h : n < 50257
  · rw [if_pos h, decide_eq_true h]; exact select_one a b
  · rw [if_neg h, decide_eq_false h]; exact select_zero a b

/-! ## The product of the hidden block with the transposed vocabulary block -/

theorem lhs_mm_0 (y : S1024x512.Idx) (q : dot_S1024x2048_S2048x512_S1024x512_1_0_0_1_n_n.contr.Idx) :
    (dot_S1024x2048_S2048x512_S1024x512_1_0_0_1_n_n.lhsIdx y q 0).val = (y 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs_mm_1 (y : S1024x512.Idx) (q : dot_S1024x2048_S2048x512_S1024x512_1_0_0_1_n_n.contr.Idx) :
    (dot_S1024x2048_S2048x512_S1024x512_1_0_0_1_n_n.lhsIdx y q 1).val = (q ⟨0, by decide⟩).val :=
  dot_S1024x2048_S2048x512_S1024x512_1_0_0_1_n_n.lhsIdx_val_of_single rfl y q
theorem rhs_mm_0 (y : S1024x512.Idx) (q : dot_S1024x2048_S2048x512_S1024x512_1_0_0_1_n_n.contr.Idx) :
    (dot_S1024x2048_S2048x512_S1024x512_1_0_0_1_n_n.rhsIdx y q 0).val = (q ⟨0, by decide⟩).val :=
  dot_S1024x2048_S2048x512_S1024x512_1_0_0_1_n_n.rhsIdx_val_of_single rfl y q
theorem rhs_mm_1 (y : S1024x512.Idx) (q : dot_S1024x2048_S2048x512_S1024x512_1_0_0_1_n_n.contr.Idx) :
    (dot_S1024x2048_S2048x512_S1024x512_1_0_0_1_n_n.rhsIdx y q 1).val = (y 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The product into the zero block, at (r, j): the sum over the 2048 hidden coordinates of row r of the left block times
    column j of the right block. -/
theorem mm_apply (A : FVec Ideal S1024x2048 .bf16) (B : FVec Ideal S2048x512 .bf16) (r : Fin 1024) (j : Fin 512) :
    matmul dot_S1024x2048_S2048x512_S1024x512_1_0_0_1_n_n none A B (constant (F := Ideal) S1024x512 .f32 0x00000000#32) (ix2 r j)
      = ∑ d : Fin 2048, A (ix2 r d) * B (ix2 d j) := by
  simp only [matmul]
  rw [Ideal.matmul_constant_zero_apply, ← Equiv.sum_comp (ValueIdx.contrEquiv1 dot_S1024x2048_S2048x512_S1024x512_1_0_0_1_n_n 2048 rfl rfl).symm]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 r j) ((ValueIdx.contrEquiv1 dot_S1024x2048_S2048x512_S1024x512_1_0_0_1_n_n 2048 rfl rfl).symm k) = ix2 r k := funext fun a => Fin.ext (by
    match a with
    | ⟨0, _⟩ => exact lhs_mm_0 _ _
    | ⟨1, _⟩ => exact (lhs_mm_1 _ _).trans hk)
  have er : dot_S1024x2048_S2048x512_S1024x512_1_0_0_1_n_n.rhsIdx (ix2 r j) ((ValueIdx.contrEquiv1 dot_S1024x2048_S2048x512_S1024x512_1_0_0_1_n_n 2048 rfl rfl).symm k) = ix2 k j := funext fun a => Fin.ext (by
    match a with
    | ⟨0, _⟩ => exact (rhs_mm_0 _ _).trans hk
    | ⟨1, _⟩ => exact rhs_mm_1 _ _)
  rw [el, er]

/-- The kernel's masking constant is −∞ at the ideal values. -/
theorem neg_big : Named.named (F := Ideal) Cert.KernelIdeal.κ "neg_big" (φ := .f32) 0xF149F2CA#32 = ⊥ :=
  IdealRules.named_const.ideal_named_scalar _ _ _ _ rfl

/-! ## The column forms: a row vector of 1024 entries as a [1024, 1] column, a column spread over 512 lanes -/

/-- A [1024] vector cast to a [1024, 1] column reads, at (r, 0), the vector at r. -/
theorem col_cast_apply {α : Type} (v : S1024.Idx → α) (r : Fin 1024) :
    shapeCast S1024x1 v shapeCasts_S1024_S1024x1 (ix2 r (0 : Fin 1)) = v (ix1 r) :=
  shapeCast_apply v _ _ _ (by
    rw [Shape.rowMajor_val_two, Shape.rowMajor_val_one]
    show r.val = r.val * 1 + 0
    omega)

/-- A [1024, 1] column broadcast over 512 lanes reads, at (r, j), the column at (r, 0). -/
theorem col_bcast_apply {α : Type} (v : S1024x1.Idx → α) (r : Fin 1024) (j : Fin 512) :
    broadcastTo S1024x512 v broadcasts_S1024x1_S1024x512 (ix2 r j) = v (ix2 r (0 : Fin 1)) := by
  refine broadcastTo_apply v _ (ix2 r j) (ix2 r (0 : Fin 1)) fun ax => ?_
  match ax with
  | ⟨0, _⟩ =>
    exact (if_neg (show ¬((1024 : ℕ) = 1) by decide)).symm
  | ⟨1, _⟩ =>
    exact (if_pos (rfl : (1 : ℕ) = 1)).symm

/-- The index a lane reduction reads: row r with lane k put back. -/
theorem lane_lift (r : Fin 1024) (k : Fin 512) : reduces_S1024x512_S1024.lift (ix1 r) k = ix2 r k :=
  funext fun a => Fin.ext (match a with | ⟨0, _⟩ => rfl | ⟨1, _⟩ => rfl)

/-- A row's lane maximum from −∞: the fold of max over the row's 512 lanes. -/
theorem lane_max_apply (v : FVec Ideal S1024x512 .f32) (r : Fin 1024) :
    multiReduction (F := Ideal) .maximumf [1] S1024 v 0xFF800000#32 reduces_S1024x512_S1024 (.inl rfl) rfl (ix1 r)
      = (Finset.univ : Finset (Fin 512)).fold max ⊥ (fun k => v (ix2 r k)) := by
  refine (Ideal.multiReduction_maximumf_single v 0xFF800000#32 reduces_S1024x512_S1024 (.inl rfl) rfl (ix1 r)).trans ?_
  show (Finset.univ : Finset (Fin 512)).fold max (Ideal.ofBits .f32 0xFF800000#32)
    (fun k => v (reduces_S1024x512_S1024.lift (ix1 r) k)) = _
  rw [Cert.Consts.ofBits_neg_inf]
  exact Finset.fold_congr fun k _ => congrArg v (lane_lift r k)

/-- A row's lane sum: the sum over the row's 512 lanes. -/
theorem lane_sum_apply (v : FVec Ideal S1024x512 .f32) (r : Fin 1024) :
    multiReduction (F := Ideal) .add [1] S1024 v 0x00000000#32 reduces_S1024x512_S1024 (.inl rfl) rfl (ix1 r)
      = ∑ k : Fin 512, v (ix2 r k) := by
  refine (Ideal.multiReduction_add_single v 0x00000000#32 reduces_S1024x512_S1024 (.inl rfl) rfl (ix1 r)).trans ?_
  exact Finset.sum_congr rfl fun k _ => congrArg v (lane_lift r k)

variable (i : grid1.Coords) (x0 : Vec Ideal S1024x2048 .bf16) (x1 : Vec Ideal S512x2048 .f32) (x2 : Vec Ideal S1024x1 .i32)
  (m l c : Vec Ideal S1024x1 .f32) (r : Fin 1024) (j : Fin 512)

/-- The masked logit of row r, column j of the tile: the inner product of the hidden row with vocabulary row j inside the
    vocabulary, −∞ past it. -/
theorem pay8_apply : k1_pay8 (F := Ideal) i x0 x1 (ix2 r j)
    = if 512 * (i 1).val + j.val < 50257 then ∑ d : Fin 2048, x0 (ix2 r d) * x1 (ix2 j d) else ⊥ := by
  unfold k1_pay8
  rw [select_apply, broadcast_apply, neg_big, shapeCast_self, mm_apply]
  show Scalar.select (IntOp.cmpi .slt (k1_pay7 i (ix2 r j)) 50257#32) _ _ = _
  rw [pay7_apply, select_slt _ (by have := tile_lt i; have := j.isLt; omega)]
  refine if_congr Iff.rfl (Finset.sum_congr rfl fun d _ => ?_) rfl
  rw [transpose_ix2_apply]
  rfl

/-- The running maximum a grid point leaves, at row r: the old one raised to the tile's maximum. -/
theorem pay10_apply : k1_pay10 (F := Ideal) i x0 x1 m (ix2 r 0)
    = Cert.Spec.stepMax (m (ix2 r 0)) (fun j => k1_pay8 (F := Ideal) i x0 x1 (ix2 r j)) := by
  unfold k1_pay10
  rw [maximumf_apply, col_cast_apply, lane_max_apply]
  rfl

theorem mNew_apply : mNew (F := Ideal) i x0 x1 m (ix2 r 0)
    = Cert.Spec.stepMax (m (ix2 r 0)) (fun j => k1_pay8 (F := Ideal) i x0 x1 (ix2 r j)) := by
  unfold mNew k1_pay2
  rw [shapeCast_self, pay10_apply]

theorem lNew_apply : lNew (F := Ideal) i x0 x1 m l (ix2 r 0)
    = Cert.Spec.stepSum (m (ix2 r 0)) (l (ix2 r 0)) (fun j => k1_pay8 (F := Ideal) i x0 x1 (ix2 r j)) := by
  unfold lNew k1_pay11
  rw [shapeCast_self, addf_apply, mulf_apply, col_cast_apply, lane_sum_apply]
  show Ideal.exp (m (ix2 r 0) - k1_pay10 (F := Ideal) i x0 x1 m (ix2 r 0)) * l (ix2 r 0)
    + ∑ k : Fin 512, Ideal.exp (k1_pay8 (F := Ideal) i x0 x1 (ix2 r k)
        - broadcastTo S1024x512 (k1_pay10 (F := Ideal) i x0 x1 m) broadcasts_S1024x1_S1024x512 (ix2 r k)) = _
  simp only [col_bcast_apply, pay10_apply]
  rfl

theorem cNew_apply : cNew (F := Ideal) i x0 x1 x2 c (ix2 r 0)
    = Cert.Spec.stepPick (c (ix2 r 0)) (fun j => BitVec.ofNat 32 (512 * (i 1).val + j.val) = x2 (ix2 r 0))
        (fun j => k1_pay8 (F := Ideal) i x0 x1 (ix2 r j)) := by
  unfold cNew k1_pay1 k1_pay9
  rw [shapeCast_self, addf_apply, col_cast_apply, lane_sum_apply]
  unfold Cert.Spec.stepPick
  refine congrArg (c (ix2 r 0) + ·) (Finset.sum_congr rfl fun k _ => ?_)
  rw [select_apply, broadcast_apply]
  show Scalar.select (BitVec.ofBool (k1_pay7 i (ix2 r k)
      == broadcastTo S1024x512 (shapeCast S1024x1 x2 shapeCasts_S1024x1_S1024x1) broadcasts_S1024x1_S1024x512 (ix2 r k)))
    (k1_pay8 (F := Ideal) i x0 x1 (ix2 r k)) (Ideal.ofBits .f32 0x00000000#32) = _
  rw [pay7_apply, col_bcast_apply, shapeCast_self, Cert.Consts.ofBits_zero]
  by_cases h : BitVec.ofNat 32 (512 * (i 1).val + k.val) = x2 (ix2 r 0)
  · rw [if_pos h, beq_iff_eq.mpr h]; exact select_one _ _
  · rw [if_neg h, beq_eq_false_iff_ne.mpr h]; exact select_zero _ _

theorem oNew_apply : oNew (F := Ideal) m l c (ix2 r 0) = m (ix2 r 0) + Ideal.log (l (ix2 r 0)) - c (ix2 r 0) := rfl

theorem mReset_apply : mReset (F := Ideal) (ix2 r 0) = ⊥ := by
  unfold mReset k1_pay4
  rw [shapeCast_self, broadcast_apply, neg_big]

theorem lReset_apply : lReset (F := Ideal) (ix2 r 0) = 0 := by
  unfold lReset k1_pay5
  rw [shapeCast_self, broadcast_apply]
  exact Cert.Consts.ofBits_zero

theorem cReset_apply : cReset (F := Ideal) (ix2 r 0) = 0 := by
  unfold cReset k1_pay6
  rw [shapeCast_self, broadcast_apply]
  exact Cert.Consts.ofBits_zero

end Cert.KernelIdeal.Hand

end
-- ==== Proof.InvStep.lean ====
/-
  One grid point's step of the running log-sum-exp, on the whole scratch columns.

  At a grid point (row tile, vocabulary tile k) whose three input blocks hold the data, row r's 512 scores are the
  logits of the tile's columns that lie inside the vocabulary and −∞ past it: a score is the inner product of the
  normalised hidden row with a vocabulary row, which is the logit. So in every row the new running maximum, the new
  running sum and the new picked value are the row's tile step of the running values, and the row invariant goes
  from k tiles to k + 1 (from the reset values at tile 0). After the 99 tiles the output column is each row's
  log-sum-exp minus its picked logit. Two consecutive points of one row tile share their rows.
-/
import proofs.«416190_j54460185313708_2_alg».proof.Proof.InvDefs
import proofs.«416190_j54460185313708_2_alg».proof.Proof.PayRead

noncomputable section

open scoped BigOperators

namespace Cert.KernelIdeal.Hand

open Cert.KernelIdeal Cert.KernelIdeal.Gen Cert.Spec
open Idealize.ShloMosaic Idealize.ShloMosaic.ValueIdx

/-- The picked value of a tile step depends only on which columns are picked. -/
theorem stepPick_congr (c : EReal) (p q : Fin 512 → Prop) [DecidablePred p] [DecidablePred q] (sv : Fin 512 → EReal)
    (h : ∀ j, p j ↔ q j) : stepPick c p sv = stepPick c q sv := by
  unfold stepPick
  congr 1
  refine Finset.sum_congr rfl (fun j _ => ?_)
  by_cases hp : p j
  · rw [if_pos hp, if_pos ((h j).mp hp)]
  · rw [if_neg hp, if_neg (fun hq => hp ((h j).mpr hq))]

section Point

variable (D : Data) (lab : Fin 2 → Fin 2048 → BitVec 32) (hlab : ∀ b t, IsClass (lab b t) ∨ lab b t = ignoreW)
  (t : Fin cfg1.N) (x0 : Vec Ideal S1024x2048 .bf16) (x1 : Vec Ideal S512x2048 .f32) (x2 : Vec Ideal S1024x1 .i32)
  (hb : BlocksOk D lab t x0 x1 x2)

include hlab hb

/-- Row r's scores at the point are the tile's column values: the logit inside the vocabulary, −∞ past it. -/
theorem tile_eq (r : Fin 1024) :
    (fun j => k1_pay8 (F := Ideal) (grid1.coords t) x0 x1 (ix2 r j)) = tileVal D (rowOf t r) (t.val % 99) := by
  funext j
  rw [pay8_apply, coords1_1 t]
  unfold tileVal
  by_cases h : 512 * (t.val % 99) + j.val < 50257
  · rw [if_pos h, dif_pos h, ← logit_coe]
    refine Finset.sum_congr rfl (fun d _ => ?_)
    rw [hb.hid_eq r d, hb.lm_eq j d h]
  · rw [if_neg h, dif_neg h]

/-- The new running maximum of row r is the row's tile step. -/
theorem mNew_eq (m : Vec Ideal S1024x1 .f32) (r : Fin 1024) :
    mNew (grid1.coords t) x0 x1 m (ix2 r (0 : Fin 1))
      = stepMax (m (ix2 r (0 : Fin 1))) (tileVal D (rowOf t r) (t.val % 99)) := by
  rw [mNew_apply, tile_eq D lab hlab t x0 x1 x2 hb r]

/-- The new running sum of row r is the row's tile step. -/
theorem lNew_eq (m l : Vec Ideal S1024x1 .f32) (r : Fin 1024) :
    lNew (grid1.coords t) x0 x1 m l (ix2 r (0 : Fin 1))
      = stepSum (m (ix2 r (0 : Fin 1))) (l (ix2 r (0 : Fin 1))) (tileVal D (rowOf t r) (t.val % 99)) := by
  rw [lNew_apply, tile_eq D lab hlab t x0 x1 x2 hb r]

/-- The new picked value of row r is the row's tile step: the point's column numbers are the tile's, and the
    row's label word is its shifted label. -/
theorem cNew_eq (c : Vec Ideal S1024x1 .f32) (r : Fin 1024) :
    cNew (grid1.coords t) x0 x1 x2 c (ix2 r (0 : Fin 1))
      = stepPick (c (ix2 r (0 : Fin 1))) (tilePick (shift lab (rowOf t r)) (t.val % 99))
          (tileVal D (rowOf t r) (t.val % 99)) := by
  rw [cNew_apply, tile_eq D lab hlab t x0 x1 x2 hb r]
  apply stepPick_congr
  intro j
  unfold tilePick
  rw [coords1_1 t, hb.lab_eq r]

/-- At vocabulary tile 0 the step from the reset values gives the invariant after one tile. -/
theorem invVec_first (ht : t.val % 99 = 0) :
    InvVec D lab t 1 (mNew (grid1.coords t) x0 x1 mReset) (lNew (grid1.coords t) x0 x1 mReset lReset)
      (cNew (grid1.coords t) x0 x1 x2 cReset) := by
  intro r
  rw [mNew_eq D lab hlab t x0 x1 x2 hb, lNew_eq D lab hlab t x0 x1 x2 hb, cNew_eq D lab hlab t x0 x1 x2 hb,
    mReset_apply, lReset_apply, cReset_apply, ht]
  exact rowInv_first D (rowOf t r) (shift lab (rowOf t r)) (shift_ok lab hlab _)

/-- At a later vocabulary tile the step takes the invariant after t % 99 tiles to the invariant after one more. -/
theorem invVec_step (ht : t.val % 99 ≠ 0) (m l c : Vec Ideal S1024x1 .f32) (h : InvVec D lab t (t.val % 99) m l c) :
    InvVec D lab t (t.val % 99 + 1) (mNew (grid1.coords t) x0 x1 m) (lNew (grid1.coords t) x0 x1 m l)
      (cNew (grid1.coords t) x0 x1 x2 c) := by
  intro r
  rw [mNew_eq D lab hlab t x0 x1 x2 hb, lNew_eq D lab hlab t x0 x1 x2 hb, cNew_eq D lab hlab t x0 x1 x2 hb]
  exact rowInv_step D (rowOf t r) (shift lab (rowOf t r)) (shift_ok lab hlab _) (t.val % 99)
    (Nat.pos_of_ne_zero ht) (Nat.mod_lt _ (by norm_num)) _ _ _ (h r)

end Point

/-- After the 99 vocabulary tiles the output block is each row's log-sum-exp minus its picked logit. -/
theorem invVec_final (D : Data) (lab : Fin 2 → Fin 2048 → BitVec 32)
    (hlab : ∀ b t, IsClass (lab b t) ∨ lab b t = ignoreW) (t : Fin cfg1.N) (m l c : Vec Ideal S1024x1 .f32)
    (h : InvVec D lab t 99 m l c) : oNew (F := Ideal) m l c = nllBlk D lab t := by
  funext idx
  obtain ⟨a, b, rfl⟩ : ∃ (a : Fin 1024) (b : Fin 1), idx = ix2 a b := ⟨idx 0, idx 1, eq_ix2 idx⟩
  have hb0 : b = 0 := Subsingleton.elim _ _
  subst hb0
  rw [oNew_apply]
  exact rowInv_final D (rowOf t a) (shift lab (rowOf t a)) (shift_ok lab hlab _) _ _ _ (h a)

/-- The next point of the same row tile has the same rows and one more vocabulary tile done. -/
theorem invVec_next (D : Data) (lab : Fin 2 → Fin 2048 → BitVec 32) (t t' : Fin cfg1.N) (h : t'.val = t.val + 1)
    (h' : t'.val % 99 ≠ 0) (m l c : Vec Ideal S1024x1 .f32) :
    InvVec D lab t (t.val % 99 + 1) m l c → InvVec D lab t' (t'.val % 99) m l c := by
  intro hinv r
  have e : rowOf t' r = rowOf t r := Fin.ext (by show 1024 * (t'.val / 99) + r.val = 1024 * (t.val / 99) + r.val; omega)
  have e2 : t'.val % 99 = t.val % 99 + 1 := by omega
  rw [e, e2]
  exact hinv r

/-- Before the first tile nothing is claimed. -/
theorem invVec_zero (D : Data) (lab : Fin 2 → Fin 2048 → BitVec 32) (t : Fin cfg1.N) (m l c : Vec Ideal S1024x1 .f32) :
    InvVec D lab t 0 m l c :=
  fun r => rowInv_zero D _ _ _ _ _

end Cert.KernelIdeal.Hand

end
-- ==== Proof.R1Run.lean ====
/-
  The second kernel region's body, run symbolically on whole buffers: in each of its three control cases (reset at
  vocabulary tile 0, neither, write-out at vocabulary tile 98) the body takes the hidden block, the vocabulary block, the
  label block and the three running columns to the new running columns (and, in the last case, writes the output block),
  each stated through the named payloads of the skeleton.
-/
import proofs.«416190_j54460185313708_2_alg».proof.Proof.R1Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offset of a rank-2 rectangle. -/
private theorem hz2 : (![0, 0] : Fin 2 → Nat) = fun _ => 0 := funext fun a => by fin_cases a <;> rfl

/-- A store through the whole-shape rectangle at offset zero, made last, leaves its payload, whatever the earlier stores
    and the contents before them were. -/
private theorem read_writes_cons_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero (S := S) h inb y⟩),
    View.canon_cons_unit_zero (S := S) h inb w L]

/-- Neither the reset nor the write-out: the three running columns go from (m, l, cc) to their updates; everything else
    is as it was. -/
theorem kernelRun1_mid (c : Dev nD) (i : grid1.Coords)
    (arg2 : Memref sig .tc .vmem S1024x2048 .bf16) (harg2 : arg2.IsWhole) (arg3 : Memref sig .tc .vmem S512x2048 .f32) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hf : ¬ condFirst i) (hl : ¬ condLast i)
    (x0 : Vec F S1024x2048 .bf16) (x1 : Vec F S512x2048 .f32) (x2 : Vec F S1024x1 .i32) (o m l cc : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare m ∗ owns (c : Thread nD τ) arg7 fullShare l
        ∗ owns (c : Thread nD τ) arg8 fullShare cc
        ∗ (iprop(owns (c : Thread nD τ) arg2 fullShare x0 ∗ owns (c : Thread nD τ) arg3 fullShare x1 ∗ owns (c : Thread nD τ) arg4 fullShare x2
            ∗ owns (c : Thread nD τ) arg5 fullShare o
            ∗ owns (c : Thread nD τ) arg6 fullShare (mNew i x0 x1 m)
            ∗ owns (c : Thread nD τ) arg7 fullShare (lNew i x0 x1 m l)
            ∗ owns (c : Thread nD τ) arg8 fullShare (cNew i x0 x1 x2 cc)) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2]
    unfold mNew; rfl
  isplitl [H7]
  · iexists _; isplitr; swap; · iexact H7
    ipureintro
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2]
    unfold lNew; rfl
  iexists _; isplitr; swap; · iexact H8
  ipureintro
  refine (read_writes_cons_unit_zero (S := S1024x1) _ _ hz2 _ _ _).trans ?_
  dsimp only
  simp only [View.readAt_eq_ld, View.ld_unit_zero (S := S1024x2048) hz2, View.ld_unit_zero (S := S512x2048) hz2, View.ld_unit_zero (S := S1024x1) hz2]
  unfold cNew; rfl

/-- The reset (vocabulary tile 0): whatever the running columns held, they are updated from the reset values. -/
theorem kernelRun1_first (c : Dev nD) (i : grid1.Coords)
    (arg2 : Memref sig .tc .vmem S1024x2048 .bf16) (harg2 : arg2.IsWhole) (arg3 : Memref sig .tc .vmem S512x2048 .f32) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hf : condFirst i) (hl : ¬ condLast i)
    (x0 : Vec F S1024x2048 .bf16) (x1 : Vec F S512x2048 .f32) (x2 : Vec F S1024x1 .i32) (o m l cc : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare m ∗ owns (c : Thread nD τ) arg7 fullShare l
        ∗ owns (c : Thread nD τ) arg8 fullShare cc
        ∗ (iprop(owns (c : Thread nD τ) arg2 fullShare x0 ∗ owns (c : Thread nD τ) arg3 fullShare x1 ∗ owns (c : Thread nD τ) arg4 fullShare x2
            ∗ owns (c : Thread nD τ) arg5 fullShare o
            ∗ owns (c : Thread nD τ) arg6 fullShare (mNew i x0 x1 mReset)
            ∗ owns (c : Thread nD τ) arg7 fullShare (lNew i x0 x1 mReset lReset)
            ∗ owns (c : Thread nD τ) arg8 fullShare (cNew i x0 x1 x2 cReset)) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold mNew mReset; rfl
  isplitl [H7]
  · iexists _; isplitr; swap; · iexact H7
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold lNew mReset lReset; rfl
  iexists _; isplitr; swap; · iexact H8
  ipureintro
  sl_unfold_words
  refine (read_writes_cons_unit_zero (S := S1024x1) _ _ hz2 _ _ _).trans ?_
  dsimp only
  simp only [View.readAt_eq_ld, View.ld_unit_zero (S := S1024x2048) hz2, View.ld_unit_zero (S := S512x2048) hz2, View.ld_unit_zero (S := S1024x1) hz2, View.readCov_unit_zero (S := S1024x1) _ hz2]
  unfold cNew cReset; rfl

/-- The write-out (vocabulary tile 98): the running columns are updated and the output block is computed from the
    updated columns, whatever the output buffer held. -/
theorem kernelRun1_last (c : Dev nD) (i : grid1.Coords)
    (arg2 : Memref sig .tc .vmem S1024x2048 .bf16) (harg2 : arg2.IsWhole) (arg3 : Memref sig .tc .vmem S512x2048 .f32) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hf : ¬ condFirst i) (hl : condLast i)
    (x0 : Vec F S1024x2048 .bf16) (x1 : Vec F S512x2048 .f32) (x2 : Vec F S1024x1 .i32) (o m l cc : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare m ∗ owns (c : Thread nD τ) arg7 fullShare l
        ∗ owns (c : Thread nD τ) arg8 fullShare cc
        ∗ (iprop(owns (c : Thread nD τ) arg2 fullShare x0 ∗ owns (c : Thread nD τ) arg3 fullShare x1 ∗ owns (c : Thread nD τ) arg4 fullShare x2
            ∗ owns (c : Thread nD τ) arg5 fullShare (oNew (mNew i x0 x1 m) (lNew i x0 x1 m l) (cNew i x0 x1 x2 cc))
            ∗ owns (c : Thread nD τ) arg6 fullShare (mNew i x0 x1 m)
            ∗ owns (c : Thread nD τ) arg7 fullShare (lNew i x0 x1 m l)
            ∗ owns (c : Thread nD τ) arg8 fullShare (cNew i x0 x1 x2 cc)) -∗ K ⟨⟩))
      ⊢ wp frame (wpE (defs₀ (F := F)) Variants.none c none) E
          (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hf | exact hl)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold oNew mNew lNew cNew; rfl
  isplitl [H6]
  · iexists _; isplitr; swap; · iexact H6
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold mNew; rfl
  isplitl [H7]
  · iexists _; isplitr; swap; · iexact H7
    ipureintro
    sl_unfold_words
    refine (read_writes_cons_unit_zero (S := S1024x1) _ _ hz2 _ _ _).trans ?_
    dsimp only
    simp only [View.readAt_eq_ld, View.ld_unit_zero (S := S1024x2048) hz2, View.ld_unit_zero (S := S512x2048) hz2, View.ld_unit_zero (S := S1024x1) hz2, View.readCov_unit_zero (S := S1024x1) _ hz2]
    unfold lNew; rfl
  iexists _; isplitr; swap; · iexact H8
  ipureintro
  sl_unfold_words
  refine (read_writes_cons_unit_zero (S := S1024x1) _ _ hz2 _ _ _).trans ?_
  dsimp only
  simp only [View.readAt_eq_ld, View.ld_unit_zero (S := S1024x2048) hz2, View.ld_unit_zero (S := S512x2048) hz2, View.ld_unit_zero (S := S1024x1) hz2, View.readCov_unit_zero (S := S1024x1) _ hz2]
  unfold cNew; rfl

end Cert.KernelIdeal.Hand

end
-- ==== Proof.R1E.lean ====
/-
  The second kernel region (the cross-entropy kernel over the 4 × 99 grid of row tiles and vocabulary tiles), at the
  extended reals: its proof data and body obligation, carrying the VALUE.

  The three scratch columns carry, from one vocabulary tile to the next, each row's running maximum, running sum of
  exponentials and picked logit. The region's invariant says, after a grid point, that these columns satisfy the row
  invariant of the running log-sum-exp for the vocabulary tiles done so far, in every row of the point's row tile. At
  vocabulary tile 0 the columns are reset, so nothing is asked of what they held; at every other tile the invariant of
  the point before is the invariant this point starts from; at vocabulary tile 98 all 99 tiles are done and the output
  block the body writes is each row's log-sum-exp minus its picked logit. The vocabulary window's last tile overhangs
  the vocabulary matrix: the rows of its buffer past the matrix hold anything, and the invariant asks nothing of them.
-/
import proofs.«416190_j54460185313708_2_alg».proof.Proof.InvStep
import proofs.«416190_j54460185313708_2_alg».proof.Proof.R1Run
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))
variable (D : Data) (lab : Fin 2 → Fin 2048 → BitVec 32)

/-! ## The windows' blocks -/

/-- Window `w`'s block at point `t`, read off its array as the region finds it: its part inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-! ## The region's invariant -/

/-- The five scoped buffers of the core that the region does not touch, each at some contents. -/
def restE (c : Dev nD) : sProp 𝕄 :=
  iprop((∃ f : Buf (Elt Ideal) ((c : Thread nD τ).loc cc0_stg0_0), ((c : Thread nD τ).loc cc0_stg0_0) ↦{fullShare} f)
    ∗ (∃ f : Buf (Elt Ideal) ((c : Thread nD τ).loc cc0_stg0_1), ((c : Thread nD τ).loc cc0_stg0_1) ↦{fullShare} f)
    ∗ (∃ f : Buf (Elt Ideal) ((c : Thread nD τ).loc cc0_stg1_0), ((c : Thread nD τ).loc cc0_stg1_0) ↦{fullShare} f)
    ∗ (∃ f : Buf (Elt Ideal) ((c : Thread nD τ).loc cc0_stg2_0), ((c : Thread nD τ).loc cc0_stg2_0) ↦{fullShare} f)
    ∗ (∃ f : Buf (Elt Ideal) ((c : Thread nD τ).loc cc0_stg2_1), ((c : Thread nD τ).loc cc0_stg2_1) ↦{fullShare} f))

/-- The invariant before position `n`: before the first point every scoped buffer at anything; after point `n` the
    three scratch columns at contents satisfying the row invariant after `n % 99 + 1` vocabulary tiles in every row of
    point `n`'s row tile, the other scoped buffers at anything; the generator register at some state throughout. -/
def PhiE (c : Dev nD) : (n : ℕ) → n ≤ cfg1.N → sProp 𝕄
  | 0, _ => Pipeline.ΦA spec1 c
  | n + 1, hn => iprop((restE c ∗ ∃ mv lv cv, ⌜InvVec D lab ⟨n, hn⟩ (n % 99 + 1) mv lv cv⌝
      ∗ owns (c : Thread nD τ) scM fullShare mv ∗ owns (c : Thread nD τ) scL fullShare lv ∗ owns (c : Thread nD τ) scC fullShare cv)
      ∗ ∃ r, prngReg c r)

theorem PhiE_zero (c : Dev nD) (n : ℕ) (h : n ≤ cfg1.N) (hz : n = 0) : PhiE D lab c n h = Pipeline.ΦA spec1 c := by
  subst hz; rfl

theorem PhiE_succ (c : Dev nD) (n : ℕ) (hn : n < cfg1.N) :
    PhiE D lab c (n + 1) hn = iprop((restE c ∗ ∃ mv lv cv, ⌜InvVec D lab ⟨n, hn⟩ (n % 99 + 1) mv lv cv⌝
      ∗ owns (c : Thread nD τ) scM fullShare mv ∗ owns (c : Thread nD τ) scL fullShare lv ∗ owns (c : Thread nD τ) scC fullShare cv)
      ∗ ∃ r, prngReg c r) := rfl

theorem PhiE_pos (c : Dev nD) (n : ℕ) (h : n ≤ cfg1.N) (hz : n ≠ 0) :
    PhiE D lab c n h = iprop((restE c ∗ ∃ mv lv cv, ⌜InvVec D lab ⟨n - 1, by omega⟩ ((n - 1) % 99 + 1) mv lv cv⌝
      ∗ owns (c : Thread nD τ) scM fullShare mv ∗ owns (c : Thread nD τ) scL fullShare lv ∗ owns (c : Thread nD τ) scC fullShare cv)
      ∗ ∃ r, prngReg c r) := by
  cases n with
  | zero => exact absurd rfl hz
  | succ n => rfl

/-- What the launch hands the region gives the scratch columns as memrefs owned at some contents, -/
theorem PhiA1_elim (c : Dev nD) :
    (Pipeline.ΦA spec1 c : sProp 𝕄)
      ⊢ iprop((restE c ∗ (∃ d, owns (c : Thread nD τ) scM fullShare d) ∗ (∃ d, owns (c : Thread nD τ) scL fullShare d)
          ∗ (∃ d, owns (c : Thread nD τ) scC fullShare d)) ∗ ∃ r, prngReg c r) := by
  unfold Pipeline.ΦA; rw [scopedRest1_eq]; unfold restE; simp only [scM, scL, scC, owns_whole]
  iintro ⟨⟨B1, B2, B3, B4, B5, S0, S1, S2⟩, Hg⟩
  isplitr [Hg]
  · isplitl [B1 B2 B3 B4 B5]
    · isplitl [B1]; · iexact B1
      isplitl [B2]; · iexact B2
      isplitl [B3]; · iexact B3
      isplitl [B4]; · iexact B4
      iexact B5
    isplitl [S0]; · iexact S0
    isplitl [S1]; · iexact S1
    iexact S2
  iexact Hg

/-- and is given back by them. -/
theorem PhiA1_intro (c : Dev nD) :
    iprop((restE c ∗ (∃ d, owns (c : Thread nD τ) scM fullShare d) ∗ (∃ d, owns (c : Thread nD τ) scL fullShare d)
          ∗ (∃ d, owns (c : Thread nD τ) scC fullShare d)) ∗ ∃ r, prngReg c r)
      ⊢ (Pipeline.ΦA spec1 c : sProp 𝕄) := by
  unfold Pipeline.ΦA; rw [scopedRest1_eq]; unfold restE; simp only [scM, scL, scC, owns_whole]
  iintro ⟨⟨⟨B1, B2, B3, B4, B5⟩, S0, S1, S2⟩, Hg⟩
  isplitr [Hg]
  · isplitl [B1]; · iexact B1
    isplitl [B2]; · iexact B2
    isplitl [B3]; · iexact B3
    isplitl [B4]; · iexact B4
    isplitl [B5]; · iexact B5
    isplitl [S0]; · iexact S0
    isplitl [S1]; · iexact S1
    iexact S2
  iexact Hg

/-- At any position the invariant gives the scratch columns at some contents. -/
theorem PhiE_any (c : Dev nD) (n : ℕ) (h : n ≤ cfg1.N) :
    PhiE D lab c n h ⊢ iprop((restE c ∗ (∃ d, owns (c : Thread nD τ) scM fullShare d) ∗ (∃ d, owns (c : Thread nD τ) scL fullShare d)
          ∗ (∃ d, owns (c : Thread nD τ) scC fullShare d)) ∗ ∃ r, prngReg c r) := by
  cases n with
  | zero => exact PhiA1_elim c
  | succ n =>
    rw [PhiE_succ]
    iintro ⟨⟨R, ⟨%mv, %lv, %cv, -, HM, HL, HC⟩⟩, Hg⟩
    isplitr [Hg]
    · isplitl [R]; · iexact R
      isplitl [HM]; · iexists mv; iexact HM
      isplitl [HL]; · iexists lv; iexact HL
      iexists cv; iexact HC
    iexact Hg

/-! ## The region's proof data -/

/-- The proof data of the region on core `c`: the arrays as the region finds them; after the body at point `t` the
    hidden and label windows' buffers at their blocks, the vocabulary window's at its block filled out with zeros past
    the matrix's end, the output window's at the row tile's losses; the invariant above; nothing owed; full shares. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => (cfg1.win 1).fill (cfg1.grid.coords t) (fun _ => (Scalar.ofBits (F := Ideal) .f32 0#32 : Elt Ideal .f32)) (iblk1 V c 1 t)
    | ⟨2, _⟩ => iblk1 V c 2 t
    | ⟨3, _⟩ => nllBlk D lab t
  Φ t := PhiE D lab c t.val (Nat.le_of_lt_succ t.isLt)
  q _ := fullShare
  owed _ := 0

theorem A_eq1 (c : Dev nD) (w : Fin cfg1.W) : (dat1 V D lab c).A w = V c (Pipeline.arrRef spec1 w) := by
  dsimp only [dat1]

theorem after1_0 (c : Dev nD) (t : Fin cfg1.N) : (dat1 V D lab c).after 0 t = iblk1 V c 0 t := by dsimp only [dat1]
theorem after1_1 (c : Dev nD) (t : Fin cfg1.N) :
    (dat1 V D lab c).after 1 t = (cfg1.win 1).fill (cfg1.grid.coords t) (fun _ => (Scalar.ofBits (F := Ideal) .f32 0#32 : Elt Ideal .f32)) (iblk1 V c 1 t) := by dsimp only [dat1]
theorem after1_2 (c : Dev nD) (t : Fin cfg1.N) : (dat1 V D lab c).after 2 t = iblk1 V c 2 t := by dsimp only [dat1]
theorem after1_3 (c : Dev nD) (t : Fin cfg1.N) : (dat1 V D lab c).after 3 t = nllBlk D lab t := by dsimp only [dat1]

theorem PhiE_castSucc (c : Dev nD) (t : Fin cfg1.N) :
    (dat1 V D lab c).Φ t.castSucc = PhiE D lab c t.val (Nat.le_of_lt t.isLt) := by
  dsimp only [dat1]; simp only [Fin.coe_castSucc]

theorem hin1 (c : Dev nD) : Pipeline.ΦA spec1 c ⊢ (dat1 V D lab c).Φ 0 := by
  rw [show (dat1 V D lab c).Φ 0 = PhiE D lab c 0 (Nat.zero_le _) from rfl, PhiE_zero D lab c 0 _ rfl]
  try exact Idealize.SL.BI.Entails.refl _

theorem hout1 (c : Dev nD) : (dat1 V D lab c).Φ (Fin.last cfg1.N) ⊢ Pipeline.ΦA spec1 c := by
  rw [show (dat1 V D lab c).Φ (Fin.last cfg1.N)
    = PhiE D lab c (Fin.last cfg1.N).val (Nat.le_of_lt_succ (Fin.last cfg1.N).isLt) from rfl]
  exact (PhiE_any D lab c _ _).trans (PhiA1_intro c)

/-! ## What the body finds in the input windows' buffers -/

/-- The hidden window (fetched at vocabulary tile 0 only) holds its block at every point: where it was not fetched
    its block index has not moved. -/
theorem before1_0 (c : Dev nD) (t : Fin cfg1.N) (d) : (dat1 V D lab c).before 0 t d = iblk1 V c 0 t :=
  ((dat1 V D lab c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- The label window likewise. -/
theorem before1_2 (c : Dev nD) (t : Fin cfg1.N) (d) : (dat1 V D lab c).before 2 t d = iblk1 V c 2 t :=
  ((dat1 V D lab c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- The vocabulary window is fetched at every point: its buffer holds the block on the rows inside the matrix and what
    it held before elsewhere. -/
theorem before1_1 (c : Dev nD) (t : Fin cfg1.N) (d) :
    (dat1 V D lab c).before 1 t d = (cfg1.win 1).fill (cfg1.grid.coords t) d (iblk1 V c 1 t) := by
  unfold Dat.before; rw [if_pos (fetch1_1 t)]; unfold Dat.fetched Dat.blockOf iblk1; rw [A_eq1]

/-! ## The blocks hold the data -/

/-- The windows' block indices at a point: the hidden and label windows follow the row tile, the vocabulary window the
    vocabulary tile; decided over the grid. -/
theorem idx1_0 : ∀ t : Fin cfg1.N, win1_0.index t (0 : Fin 2) = t.val / 99 ∧ win1_0.index t (1 : Fin 2) = 0 :=
  (by decide +kernel : ∀ t : Fin grid1.N, win1_0.index t (0 : Fin 2) = t.val / 99 ∧ win1_0.index t (1 : Fin 2) = 0)
theorem idx1_1 : ∀ t : Fin cfg1.N, win1_1.index t (0 : Fin 2) = t.val % 99 ∧ win1_1.index t (1 : Fin 2) = 0 :=
  (by decide +kernel : ∀ t : Fin grid1.N, win1_1.index t (0 : Fin 2) = t.val % 99 ∧ win1_1.index t (1 : Fin 2) = 0)
theorem idx1_2 : ∀ t : Fin cfg1.N, win1_2.index t (0 : Fin 2) = t.val / 99 ∧ win1_2.index t (1 : Fin 2) = 0 :=
  (by decide +kernel : ∀ t : Fin grid1.N, win1_2.index t (0 : Fin 2) = t.val / 99 ∧ win1_2.index t (1 : Fin 2) = 0)
/-- The part of the vocabulary window's block that lies inside the matrix: all 512 rows, but for the last tile, whose
    rows stop at the matrix's end. -/
theorem xsize1_1 : ∀ t : Fin cfg1.N, win1_1.xsize (grid1.coords t) (0 : Fin 2) = min 512 (50257 - 512 * (t.val % 99))
      ∧ win1_1.xsize (grid1.coords t) (1 : Fin 2) = 2048 :=
  (by decide +kernel : ∀ t : Fin grid1.N, win1_1.xsize (grid1.coords t) (0 : Fin 2) = min 512 (50257 - 512 * (t.val % 99))
      ∧ win1_1.xsize (grid1.coords t) (1 : Fin 2) = 2048)

theorem blocksOk (c : Dev nD)
    (hV1 : ∀ (R : Fin 4096) (d : Fin 2048), V c main_v1 (ValueIdx.ix2 R d) = ((Cert.Spec.hid D R d : ℝ) : EReal))
    (hV2 : ∀ (v : Fin 50257) (d : Fin 2048), V c main_arg2 (ValueIdx.ix2 v d) = ((D.lm v d : ℝ) : EReal))
    (hV5 : ∀ R : Fin 4096, V c main_v5 (ValueIdx.ix2 R (0 : Fin 1)) = Cert.Spec.shift lab R)
    (t : Fin cfg1.N) (d : (cfg1.win 1).block.Idx → Elt Ideal (cfg1.win 1).elt) :
    BlocksOk D lab t (iblk1 V c 0 t) ((cfg1.win 1).fill (cfg1.grid.coords t) d (iblk1 V c 1 t)) (iblk1 V c 2 t) := by
  refine ⟨?_, ?_, ?_⟩
  · intro r e
    refine Eq.trans ?_ (hV1 (rowOf t r) e)
    show V c main_v1 (((cfg1.win 0).blk t).view.emb (ix2 r e)) = V c main_v1 (ix2 (rowOf t r) e)
    refine congrArg (V c main_v1) ?_
    funext a
    apply Fin.ext
    match a with
    | ⟨0, _⟩ =>
      show win1_0.index t 0 * 1024 + 1 * r.val = 1024 * (t.val / 99) + r.val
      rw [(idx1_0 t).1]; omega
    | ⟨1, _⟩ =>
      show win1_0.index t 1 * 2048 + 1 * e.val = e.val
      rw [(idx1_0 t).2]; omega
  · intro j e h
    have hm : (cfg1.win 1).moved (cfg1.grid.coords t) (ix2 j e) = true := by
      rw [Window.moved_iff]; intro a
      match a with
      | ⟨0, _⟩ =>
        show j.val < win1_1.xsize (grid1.coords t) 0
        rw [(xsize1_1 t).1]; omega
      | ⟨1, _⟩ =>
        show e.val < win1_1.xsize (grid1.coords t) 1
        rw [(xsize1_1 t).2]; exact e.isLt
    unfold Window.fill; rw [dif_pos hm]
    refine Eq.trans ?_ (hV2 ⟨512 * (t.val % 99) + j.val, h⟩ e)
    show V c main_arg2 (((cfg1.win 1).blk t).view.emb _) = V c main_arg2 (ix2 (⟨512 * (t.val % 99) + j.val, h⟩ : Fin 50257) e)
    refine congrArg (V c main_arg2) ?_
    funext a
    apply Fin.ext
    match a with
    | ⟨0, _⟩ =>
      show win1_1.index t 0 * 512 + 1 * j.val = 512 * (t.val % 99) + j.val
      rw [(idx1_1 t).1]; omega
    | ⟨1, _⟩ =>
      show win1_1.index t 1 * 2048 + 1 * e.val = e.val
      rw [(idx1_1 t).2]; omega
  · intro r
    refine Eq.trans ?_ (hV5 (rowOf t r))
    show V c main_v5 (((cfg1.win 2).blk t).view.emb (ix2 r (0 : Fin 1))) = V c main_v5 (ix2 (rowOf t r) (0 : Fin 1))
    refine congrArg (V c main_v5) ?_
    funext a
    apply Fin.ext
    match a with
    | ⟨0, _⟩ =>
      show win1_2.index t 0 * 1024 + 1 * r.val = 1024 * (t.val / 99) + r.val
      rw [(idx1_2 t).1]; omega
    | ⟨1, _⟩ =>
      show win1_2.index t 1 * 1 + 1 * 0 = 0
      rw [(idx1_2 t).2]

/-! ## What the body must leave, window by window -/

theorem leaves1_0 (c : Dev nD) (t : Fin cfg1.N) :
    (dat1 V D lab c).leaves 0 t = owns (c : Thread nD τ) (st1_0 t) fullShare (iblk1 V c 0 t) := by
  show owns (c : Thread nD τ) (st1_0 t) fullShare ((dat1 V D lab c).after 0 t) = _
  rw [after1_0]
theorem leaves1_2 (c : Dev nD) (t : Fin cfg1.N) :
    (dat1 V D lab c).leaves 2 t = owns (c : Thread nD τ) (st1_2 t) fullShare (iblk1 V c 2 t) := by
  show owns (c : Thread nD τ) (st1_2 t) fullShare ((dat1 V D lab c).after 2 t) = _
  rw [after1_2]
/-- The vocabulary window's buffer is asked only on the rows inside the matrix. -/
theorem leaves1_1 (c : Dev nD) (t : Fin cfg1.N) :
    (dat1 V D lab c).leaves 1 t
      = iprop(∃ d, owns (c : Thread nD τ) (st1_1 t) fullShare ((cfg1.win 1).fill (cfg1.grid.coords t) d (iblk1 V c 1 t))) := by
  have h : (cfg1.win 1).cut (cfg1.grid.coords t) ((dat1 V D lab c).after 1 t) = iblk1 V c 1 t := by
    rw [after1_1]; exact (cfg1.win 1).cut_fill _ _ _
  show iprop(∃ d, owns (c : Thread nD τ) (st1_1 t) fullShare
    ((cfg1.win 1).fill (cfg1.grid.coords t) d ((cfg1.win 1).cut (cfg1.grid.coords t) ((dat1 V D lab c).after 1 t)))) = _
  rw [h]
/-- Away from vocabulary tile 98 the output window is idle and not written back: its buffer is handed back as found. -/
theorem leaves1_3_idle (c : Dev nD) (t : Fin cfg1.N) (h : t.val % 99 ≠ 98) :
    (dat1 V D lab c).leaves 3 t
      = iprop(∃ d, owns (c : Thread nD τ) (st1_3 t) fullShare ((dat1 V D lab c).before 3 t d)) := by
  have hl : ¬ k1_cond2 (grid1.coords t) = 1#1 := fun hh => h ((hcondLast t).mp hh)
  have hi : cfg1.idle 3 (cfg1.grid.coords t) = true := by
    show (!(k1_cond2 (grid1.coords t) == 1#1)) = true
    rw [Bool.not_eq_true', beq_eq_false_iff_ne]; exact hl
  have hf : (cfg1.win 3).flush t = false := Bool.eq_false_iff.mpr fun hh => h ((flush1_3 t).mp hh)
  exact (dat1 V D lab c).leaves_idle 3 t hi hf
/-- At vocabulary tile 98 it holds the row tile's losses. -/
theorem leaves1_3_live (c : Dev nD) (t : Fin cfg1.N) (h : t.val % 99 = 98) :
    (dat1 V D lab c).leaves 3 t = owns (c : Thread nD τ) (st1_3 t) fullShare (nllBlk D lab t) := by
  have hl : k1_cond2 (grid1.coords t) = 1#1 := (hcondLast t).mpr h
  have hi : cfg1.idle 3 (cfg1.grid.coords t) = false := by
    show (!(k1_cond2 (grid1.coords t) == 1#1)) = false
    rw [hl]; rfl
  unfold Dat.leaves; rw [hi]
  show owns (c : Thread nD τ) (st1_3 t) fullShare ((dat1 V D lab c).after 3 t) = _
  rw [after1_3]

/-! ## The body obligation, at a generic point -/

def bodyPre1 (c : Dev nD) (t : Fin cfg1.N) : sProp 𝕄 :=
  iprop((dat1 V D lab c).Φ t.castSucc ∗ (dat1 V D lab c).owesAt () t.castSucc
    ∗ (∃ d, owns (c : Thread nD τ) (st1_0 t) fullShare ((dat1 V D lab c).before 0 t d))
    ∗ (∃ d, owns (c : Thread nD τ) (st1_1 t) fullShare ((dat1 V D lab c).before 1 t d))
    ∗ (∃ d, owns (c : Thread nD τ) (st1_2 t) fullShare ((dat1 V D lab c).before 2 t d))
    ∗ (∃ d, owns (c : Thread nD τ) (st1_3 t) fullShare ((dat1 V D lab c).before 3 t d)))

def bodyPost1 (c : Dev nD) (t : Fin cfg1.N) : sProp 𝕄 :=
  iprop((dat1 V D lab c).Φ t.succ ∗ (dat1 V D lab c).owesAt () t.succ
    ∗ (dat1 V D lab c).leaves 0 t
    ∗ (dat1 V D lab c).leaves 1 t
    ∗ (dat1 V D lab c).leaves 2 t
    ∗ (dat1 V D lab c).leaves 3 t)

theorem sound_body1 (c : Dev nD) (hlab : ∀ b t, IsClass (lab b t) ∨ lab b t = ignoreW)
    (hV1 : ∀ (R : Fin 4096) (d : Fin 2048), V c main_v1 (ValueIdx.ix2 R d) = ((Cert.Spec.hid D R d : ℝ) : EReal))
    (hV2 : ∀ (v : Fin 50257) (d : Fin 2048), V c main_arg2 (ValueIdx.ix2 v d) = ((D.lm v d : ℝ) : EReal))
    (hV5 : ∀ R : Fin 4096, V c main_v5 (ValueIdx.ix2 R (0 : Fin 1)) = Cert.Spec.shift lab R)
    (t : Fin cfg1.N) :
    bodyPre1 V D lab c t ⊢ wp frame (wpE (defs₀ (F := Ideal)) Variants.none c none) Set.univ (bodyAt1 t) (fun _ => bodyPost1 V D lab c t) := by
  unfold bodyPre1 bodyPost1 bodyAt1
  simp only [before1_0, before1_1, before1_2]
  rw [show (dat1 V D lab c).owesAt () t.succ = (dat1 V D lab c).owesAt () t.castSucc from rfl]
  rw [show (dat1 V D lab c).Φ t.succ = PhiE D lab c (t.val + 1) t.isLt from rfl, PhiE_succ, PhiE_castSucc]
  rw [leaves1_0, leaves1_1, leaves1_2]
  have hN : t.val < 396 := lt_of_lt_of_eq t.isLt N_1
  by_cases h0 : t.val % 99 = 0
  · -- vocabulary tile 0: the columns are reset, whatever they held
    have hf : condFirst (grid1.coords t) := (hcondFirst t).mpr h0
    have hl : ¬ condLast (grid1.coords t) := fun h => by have := (hcondLast t).mp h; omega
    rw [leaves1_3_idle V D lab c t (by omega)]
    refine (sep_mono (PhiE_any D lab c _ _) .rfl).trans ?_
    iintro ⟨⟨⟨R, ⟨%m, HM⟩, ⟨%l, HL⟩, ⟨%cc, HC⟩⟩, Hg⟩, Ho, ⟨%d0, H0⟩, ⟨%d1, H1⟩, ⟨%d2, H2⟩, ⟨%d3, H3⟩⟩
    have hb := blocksOk V D lab c hV1 hV2 hV5 t d1
    have hinv : InvVec D lab ⟨t.val, t.isLt⟩ (t.val % 99 + 1)
        (mNew (grid1.coords t) (iblk1 V c 0 t) ((cfg1.win 1).fill (cfg1.grid.coords t) d1 (iblk1 V c 1 t)) mReset)
        (lNew (grid1.coords t) (iblk1 V c 0 t) ((cfg1.win 1).fill (cfg1.grid.coords t) d1 (iblk1 V c 1 t)) mReset lReset)
        (cNew (grid1.coords t) (iblk1 V c 0 t) ((cfg1.win 1).fill (cfg1.grid.coords t) d1 (iblk1 V c 1 t)) (iblk1 V c 2 t) cReset) := by
      rw [h0]; exact invVec_first D lab hlab t _ _ _ hb h0
    iapply (kernelRun1_first c (grid1.coords t) _ _ _ _ _ _ _ _ _ _ _ _ _ _ hf hl (iblk1 V c 0 t)
      ((cfg1.win 1).fill (cfg1.grid.coords t) d1 (iblk1 V c 1 t)) (iblk1 V c 2 t) ((dat1 V D lab c).before 3 t d3) m l cc Set.univ _)
    isplitl [H0]; · iexact H0
    isplitl [H1]; · iexact H1
    isplitl [H2]; · iexact H2
    isplitl [H3]; · iexact H3
    isplitl [HM]; · iexact HM
    isplitl [HL]; · iexact HL
    isplitl [HC]; · iexact HC
    iintro ⟨H0, H1, H2, H3, HM, HL, HC⟩
    isplitl [R HM HL HC Hg]
    · isplitr [Hg]
      · isplitl [R]; · iexact R
        iexists _; iexists _; iexists _
        isplitr; · ipureintro; exact hinv
        isplitl [HM]; · iexact HM
        isplitl [HL]; · iexact HL
        iexact HC
      iexact Hg
    isplitl [Ho]; · iexact Ho
    isplitl [H0]; · iexact H0
    isplitl [H1]; · iexists d1; iexact H1
    isplitl [H2]; · iexact H2
    iexists d3; iexact H3
  · -- a later vocabulary tile: the invariant of the point before is this point's
    have hz : t.val ≠ 0 := fun h => h0 (by rw [h])
    have hf : ¬ condFirst (grid1.coords t) := fun h => h0 ((hcondFirst t).mp h)
    rw [PhiE_pos D lab c _ _ hz]
    by_cases h1 : t.val % 99 = 98
    · -- the last vocabulary tile: the output block is written
      have hl : condLast (grid1.coords t) := (hcondLast t).mpr h1
      rw [leaves1_3_live V D lab c t h1]
      iintro ⟨⟨⟨R, ⟨%m, %l, %cc, %hinv0, HM, HL, HC⟩⟩, Hg⟩, Ho, ⟨%d0, H0⟩, ⟨%d1, H1⟩, ⟨%d2, H2⟩, ⟨%d3, H3⟩⟩
      have hb := blocksOk V D lab c hV1 hV2 hV5 t d1
      have hinv1 : InvVec D lab t (t.val % 99) m l cc :=
        invVec_next D lab ⟨t.val - 1, by omega⟩ t (by show t.val = t.val - 1 + 1; omega) h0 m l cc hinv0
      have hinv := invVec_step D lab hlab t _ _ _ hb h0 m l cc hinv1
      have hfin := invVec_final D lab hlab t _ _ _ (by rw [show (99 : ℕ) = t.val % 99 + 1 from by omega]; exact hinv)
      rw [← hfin]
      iapply (kernelRun1_last c (grid1.coords t) _ _ _ _ _ _ _ _ _ _ _ _ _ _ hf hl (iblk1 V c 0 t)
        ((cfg1.win 1).fill (cfg1.grid.coords t) d1 (iblk1 V c 1 t)) (iblk1 V c 2 t) ((dat1 V D lab c).before 3 t d3) m l cc Set.univ _)
      isplitl [H0]; · iexact H0
      isplitl [H1]; · iexact H1
      isplitl [H2]; · iexact H2
      isplitl [H3]; · iexact H3
      isplitl [HM]; · iexact HM
      isplitl [HL]; · iexact HL
      isplitl [HC]; · iexact HC
      iintro ⟨H0, H1, H2, H3, HM, HL, HC⟩
      isplitl [R HM HL HC Hg]
      · isplitr [Hg]
        · isplitl [R]; · iexact R
          iexists _; iexists _; iexists _
          isplitr; · ipureintro; exact hinv
          isplitl [HM]; · iexact HM
          isplitl [HL]; · iexact HL
          iexact HC
        iexact Hg
      isplitl [Ho]; · iexact Ho
      isplitl [H0]; · iexact H0
      isplitl [H1]; · iexists d1; iexact H1
      isplitl [H2]; · iexact H2
      iexact H3
    · -- a middle vocabulary tile
      have hl : ¬ condLast (grid1.coords t) := fun h => h1 ((hcondLast t).mp h)
      rw [leaves1_3_idle V D lab c t h1]
      iintro ⟨⟨⟨R, ⟨%m, %l, %cc, %hinv0, HM, HL, HC⟩⟩, Hg⟩, Ho, ⟨%d0, H0⟩, ⟨%d1, H1⟩, ⟨%d2, H2⟩, ⟨%d3, H3⟩⟩
      have hb := blocksOk V D lab c hV1 hV2 hV5 t d1
      have hinv1 : InvVec D lab t (t.val % 99) m l cc :=
        invVec_next D lab ⟨t.val - 1, by omega⟩ t (by show t.val = t.val - 1 + 1; omega) h0 m l cc hinv0
      have hinv := invVec_step D lab hlab t _ _ _ hb h0 m l cc hinv1
      iapply (kernelRun1_mid c (grid1.coords t) _ _ _ _ _ _ _ _ _ _ _ _ _ _ hf hl (iblk1 V c 0 t)
        ((cfg1.win 1).fill (cfg1.grid.coords t) d1 (iblk1 V c 1 t)) (iblk1 V c 2 t) ((dat1 V D lab c).before 3 t d3) m l cc Set.univ _)
      isplitl [H0]; · iexact H0
      isplitl [H1]; · iexact H1
      isplitl [H2]; · iexact H2
      isplitl [H3]; · iexact H3
      isplitl [HM]; · iexact HM
      isplitl [HL]; · iexact HL
      isplitl [HC]; · iexact HC
      iintro ⟨H0, H1, H2, H3, HM, HL, HC⟩
      isplitl [R HM HL HC Hg]
      · isplitr [Hg]
        · isplitl [R]; · iexact R
          iexists _; iexists _; iexists _
          isplitr; · ipureintro; exact hinv
          isplitl [HM]; · iexact HM
          isplitl [HL]; · iexact HL
          iexact HC
        iexact Hg
      isplitl [Ho]; · iexact Ho
      isplitl [H0]; · iexact H0
      isplitl [H1]; · iexists d1; iexact H1
      isplitl [H2]; · iexact H2
      iexists d3; iexact H3

theorem body_obligation1 (c : Dev nD) (hlab : ∀ b t, Cert.Spec.IsClass (lab b t) ∨ lab b t = Cert.Spec.ignoreW)
    (hV1 : ∀ (R : Fin 4096) (d : Fin 2048), V c main_v1 (ValueIdx.ix2 R d) = ((Cert.Spec.hid D R d : ℝ) : EReal))
    (hV2 : ∀ (v : Fin 50257) (d : Fin 2048), V c main_arg2 (ValueIdx.ix2 v d) = ((D.lm v d : ℝ) : EReal))
    (hV5 : ∀ R : Fin 4096, V c main_v5 (ValueIdx.ix2 R (0 : Fin 1)) = Cert.Spec.shift lab R) :
    Pipeline.BodyObligationLoose (dat1 V D lab c) (defs₀ (F := Ideal)) Variants.none () Set.univ := fun t => by
  rw [bigSep_W1, bigSep_W1]
  exact sound_body1 V D lab c hlab hV1 hV2 hV5 t

end Cert.KernelIdeal.Hand

end
-- ==== Proof.RunDefs.lean ====
/- The run of the idealized kernel program, first half: the buffer contents at each boundary between two items of
   @main (host stretch, first region, host stretch, second region, host stretch), as a fold from the launch memory;
   what each item leaves unchanged; and that no item writes an argument array. At the ideal float instance. -/
import proofs.«416190_j54460185313708_2_alg».proof.Proof.R0
import proofs.«416190_j54460185313708_2_alg».proof.Proof.R1E
import proofs.«416190_j54460185313708_2_alg».proof.Proof.Spec
import proofs.«416190_j54460185313708_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.ValueIdx
import Idealize.ShloMosaic.PureOps.Ideal
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (D : Cert.Spec.Data) (lab : Fin 2 → Fin 2048 → BitVec 32)

/-! # The buffer contents at each boundary between two items of the program: a fold from the launch memory -/

/-- Core `c`'s buffers at launch. -/
abbrev W0 : Dev nD → Valuation τ sig (Elt Ideal) := fun c b => m (c, b)
/-- After the first host stretch (the first region's entry). -/
abbrev W1 : Dev nD → Valuation τ sig (Elt Ideal) := fun c => StableHlo.after hostOps0 (W0 m c)
/-- The same read at the TensorCore's references (what the first region's proof data take). -/
abbrev V1 : (c : Dev nD) → (b : Ref sig .tc) → Buf (Elt Ideal) ((c : Thread nD τ).loc b) := fun c b => W1 m c b
/-- At the first region's exit: its arrays at what the pipeline leaves, every other buffer as entered. -/
def W2 (c : Dev nD) : Valuation τ sig (Elt Ideal) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the first region's exit contents). -/
abbrev V2 : (c : Dev nD) → (b : Ref sig .tc) → Buf (Elt Ideal) ((c : Thread nD τ).loc b) := fun c b => W2 m c b
/-- At the first region's exit each of its arrays holds what the pipeline leaves, every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt Ideal) := fun c => StableHlo.after hostOps1 (W2 m c)
/-- The same read at the TensorCore's references (what the second region's proof data take). -/
abbrev V3 : (c : Dev nD) → (b : Ref sig .tc) → Buf (Elt Ideal) ((c : Thread nD τ).loc b) := fun c b => W3 m c b
/-- At the second region's exit: its arrays at what the pipeline leaves, every other buffer as entered. -/
def W4 (c : Dev nD) : Valuation τ sig (Elt Ideal) :=
  Pipeline.withArrays spec1 c (W3 m c) fun w => (dat1 (V3 m) D lab c).arrAt w cfg1.N
theorem W4_arr (c : Dev nD) (w : Fin cfg1.W) :
    W4 m D lab c (Proc.devRef .tc (Pipeline.arrRef spec1 w)) = (dat1 (V3 m) D lab c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m D lab c (Proc.devRef .tc b) = W3 m c (Proc.devRef .tc b) := by
  unfold W4; exact Pipeline.withArrays_of_ne spec1 c _ _ b hb
/-- The same read at the TensorCore's references (the second region's exit contents). -/
abbrev V4 : (c : Dev nD) → (b : Ref sig .tc) → Buf (Elt Ideal) ((c : Thread nD τ).loc b) := fun c b => W4 m D lab c b
theorem hF1 (c : Dev nD) (w : Fin cfg1.W) : (dat1 (V3 m) D lab c).arrAt w cfg1.N = V4 m D lab c (Pipeline.arrRef spec1 w) :=
  (W4_arr m D lab c w).symm
theorem hrest1 (c : Dev nD) : ∀ b, b ∉ Finset.univ.image (Pipeline.arrRef spec1) → V4 m D lab c b = V3 m c b :=
  fun b hb => W4_of_ne m D lab c b fun w e => hb (Finset.mem_image.mpr ⟨w, Finset.mem_univ _, e⟩)

/-- After the last host stretch (the contents the program returns with). -/
abbrev W5 : Dev nD → Valuation τ sig (Elt Ideal) := fun c => StableHlo.after hostOps2 (W4 m D lab c)

/-! ## What the host stretches write, and what each leaves unchanged -/

/-- The references the operations of the host stretch 0 write. -/
abbrev hostOps0_W : List (Ref sig .tc) := [main_v0]
theorem hostOps0_writes : (hostOps0 : List (HloOp τ sig (Elt Ideal))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references the operations of the host stretch 1 write. -/
abbrev hostOps1_W : List (Ref sig .tc) := [main_c, main_v2, main_v3, main_v4, main_v5, main_c_0, main_v6, main_v7, main_c_1, main_v8, main_v9, main_v10, main_c_2, main_v11, main_v12, main_v13, main_v14, main_v15]
theorem hostOps1_writes : (hostOps1 : List (HloOp τ sig (Elt Ideal))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references the operations of the host stretch 2 write. -/
abbrev hostOps2_W : List (Ref sig .tc) := [main_v17, main_v18, main_cst, main_v19, main_cst_3, main_v20, main_cst_4, main_v21, main_v22]
theorem hostOps2_writes : (hostOps2 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m D lab c (Proc.devRef .tc r) = W4 m D lab c (Proc.devRef .tc r) :=
  StableHlo.after_of_writes_sub hostOps2 _ hostOps2_writes h

/-! ## No item writes an argument: the fold at an argument's buffer walks back to the launch memory -/

theorem W5_main_arg0 (c : Dev nD) : W5 m D lab c (Proc.devRef .tc main_arg0) = m ((c : Thread nD τ).loc main_arg0) :=
  calc W5 m D lab c (Proc.devRef .tc main_arg0)
    _ = W4 m D lab c (Proc.devRef .tc main_arg0) := W5_of m D lab c main_arg0 (by decide)
    _ = W3 m c (Proc.devRef .tc main_arg0) := W4_of_ne m D lab c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl

theorem W5_main_arg1 (c : Dev nD) : W5 m D lab c (Proc.devRef .tc main_arg1) = m ((c : Thread nD τ).loc main_arg1) :=
  calc W5 m D lab c (Proc.devRef .tc main_arg1)
    _ = W4 m D lab c (Proc.devRef .tc main_arg1) := W5_of m D lab c main_arg1 (by decide)
    _ = W3 m c (Proc.devRef .tc main_arg1) := W4_of_ne m D lab c main_arg1 (by decide)
    _ = W2 m c (Proc.devRef .tc main_arg1) := W3_of m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of m c main_arg1 (by decide)
    _ = m ((c : Thread nD τ).loc main_arg1) := rfl

theorem W5_main_arg2 (c : Dev nD) : W5 m D lab c (Proc.devRef .tc main_arg2) = m ((c : Thread nD τ).loc main_arg2) :=
  calc W5 m D lab c (Proc.devRef .tc main_arg2)
    _ = W4 m D lab c (Proc.devRef .tc main_arg2) := W5_of m D lab c main_arg2 (by decide)
    _ = W3 m c (Proc.devRef .tc main_arg2) := (W4_arr m D lab c 1).trans (((dat1 (V3 m) D lab c).arrAt_in 1 rfl _).trans (A_eq1 (V3 m) D lab c 1))
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W5_main_arg3 (c : Dev nD) : W5 m D lab c (Proc.devRef .tc main_arg3) = m ((c : Thread nD τ).loc main_arg3) :=
  calc W5 m D lab c (Proc.devRef .tc main_arg3)
    _ = W4 m D lab c (Proc.devRef .tc main_arg3) := W5_of m D lab c main_arg3 (by decide)
    _ = W3 m c (Proc.devRef .tc main_arg3) := W4_of_ne m D lab c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

end Cert.KernelIdeal.Hand

end
-- ==== Proof.RunIdeal.lean ====
/- The run of the idealized kernel program, second half: the program as five segments (host stretch, first region,
   host stretch, second region, host stretch) over the thread state "every unscoped buffer at the boundary's contents,
   the generator register at some state, nothing owed", and the run itself: every weakly fair execution from any
   memory with zero counters terminates, and every final state holds the result buffer at the last boundary's
   contents and every argument array as launched. At the ideal float instance. -/
import proofs.«416190_j54460185313708_2_alg».proof.Proof.RunDefs
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (D : Cert.Spec.Data) (lab : Fin 2 → Fin 2048 → BitVec 32)

/-! ## The proof data family and the thread state -/

/-- The prefetched tables' admissible contents: no pipeline has a table. -/
abbrev adm : (p : Fin 2) → (pcfgs (F := Ideal) p).Adm := fun p => (cfgs p).toPCfg_adm
/-- Every pipeline's proof data, each at its region's entry contents. -/
def pdats : (p : Fin 2) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V3 m) D lab c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretches allocates a buffer. -/
theorem hostOps0_fresh : (hostOps0 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor
theorem hostOps2_fresh : (hostOps2 : List (HloOp τ sig (Elt Ideal))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W5 m D lab c) ∗ ∃ r, prngReg c r)

/-! ## The regions as segments -/

set_option backward.isDefEq.respectTransparency.types false in
/-- THE FIRST REGION over the thread state: entered from every unscoped buffer at `W1`, left at `W2`. Its arrays split out
    of the unscoped buffers and put back at the exit contents; the generator register into the class invariant and out;
    nothing owed; no semaphore of the kernel's own. -/
def reg0 : Pipeline.RegionSeg (pcfgs (F := Ideal)) adm (pdats m D lab) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m D lab) launch0.win launch0.arr_whole c
      ((pdats m D lab 0 c).share_full fun _ => rfl) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m D lab 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m D lab 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m D lab) ((pdats m D lab 0 c).share_full fun _ => rfl)
      (V1 m c) (V2 m c) ((pdats m D lab 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section WithHyps
variable (hlab : ∀ b t, Cert.Spec.IsClass (lab b t) ∨ lab b t = Cert.Spec.ignoreW)
  (hV1 : ∀ c (R : Fin 4096) (d : Fin 2048), V3 m c main_v1 (ValueIdx.ix2 R d) = ((Cert.Spec.hid D R d : ℝ) : EReal))
  (hV2 : ∀ c (v : Fin 50257) (d : Fin 2048), V3 m c main_arg2 (ValueIdx.ix2 v d) = ((D.lm v d : ℝ) : EReal))
  (hV5 : ∀ c (R : Fin 4096), V3 m c main_v5 (ValueIdx.ix2 R (0 : Fin 1)) = Cert.Spec.shift lab R)

set_option backward.isDefEq.respectTransparency.types false in
/-- THE SECOND REGION over the thread state: entered from every unscoped buffer at `W3`, left at `W4`. Its invariant is its
    own: at the first point it is made from the class invariant, at the last it gives the class invariant back. -/
def reg1 : Pipeline.RegionSeg (pcfgs (F := Ideal)) adm (pdats m D lab) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) D lab c hlab (hV1 c) (hV2 c) (hV5 c)
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m D lab c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := Ideal)) adm (pdats m D lab) launch1.win launch1.arr_whole c
      ((pdats m D lab 1 c).share_full fun _ => rfl) (V3 m c) fun w => A_eq1 (V3 m) D lab c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec1 c) ?_ (hin1 (V3 m) D lab c)
    unfold Pipeline.ΦA
    iintro ⟨Hp, -, Hr⟩
    isplitl [Hr]; · iexact Hr
    iexact Hp
  hout c := by
    rw [Pipeline.ownSems0_none]
    refine BIBase.Entails.trans (Q := Pipeline.ΦA spec1 c) (hout1 (V3 m) D lab c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m D lab) ((pdats m D lab 1 c).share_full fun _ => rfl)
      (V3 m c) (V4 m D lab c) ((pdats m D lab 1 c).arrAt · cfg1.N) (hF1 m D lab c) (hrest1 m D lab c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: a host segment per stretch from its boundary's contents, a region per kernel call. -/
abbrev segs : List (Pipeline.Seg (pcfgs (F := Ideal)) adm (pdats m D lab) () defs₀ 𝒱₀ L lv) :=
  [ .host (hseg hostOps0 hostOps0_sub hostOps0_fresh (W0 m)),
    .region (reg0 m D lab),
    .host (hseg hostOps1 hostOps1_sub hostOps1_fresh (W2 m)),
    .region (reg1 m D lab hlab hV1 hV2 hV5),
    .host (hseg hostOps2 hostOps2_sub hostOps2_fresh (W4 m D lab)) ]
/-- The program IS the run of the segments. -/
theorem main_run (c : Dev nD) : main (F := Ideal) c = Pipeline.Seg.run (segs m D lab hlab hV1 hV2 hV5) := (main_chain c).trans (by chain_rfl)

/-- The last host segment's exit state is the last thread state beside the dues: a regrouping. -/
theorem last_chain (c : Dev nD) :
    iprop(StableHlo.held (c : Thread nD τ) (Pipeline.ucRefs τ sig) (W5 m D lab c) ∗ R c)
      ⊢ iprop(Tₙ m D lab c ∗ ∃ W, owes (c : Thread nD τ) (0 : CellTallies nD τ sig Unit) W) := by
  iintro ⟨Hh, Hp, HO⟩
  isplitr [HO]
  · isplitl [Hh]; · iexact Hh
    iexact Hp
  iexact HO

end WithHyps

set_option backward.isDefEq.respectTransparency.types false in
/-- THE RUN: from any memory with zero counters, every weakly fair execution of the program on the TensorCores terminates,
    nothing faulting, and every final state holds the result buffer at the last boundary's contents and the argument
    arrays as launched. -/
theorem run_ideal (hlab : ∀ b t, Cert.Spec.IsClass (lab b t) ∨ lab b t = Cert.Spec.ignoreW)
    (hV1 : ∀ c (R : Fin 4096) (d : Fin 2048), V3 m c main_v1 (ValueIdx.ix2 R d) = ((Cert.Spec.hid D R d : ℝ) : EReal))
    (hV2 : ∀ c (v : Fin 50257) (d : Fin 2048), V3 m c main_arg2 (ValueIdx.ix2 v d) = ((D.lm v d : ℝ) : EReal))
    (hV5 : ∀ c (R : Fin 4096), V3 m c main_v5 (ValueIdx.ix2 R (0 : Fin 1)) = Cert.Spec.shift lab R) :
    θ_run defs (onTc (τ := τ) (main (F := Ideal))) ⟨m, fun _ => 0, ρ⟩ (fun r => ∀ c : Dev nD,
      r.2.mem ((c.tc : Thread nD τ).loc main_v22) = W5 m D lab c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m D lab) () cellOf_inj emb₁ defs₀ 𝒱₀ L lv m ρ main (segs m D lab hlab hV1 hV2 hV5)
    (fun c Q => by rw [main_run m D lab hlab hV1 hV2 hV5 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m D lab)
    (hch := ⟨fun _ => .rfl, fun _ => .rfl, fun _ => .rfl, fun _ => .rfl, fun _ => .rfl, fun c => last_chain m D lab c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m D lab c b)
    (hfin := fun c s' => by
      iintro ⟨⟨Hh, -⟩, HSI⟩
      unfold StableHlo.held
      imodintro
      iapply (pointsTo_read_all (Pipeline.ucRefs τ sig) (fun b => (((c : Thread nD τ)).1, b)) (W5 m D lab c) s')
      isplitl [Hh] <;> iassumption)
    (hQ := fun s h c =>
      ⟨h c _ (mem_uc main_v22 (by decide)),
       (h c _ (mem_uc main_arg0 (by decide))).trans (W5_main_arg0 m D lab c),
       (h c _ (mem_uc main_arg1 (by decide))).trans (W5_main_arg1 m D lab c),
       (h c _ (mem_uc main_arg2 (by decide))).trans (W5_main_arg2 m D lab c),
       (h c _ (mem_uc main_arg3 (by decide))).trans (W5_main_arg3 m D lab c)⟩)

end Cert.KernelIdeal.Hand

end
-- ==== Proof.R0Value.lean ====
/- The value the first kernel region stores, read at an index over explicit coordinates, at the ideal
   (extended-real) float instance: row `r` of the stored block at lane `d` is the row's entry times the
   reciprocal square root of the row's mean square plus the small constant, times the weight at the lane. -/
import proofs.«416190_j54460185313708_2_alg».proof.Proof.R0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## Three layout operations at an index -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The stored block at an index -/

/-- The zero offsets of the whole-block rectangles, however spelt. -/
theorem zeros2 : (![0, 0] : Fin 2 → ℕ) = fun _ => 0 := by
  funext a; match a with | ⟨0, _⟩ => rfl | ⟨1, _⟩ => rfl
theorem zeros1 : (![0] : Fin 1 → ℕ) = fun _ => 0 := by
  funext a; match a with | ⟨0, _⟩ => rfl

/-- The reciprocal square root of a vector is taken entry by entry. -/
theorem rsqrt_apply {s : Shape} {φ : FTy} (a : FVec Ideal s φ) (i : s.Idx) : rsqrt a i = Ideal.rsqrt (a i) := rfl

/-- The sum over the lanes of a 512 × 2048 block, at row `r`: the sum of the row's 2048 entries. -/
theorem rowSum_apply (src : FVec Ideal S512x2048 .f32) (hφ : FKind.Formats .f32)
    (hacc : (0x00000000#32 : BitVec 32) = FKind.add.neutral .f32 hφ) (r : Fin 512) :
    multiReduction (F := Ideal) .add [1] S512 src 0x00000000#32 reduces_S512x2048_S512 hφ hacc (ix1 r)
      = ∑ d' : Fin 2048, src (ix2 r d') := by
  refine (Ideal.multiReduction_add_single src 0x00000000#32 reduces_S512x2048_S512 hφ hacc (ix1 r)).trans ?_
  refine Finset.sum_congr rfl fun k _ => congrArg src ?_
  funext c
  match c with
  | ⟨0, _⟩ => rfl
  | ⟨1, _⟩ => rfl

/-- Row `r`, lane `d` of the block the region stores: the entry, times the reciprocal square root of the row's
    mean square (the sum of squares over 2048) plus the small constant, times the weight at the lane. -/
theorem out0_2_apply (x0 : Vec Ideal S512x2048 .f32) (x1 : Vec Ideal S2048 .f32) (r : Fin 512) (d : Fin 2048) :
    out0_2 (F := Ideal) x0 x1 (ValueIdx.ix2 r d)
      = x0 (ValueIdx.ix2 r d)
        * Ideal.rsqrt (Ideal.div (∑ d' : Fin 2048, x0 (ValueIdx.ix2 r d') * x0 (ValueIdx.ix2 r d')) (Ideal.ofBits .f32 0x45000000#32)
            + Ideal.ofBits .f32 0x358637BD#32)
        * x1 (ValueIdx.ix1 d) := by
  unfold out0_2
  rw [View.canon_unit_zero (S := S512x2048) zeros2]
  simp only [View.ld_unit_zero (S := S512x2048) zeros2, View.ld_unit_zero (S := S2048) zeros1]
  unfold k0_pay1
  simp only [truncf_apply, mulf_apply, shapeCast_self, broadcastTo_a1_ab_apply, broadcastTo_1b_ab_apply,
    shapeCast_a_1a_apply, rsqrt_apply, addf_apply, divf_apply, broadcast_apply, shapeCast_a_a1_apply]
  refine congrArg (fun s => x0 (ix2 r d) * Ideal.rsqrt (Ideal.div s (Ideal.ofBits .f32 0x45000000#32)
    + Ideal.ofBits .f32 0x358637BD#32) * x1 (ix1 d)) ?_
  exact (rowSum_apply _ _ _ r).trans (Finset.sum_congr rfl fun d' _ => rfl)

end Cert.KernelIdeal.Hand

end
-- ==== Proof.ValueH.lean ====
/- What the first kernel region (the RMS normalisation) leaves in its output array, as ONE function of the
   arrays it reads, index by index, at the ideal (extended-real) float instance: row `R`, lane `d` of the output
   is the normalised, weighted hidden state of the specification. From blocks to the array: grid point `t` writes
   back rows `512 t … 512 t + 511`, the eight blocks tile the 4096 rows, and the row of a block index is the row of
   the array the block sits at. Also the one host operation before the region: the reshape of the [2, 2048, 2048]
   argument to [4096, 2048], read at an index. -/
import proofs.«416190_j54460185313708_2_alg».proof.Proof.R0
import proofs.«416190_j54460185313708_2_alg».proof.Proof.R0Value
import proofs.«416190_j54460185313708_2_alg».proof.Proof.Spec
import proofs.«416190_j54460185313708_2_alg».proof.Proof.SoftmaxMath
import proofs.«416190_j54460185313708_2_alg».proof.Proof.Consts
import proofs.«416190_j54460185313708_2_alg».proof.Proof.Gen.KernelIdeal.Launch
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The output array as one function of the arrays the region reads -/

/-- The activations and the weight as the region finds them, as arrays of extended reals. -/
def xArr (c : Dev nD) : S4096x2048.Idx → EReal := V c main_v0
def wArr (c : Dev nD) : S2048.Idx → EReal := V c main_arg1

/-- Row `i 0`, lane `i 1` of the output: the activation there, times the reciprocal square root of the row's mean
    square plus the small constant, times the weight at the lane. -/
def hidArr (c : Dev nD) : S4096x2048.Idx → EReal := fun i =>
  xArr V c (ix2 (i 0) (i 1))
    * Ideal.rsqrt (Ideal.div (∑ d' : Fin 2048, xArr V c (ix2 (i 0) d') * xArr V c (ix2 (i 0) d')) (Ideal.ofBits .f32 0x45000000#32)
        + Ideal.ofBits .f32 0x358637BD#32)
    * wArr V c (ix1 (i 1))

/-! ## The printed index maps, decided over the grid -/

/-- At grid point `t` the activations' window and the output's window sit at block row `t`, block column 0, and the
    weight's window at its one block. -/
theorem idx_facts0 : ∀ t : Fin cfg0.N, win0_0.index t (0 : Fin 2) = t.val ∧ win0_0.index t (1 : Fin 2) = 0
    ∧ win0_1.index t (0 : Fin 1) = 0
    ∧ win0_2.index t (0 : Fin 2) = t.val ∧ win0_2.index t (1 : Fin 2) = 0 :=
  (by decide +kernel : ∀ t : Fin grid0.N, _)

/-! ## What a grid point writes back -/

/-- Grid point `t` writes back block `t` of `hidArr`: the block's row `p` is the array's row `512 t + p` in the
    activations' window and in the output's alike, and the weight's block is the whole weight. -/
theorem flushed0_2_eq (c : Dev nD) (t : Fin cfg0.N) :
    (dat0 V c).flushed 2 t = ((cfg0.win 2).blk t).view.read (Elt Ideal) (hidArr V c) := by
  show (cfg0.win 2).cut (grid0.coords t) ((dat0 V c).after 2 t) = _
  rw [after0_2]
  obtain ⟨e00, e01, e10, e20, e21⟩ := idx_facts0 t
  funext j
  obtain ⟨p, q, rfl⟩ : ∃ (p : Fin 512) (q : Fin 2048), j = ix2 p q := ⟨j 0, j 1, eq_ix2 j⟩
  show out0_2 (F := Ideal) (iblk0 V c 0 t) (iblk0 V c 1 t) (ix2 p q) = hidArr V c (((cfg0.win 2).blk t).view.emb (ix2 p q))
  rw [out0_2_apply]
  have ht : t.val < 8 := lt_of_lt_of_eq t.isLt N_0
  have hp : p.val < 512 := p.isLt
  -- the array's row the block's row `p` sits at
  let row : Fin 4096 := ⟨t.val * 512 + p.val, by omega⟩
  have hb0 : ∀ d' : Fin 2048, iblk0 V c 0 t (ix2 p d') = xArr V c (ix2 row d') := fun d' => by
    show xArr V c (((cfg0.win 0).blk t).view.emb (ix2 p d')) = xArr V c (ix2 row d')
    congr 1
    funext a; apply Fin.ext
    match a with
    | ⟨0, _⟩ => show win0_0.index t (0 : Fin 2) * 512 + 1 * p.val = t.val * 512 + p.val; omega
    | ⟨1, _⟩ => show win0_0.index t (1 : Fin 2) * 2048 + 1 * d'.val = d'.val; omega
  have hb1 : iblk0 V c 1 t (ix1 q) = wArr V c (ix1 q) := by
    show wArr V c (((cfg0.win 1).blk t).view.emb (ix1 q)) = wArr V c (ix1 q)
    congr 1
    funext a; apply Fin.ext
    match a with
    | ⟨0, _⟩ => show win0_1.index t (0 : Fin 1) * 2048 + 1 * q.val = q.val; omega
  have he2 : ((cfg0.win 2).blk t).view.emb (ix2 p q) = (ix2 row q : S4096x2048.Idx) := by
    funext a; apply Fin.ext
    match a with
    | ⟨0, _⟩ => show win0_2.index t (0 : Fin 2) * 512 + 1 * p.val = t.val * 512 + p.val; omega
    | ⟨1, _⟩ => show win0_2.index t (1 : Fin 2) * 2048 + 1 * q.val = q.val; omega
  refine Eq.trans ?_ (congrArg (hidArr V c) he2).symm
  show _ = xArr V c (ix2 row q)
    * Ideal.rsqrt (Ideal.div (∑ d' : Fin 2048, xArr V c (ix2 row d') * xArr V c (ix2 row d')) (Ideal.ofBits .f32 0x45000000#32)
        + Ideal.ofBits .f32 0x358637BD#32)
    * wArr V c (ix1 q)
  simp only [hb0, hb1]

/-! ## The blocks tile the array -/

/-- An index of the array is in point `t`'s block iff each coordinate is in the block's range on its axis. -/
theorem mem_blk0_2 (t : Fin cfg0.N) (i : S4096x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v1).slice (win0_2.rect t)).set ↔ _
  rw [View.set_slice_whole, Rect.mem_set_unit]
  exact Iff.rfl

/-- Every index of the array is in the block of the grid point its row falls in: row `R` is in block `R / 512`. -/
theorem cover0_2_arr (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  let t : Fin cfg0.N := ⟨(i 0).val / 512, by rw [show cfg0.N = 8 from N_0]; omega⟩
  obtain ⟨-, -, -, e0, e1⟩ := idx_facts0 t
  have e0' : win0_2.index t (0 : Fin 2) = (i 0).val / 512 := e0
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-! ## The array after the region -/

/-- After the region its output array holds, at row `R` and lane `d`, the specification's normalised hidden
    state, when the activations and the weight it reads denote the specification's data. -/
theorem arr_v1 (c : Dev nD) (D : Cert.Spec.Data)
    (hx : ∀ (R : Fin 4096) (d : Fin 2048), V c main_v0 (ValueIdx.ix2 R d) = ((D.x R d : ℝ) : EReal))
    (hw : ∀ d : Fin 2048, V c main_arg1 (ValueIdx.ix1 d) = ((D.w d : ℝ) : EReal))
    (heps : Ideal.ofBits .f32 0x358637BD#32 = ((D.eps : ℝ) : EReal)) (R : Fin 4096) (d : Fin 2048) :
    (dat0 V c).arrAt 2 cfg0.N (ValueIdx.ix2 R d) = ((Cert.Spec.hid D R d : ℝ) : EReal) := by
  rw [(dat0 V c).arrAt_eq_of_cover 2 (hidArr V c) (fun t _ => flushed0_2_eq V c t) cover0_2_arr]
  have hx' : ∀ (R : Fin 4096) (d : Fin 2048), xArr V c (ix2 R d) = ((D.x R d : ℝ) : EReal) := hx
  have hw' : ∀ d : Fin 2048, wArr V c (ix1 d) = ((D.w d : ℝ) : EReal) := hw
  show xArr V c (ix2 R d)
    * Ideal.rsqrt (Ideal.div (∑ d' : Fin 2048, xArr V c (ix2 R d') * xArr V c (ix2 R d')) (Ideal.ofBits .f32 0x45000000#32)
        + Ideal.ofBits .f32 0x358637BD#32)
    * wArr V c (ix1 d) = _
  simp only [hx', hw']
  rw [heps, Cert.Consts.ofBits_2048]
  exact Cert.Spec.hid_coe D R d

/-! ## The host operation before the region -/

/-- The reshape of the [2, 2048, 2048] argument to [4096, 2048], read at row `R`, lane `d`: batch `R / 2048`,
    position `R % 2048`, lane `d` of the argument. -/
theorem reshape_v0 (W : Valuation τ sig (Elt Ideal)) (R : Fin 4096) (d : Fin 2048) :
    StableHlo.after hostOps0 W (Proc.devRef .tc main_v0) (ValueIdx.ix2 R d)
      = W (Proc.devRef .tc main_arg0) (ValueIdx.ix3 (⟨R.val / 2048, by omega⟩ : Fin 2) (⟨R.val % 2048, by omega⟩ : Fin 2048) d) := by
  simp only [hostOps0]
  after_results
  show shapeCast S4096x2048 (W (Proc.devRef .tc main_arg0)) shapeCasts_S2x2048x2048_S4096x2048 (ix2 R d) = _
  exact shapeCast_apply _ shapeCasts_S2x2048x2048_S4096x2048 (ix2 R d) _
    (by rw [Shape.rowMajor_val_three, Shape.rowMajor_val_two]
        show (R.val / 2048 * 2048 + R.val % 2048) * 2048 + d.val = R.val * 2048 + d.val
        have := R.isLt; omega)

end Cert.KernelIdeal.Hand

end
-- ==== Proof.ValueLab.lean ====
/-
  The host operations between the two kernel regions, read on the label words.

  From the label array over batch × position the host takes the labels from position 1 on, appends one column of the
  ignore word, and flattens batch × position to rows: row R = 2048·b + t holds the label of position t + 1, the last
  position of each batch the ignore word — the shifted label of row R. Beside it the host marks a word valid when
  it is not the ignore word and, read signed, lies in [0, 50257), and turns the mark into a float: for a word that
  is a class (below 50257 read unsigned, hence non-negative read signed) the mark is 1, for the ignore word it is 0.
  The stretch writes only its own intermediate values: the program's arguments and the first region's output keep
  their contents.
-/
import proofs.«416190_j54460185313708_2_alg».proof.Proof.Gen.KernelIdeal.Launch
import proofs.«416190_j54460185313708_2_alg».proof.Proof.Gen.KernelIdeal.Regions
import proofs.«416190_j54460185313708_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The label words the host hands the second region, as an array over batch × position: the labels from position 1
    on, then one column of the ignore word. -/
def shifted (A : S2x2048.Idx → BitVec 32) : S2x2048.Idx → BitVec 32 :=
  concatenate S2x2048 1
    [⟨S2x2047, extractStridedSlice S2x2047 ![0, 1] A slices_S2x2048_S2x2047_0_1⟩,
      ⟨S2x1, broadcastInDim S2x1 ![] bcast_S_S2x1 (constantI S_ 32 4294967196#32)⟩]
    concatenates_S2x2047_S2x1_S2x2048_d1

/-- Read at (b, p): the label of position p + 1 while p < 2047, the ignore word at the last position. -/
theorem shifted_apply (A : S2x2048.Idx → BitVec 32) (b : Fin 2) (p : Fin 2048) :
    shifted A (ix2 b p) = if h : p.val < 2047 then A (ix2 b ⟨p.val + 1, by omega⟩) else Cert.Spec.ignoreW := by
  unfold shifted
  by_cases h : p.val < 2047
  · rw [dif_pos h]
    refine (concatenate_pair_apply_left (t := S2x2048) (s₁ := S2x2047) (s₂ := S2x1) (1 : Fin 2) _ _
      concatenates_S2x2047_S2x1_S2x2048_d1 (ix2 b p) rfl (ix2 b (⟨p.val, h⟩ : Fin 2047) : S2x2047.Idx) ?_).trans ?_
    · intro a
      match a with
      | ⟨0, _⟩ => rfl
      | ⟨1, _⟩ => rfl
    · exact extractStridedSlice_apply _ A _ _ (ix2 b (⟨p.val + 1, by omega⟩ : Fin 2048)) (fun a => match a with
        | ⟨0, _⟩ => by show b.val = 0 + b.val; omega
        | ⟨1, _⟩ => by show p.val + 1 = 1 + p.val; omega)
  · rw [dif_neg h]
    refine (concatenate_pair_apply_right (t := S2x2048) (s₁ := S2x2047) (s₂ := S2x1) (1 : Fin 2) _ _
      concatenates_S2x2047_S2x1_S2x2048_d1 (ix2 b p) rfl rfl (ix2 b (0 : Fin 1) : S2x1.Idx) ?_ ?_).trans ?_
    · intro a ha
      match a, ha with
      | ⟨0, _⟩, _ => rfl
      | ⟨1, _⟩, ha => exact absurd rfl ha
    · have := p.isLt
      show (0 : ℕ) + 2047 = p.val
      omega
    · exact (broadcastInDim_apply _ bcast_S_S2x1 _ (ix2 b (0 : Fin 1)) (fun a => a.elim0) (fun a => a.elim0)).trans rfl

/-- What the host stretch leaves in the flattened label column: the reshape of the shifted labels. -/
theorem v5_term (W : Valuation τ sig (Elt Ideal)) :
    (StableHlo.after hostOps1 W (Proc.devRef .tc main_v5) : S4096x1.Idx → BitVec 32)
      = shapeCast S4096x1 (shifted (W (Proc.devRef .tc main_arg3))) shapeCasts_S2x2048_S4096x1 := by
  simp only [hostOps1]; after_results; rfl

/-- Row R of the flattened column is batch R / 2048, position R % 2048. -/
theorem labels_v5 (W : Valuation τ sig (Elt Ideal)) (R : Fin 4096) :
    StableHlo.after hostOps1 W (Proc.devRef .tc main_v5) (ValueIdx.ix2 R (0 : Fin 1))
      = Cert.Spec.shift (Cert.Spec.labOf (W (Proc.devRef .tc main_arg3))) R := by
  have hdiv : R.val / 2048 < 2 := by have := R.isLt; omega
  have hmod : R.val % 2048 < 2048 := Nat.mod_lt _ (by norm_num)
  have e2 : StableHlo.after hostOps1 W (Proc.devRef .tc main_v5) (ix2 R (0 : Fin 1))
      = shifted (W (Proc.devRef .tc main_arg3)) (ix2 (⟨R.val / 2048, hdiv⟩ : Fin 2) (⟨R.val % 2048, hmod⟩ : Fin 2048)) :=
    (congrFun (v5_term W) _).trans (shapeCast_apply _ _ _ _ (by
      rw [Shape.rowMajor_val_two, Shape.rowMajor_val_two]
      show R.val / 2048 * 2048 + R.val % 2048 = R.val * 1 + 0
      omega))
  rw [e2, shifted_apply]
  rfl

/-- The validity of a label word as the host computes it: not the ignore word, and, read signed, at least 0 and
    below 50257; as a float. -/
def validOf (z : BitVec 32) : EReal :=
  FloatOps.uitofp (F := Ideal) .f32
    (IntOp.andi (IntOp.cmpi .ne z 4294967196#32) (IntOp.andi (IntOp.cmpi .sge z 0#32) (IntOp.cmpi .slt z 50257#32)))

/-- A class word (below 50257, so non-negative read signed, and not the ignore word) is valid: 1; the ignore word is
    not: 0. -/
theorem valid_word (z : BitVec 32) (hz : Cert.Spec.IsClass z ∨ z = Cert.Spec.ignoreW) :
    validOf z = if Cert.Spec.IsClass z then (1 : EReal) else 0 := by
  unfold validOf
  rcases hz with hc | hig
  · have hc' : z.toNat < 50257 := hc
    have hne : z ≠ 4294967196#32 := by
      intro h; rw [h] at hc'; exact absurd hc' (by decide)
    have h1 : IntOp.cmpi .ne z 4294967196#32 = 1#1 := by
      show BitVec.ofBool (z != 4294967196#32) = 1#1
      rw [bne_iff_ne.mpr hne]; rfl
    have h2 : IntOp.cmpi .sge z 0#32 = 1#1 :=
      (StableHlo.Predicate.sge_iff_toNat (by omega) (by decide)).mpr (by show (0#32).toNat ≤ z.toNat; exact Nat.zero_le _)
    have h3 : IntOp.cmpi .slt z 50257#32 = 1#1 :=
      (StableHlo.Predicate.slt_iff_toNat (by omega) (by decide)).mpr (by show z.toNat < (50257#32).toNat; exact hc')
    rw [h1, h2, h3, if_pos hc]
    show (((IntOp.andi 1#1 (IntOp.andi 1#1 1#1)).toNat : ℝ) : EReal) = 1
    have : (IntOp.andi 1#1 (IntOp.andi 1#1 1#1)).toNat = 1 := by decide
    rw [this]; simp
  · rw [hig]
    have hn : ¬ Cert.Spec.IsClass Cert.Spec.ignoreW := by unfold Cert.Spec.IsClass; decide
    rw [if_neg hn]
    show (((IntOp.andi (IntOp.cmpi .ne Cert.Spec.ignoreW 4294967196#32)
      (IntOp.andi (IntOp.cmpi .sge Cert.Spec.ignoreW 0#32) (IntOp.cmpi .slt Cert.Spec.ignoreW 50257#32))).toNat : ℝ) : EReal) = 0
    have : (IntOp.andi (IntOp.cmpi .ne Cert.Spec.ignoreW 4294967196#32)
      (IntOp.andi (IntOp.cmpi .sge Cert.Spec.ignoreW 0#32) (IntOp.cmpi .slt Cert.Spec.ignoreW 50257#32))).toNat = 0 := by decide
    rw [this]; simp

/-- What the host stretch leaves in the flattened validity column: the reshape of the shifted labels' validity. -/
theorem v15_term (W : Valuation τ sig (Elt Ideal)) :
    (StableHlo.after hostOps1 W (Proc.devRef .tc main_v15) : S4096.Idx → EReal)
      = shapeCast S4096 (fun i => validOf (shifted (W (Proc.devRef .tc main_arg3)) i)) shapeCasts_S2x2048_S4096 := by
  simp only [hostOps1]; after_results; rfl

/-- Row R's validity is 1 when its shifted label is a class and 0 otherwise. -/
theorem valid_v15 (W : Valuation τ sig (Elt Ideal)) (hL : Cert.Spec.LabelsOk (W (Proc.devRef .tc main_arg3))) (R : Fin 4096) :
    StableHlo.after hostOps1 W (Proc.devRef .tc main_v15) (ValueIdx.ix1 R)
      = if Cert.Spec.IsClass (Cert.Spec.shift (Cert.Spec.labOf (W (Proc.devRef .tc main_arg3))) R) then (1 : EReal) else 0 := by
  have hdiv : R.val / 2048 < 2 := by have := R.isLt; omega
  have hmod : R.val % 2048 < 2048 := Nat.mod_lt _ (by norm_num)
  have e2 : StableHlo.after hostOps1 W (Proc.devRef .tc main_v15) (ix1 R)
      = validOf (shifted (W (Proc.devRef .tc main_arg3)) (ix2 (⟨R.val / 2048, hdiv⟩ : Fin 2) (⟨R.val % 2048, hmod⟩ : Fin 2048))) :=
    (congrFun (v15_term W) _).trans (shapeCast_apply _ _ _ _ (by
      rw [Shape.rowMajor_val_two, Shape.rowMajor_val_one]
      show R.val / 2048 * 2048 + R.val % 2048 = R.val
      omega))
  have e3 : shifted (W (Proc.devRef .tc main_arg3)) (ix2 (⟨R.val / 2048, hdiv⟩ : Fin 2) (⟨R.val % 2048, hmod⟩ : Fin 2048))
      = Cert.Spec.shift (Cert.Spec.labOf (W (Proc.devRef .tc main_arg3))) R := by
    rw [shifted_apply]; rfl
  have hok : Cert.Spec.IsClass (Cert.Spec.shift (Cert.Spec.labOf (W (Proc.devRef .tc main_arg3))) R)
      ∨ Cert.Spec.shift (Cert.Spec.labOf (W (Proc.devRef .tc main_arg3))) R = Cert.Spec.ignoreW := by
    unfold Cert.Spec.shift
    split_ifs with hR
    · exact hL _ _
    · exact Or.inr rfl
  rw [e2, e3]
  exact valid_word _ hok

/-- The stretch writes none of the program's arguments nor the first region's output. -/
theorem hostOps1_keeps (W : Valuation τ sig (Elt Ideal)) (b : Ref sig .tc)
    (hb : b = main_v1 ∨ b = main_arg2 ∨ b = main_arg0 ∨ b = main_arg1 ∨ b = main_arg3) :
    StableHlo.after hostOps1 W (Proc.devRef .tc b) = W (Proc.devRef .tc b) := by
  rcases hb with rfl | rfl | rfl | rfl | rfl <;>
    exact StableHlo.after_of_writes_sub hostOps1 W hostOps1_writes (by decide)

end Cert.KernelIdeal.Hand

end
-- ==== Proof.ValueOut.lean ====
/-
  The last host stretch of the idealized kernel program, read at the extended reals: the per-row losses are multiplied
  by the validity weights and summed, the weights are summed, and the first sum is divided by the greater of the second
  and one. Whatever the other buffers hold, the result is the weighted mean Σ nl·vd / max(Σ vd, 1).
-/
import proofs.«416190_j54460185313708_2_alg».proof.Proof.Gen.KernelIdeal.Launch
import proofs.«416190_j54460185313708_2_alg».proof.Proof.Consts
import proofs.«416190_j54460185313708_2_alg».proof.Proof.SoftmaxMath
import Idealize.ShloMosaic.Lib.StableHlo.Run
import Idealize.ShloMosaic.Lib.Pipeline.Value
import Idealize.ShloMosaic.Lib.ValueIdx
import Idealize.ShloMosaic.Lib.ValueIdxRank1
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.StableHlo
open scoped BigOperators

/-- The reshape of the loss column [4096,1] to a vector [4096] reads row R at position R: the same row-major position. -/
private theorem reshape_col {α : Type} (x : S4096x1.Idx → α) (R : Fin 4096) :
    shapeCast S4096 x shapeCasts_S4096x1_S4096 (ValueIdx.ix1 R) = x (ValueIdx.ix2 R (0 : Fin 1)) := by
  refine shapeCast_apply x _ _ _ ?_
  rw [Shape.rowMajor_val_two, Shape.rowMajor_val_one]
  show R.val * 1 + 0 = R.val
  omega

/-- A sum over the positions of a vector of 4096 is the sum over its coordinate. -/
private theorem sum_vec {M : Type} [AddCommMonoid M] (f : S4096.Idx → M) : ∑ j, f j = ∑ R : Fin 4096, f (ValueIdx.ix1 R) :=
  (Equiv.sum_comp ValueIdx.idxEquiv1.symm f).symm

/-- The stretch's arithmetic on any loss column A and weight vector B with real entries: the sum of the products over
    the greater of the weights' sum and one. -/
private theorem mean_eq (A : FVec Ideal S4096x1 .f32) (B : FVec Ideal S4096 .f32) (nl vd : Fin 4096 → ℝ)
    (hA : ∀ R : Fin 4096, A (ValueIdx.ix2 R (0 : Fin 1)) = ((nl R : ℝ) : EReal))
    (hB : ∀ R : Fin 4096, B (ValueIdx.ix1 R) = ((vd R : ℝ) : EReal)) (j : S_.Idx) :
    Host.divf
        (Host.reduceAdd (mulf (shapeCast S4096 A shapeCasts_S4096x1_S4096) B) (constant S_ .f32 0x00000000#32) reducesTo_S4096_S_d0 h_S_)
        (maximumf (Host.reduceAdd B (constant S_ .f32 0x00000000#32) reducesTo_S4096_S_d0 h_S_) (constant S_ .f32 0x3F800000#32)) j
      = (((∑ R, nl R * vd R) / max (∑ R, vd R) 1 : ℝ) : EReal) := by
  have ht : ∀ b : Fin S_.rank, S_.size b = 1 := fun b => b.elim0
  rw [ValueIdx.hostDivf_apply, ValueIdx.maximumf_apply, ValueIdx.hostReduceAdd_apply, ValueIdx.hostReduceAdd_apply,
    ValueIdx.constant_apply, ValueIdx.constant_apply, Ideal.hostReduceAdd_total _ ht, Ideal.hostReduceAdd_total _ ht,
    Cert.Consts.ofBits_zero, Cert.Consts.ofBits_one, zero_add, zero_add, sum_vec, sum_vec]
  simp only [ValueIdx.mulf_apply]
  have hnum : ∀ R : Fin 4096,
      shapeCast S4096 A shapeCasts_S4096x1_S4096 (ValueIdx.ix1 R) * B (ValueIdx.ix1 R) = ((nl R * vd R : ℝ) : EReal) := by
    intro R
    rw [EReal.coe_mul, ← hA R, ← hB R, reshape_col A R]
  have hne : max (∑ R, vd R) 1 ≠ 0 := ne_of_gt (lt_of_lt_of_le one_pos (le_max_right _ _))
  rw [Finset.sum_congr rfl (fun R _ => hnum R), Finset.sum_congr rfl (fun R _ => hB R), ← Cert.Spec.coe_sum,
    ← Cert.Spec.coe_sum, ← EReal.coe_one, ← EReal.coe_strictMono.monotone.map_max, Ideal.div_coe hne, ← EReal.coe_mul,
    mul_one_div]

/-- The weighted mean the last host stretch leaves in its result. -/
theorem tail_v22 (W : Valuation τ sig (Elt Ideal)) (nl vd : Fin 4096 → ℝ)
    (h16 : ∀ R : Fin 4096, W (Proc.devRef .tc main_v16) (ValueIdx.ix2 R (0 : Fin 1)) = ((nl R : ℝ) : EReal))
    (h15 : ∀ R : Fin 4096, W (Proc.devRef .tc main_v15) (ValueIdx.ix1 R) = ((vd R : ℝ) : EReal)) :
    StableHlo.after hostOps2 W (Proc.devRef .tc main_v22)
      = fun _ => (((∑ R, nl R * vd R) / max (∑ R, vd R) 1 : ℝ) : EReal) := by
  simp only [hostOps2]
  after_results
  funext j
  exact mean_eq (W (Proc.devRef .tc main_v16)) (W (Proc.devRef .tc main_v15)) nl vd h16 h15 j

end Cert.KernelIdeal.Hand

end
-- ==== Proof.ValueNll.lean ====
/-
  From the output blocks to the output array, for the second region.

  The region's output is a column of 4096 entries written in 4 blocks of 1024 rows: the block of row tile a is written
  back once, at the grid point (a, 98) that ends the row tile's sweep over the 99 vocabulary tiles, and holds row
  1024·a + r in its row r. When every written block holds, row by row, the row's log-sum-exp minus its picked logit, the
  array after the run holds that value in every row: row R lies in the block of row tile R / 1024.
-/
import proofs.«416190_j54460185313708_2_alg».proof.Proof.InvDefs
import proofs.«416190_j54460185313708_2_alg».proof.Proof.Gen.KernelIdeal.Launch
import proofs.«416190_j54460185313708_2_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem

/-- The output array as one function of its index: row R holds the row's log-sum-exp minus its picked logit. -/
def nllArr (D : Cert.Spec.Data) (lab : Fin 2 → Fin 2048 → BitVec 32) : S4096x1.Idx → Elt Ideal .f32 :=
  fun idx => ((lsePick D ⟨(idx 0).val, (idx 0).isLt⟩ (shift lab ⟨(idx 0).val, (idx 0).isLt⟩) : ℝ) : EReal)

/-- The output window's block of grid point t is the block of row tile t / 99 in the one block column. -/
theorem out_index : ∀ t : Fin cfg1.N, win1_3.index t (0 : Fin 2) = t.val / 99 ∧ win1_3.index t (1 : Fin 2) = 0 :=
  (by decide +kernel : ∀ t : Fin grid1.N, win1_3.index t (0 : Fin 2) = t.val / 99 ∧ win1_3.index t (1 : Fin 2) = 0)

/-- An index of the array lies in grid point t's block iff each coordinate lies in the block's range on its axis. -/
theorem mem_out_blk (t : Fin cfg1.N) (i : S4096x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v16).slice (win1_3.rect t)).set ↔ _
  rw [View.set_slice_whole, Rect.mem_set_unit]
  exact Iff.rfl

section
variable {c : Dev nD} (dat : Pipeline.Dat τ (Elt Ideal) Unit ℕ (UR sig nD τ) ℕ cfg1 c) (D : Cert.Spec.Data)
  (lab : Fin 2 → Fin 2048 → BitVec 32) (hafter : ∀ t : Fin cfg1.N, dat.after 3 t = nllBlk D lab t)
include hafter

/-- What a grid point writes back is its block of the array function: row r of the block is array row 1024·(t / 99) + r. -/
theorem flushed_out_eq (t : Fin cfg1.N) :
    dat.flushed 3 t = ((cfg1.win 3).blk t).view.read (Elt Ideal) (nllArr D lab) := by
  show (cfg1.win 3).cut (grid1.coords t) (dat.after 3 t) = _
  rw [hafter]
  funext y
  show ((lsePick D (rowOf t ⟨(y 0).val, (y 0).isLt⟩) (shift lab (rowOf t ⟨(y 0).val, (y 0).isLt⟩)) : ℝ) : EReal)
    = nllArr D lab (((cfg1.win 3).blk t).view.emb y)
  have hrow : rowOf t ⟨(y 0).val, (y 0).isLt⟩
      = ⟨((((cfg1.win 3).blk t).view.emb y) 0).val, ((((cfg1.win 3).blk t).view.emb y) 0).isLt⟩ := by
    apply Fin.ext
    show 1024 * (t.val / 99) + (y 0).val = win1_3.index t (0 : Fin 2) * 1024 + 1 * (y 0).val
    rw [(out_index t).1]
    omega
  rw [hrow]
  rfl

/-- The array after the run is the array function: every row lies in the block its row tile's last grid point writes. -/
theorem arr_v16_eq : dat.arrAt 3 cfg1.N = nllArr D lab := by
  refine dat.arrAt_eq_of_cover 3 (nllArr D lab) (fun t _ => flushed_out_eq dat D lab hafter t) fun i => ?_
  have hi0 : (i 0).val < 4096 := (i 0).isLt
  have hi1 : (i 1).val < 1 := (i 1).isLt
  have hN : cfg1.N = 396 := N_1
  let t : Fin cfg1.N := ⟨99 * ((i 0).val / 1024) + 98, by omega⟩
  have ht : t.val = 99 * ((i 0).val / 1024) + 98 := rfl
  obtain ⟨e0, e1⟩ := out_index t
  refine ⟨t, (flush1_3 t).mpr (by omega), ?_⟩
  rw [mem_out_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1 ≤ (i 1).val ∧ (i 1).val < win1_3.index t (1 : Fin 2) * 1 + 1
    omega

end

/-- The output array after the second region's run, read at row R: the row's log-sum-exp minus its picked logit. -/
theorem arr_v16_of {c : Dev nD} (dat : Pipeline.Dat τ (Elt Ideal) Unit ℕ (UR sig nD τ) ℕ cfg1 c) (D : Cert.Spec.Data) (lab : Fin 2 → Fin 2048 → BitVec 32)
    (hafter : ∀ t : Fin cfg1.N, dat.after 3 t = nllBlk D lab t) (R : Fin 4096) :
    dat.arrAt 3 cfg1.N (ValueIdx.ix2 R (0 : Fin 1)) = ((Cert.Spec.lsePick D R (Cert.Spec.shift lab R) : ℝ) : EReal) := by
  rw [arr_v16_eq dat D lab hafter]
  rfl

end Cert.KernelIdeal.Hand

end
-- ==== Proof.Glue.lean ====
/-
  The idealized kernel program's result is the specification's loss. The run names every buffer's final contents as a
  fold through the program; the fold is read back to the argument arrays: the first region leaves the normalised hidden
  states in its output array, the host stretch between the regions the shifted labels and the validity mask, the second
  region each row's log-sum-exp minus its picked logit, and the last host stretch the masked mean.
-/
import proofs.«416190_j54460185313708_2_alg».proof.Proof.RunIdeal
import proofs.«416190_j54460185313708_2_alg».proof.Proof.ValueH
import proofs.«416190_j54460185313708_2_alg».proof.Proof.ValueLab
import proofs.«416190_j54460185313708_2_alg».proof.Proof.ValueOut
import proofs.«416190_j54460185313708_2_alg».proof.Proof.ValueNll

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ) (D : Data)

/-- The labels the program is launched with, on core `c`, by batch and position. -/
abbrev labAt (c : Dev nD) : Fin 2 → Fin 2048 → BitVec 32 := labOf (m ((c.tc : Thread nD τ).loc main_arg3))

/-- A row is the row of its batch and position. -/
theorem row_div_mod (R : Fin 4096) : row (⟨R.val / 2048, by omega⟩ : Fin 2) (⟨R.val % 2048, by omega⟩ : Fin 2048) = R := by
  apply Fin.ext; simp only [row]; omega

/-- A row's term of the sum is its log-sum-exp minus picked logit, times its count. -/
theorem term_mul_cnt (R : Fin 4096) (z : BitVec 32) : term D R z = lsePick D R z * cnt z := by
  rw [term_eq]; unfold cnt; split <;> simp

/-- The masked mean of the rows' values is the loss. -/
theorem loss_eq (lab : Fin 2 → Fin 2048 → BitVec 32) :
    (∑ R, lsePick D R (shift lab R) * cnt (shift lab R)) / max (∑ R, cnt (shift lab R)) 1 = loss D lab := by
  unfold loss; congr 1; exact Finset.sum_congr rfl fun R _ => (term_mul_cnt D R _).symm

/-- The count as an extended real is the validity mask's entry. -/
theorem cnt_coe (z : BitVec 32) : (if IsClass z then (1 : EReal) else 0) = ((cnt z : ℝ) : EReal) := by
  unfold cnt; split <;> simp

/-- The label argument reaches the second host stretch as launched. -/
theorem W2_main_arg3 (c : Dev nD) : W2 m c (Proc.devRef .tc main_arg3) = m ((c.tc : Thread nD τ).loc main_arg3) :=
  (W2_of_ne m c main_arg3 (by decide)).trans ((W1_of m c main_arg3 (by decide)).trans rfl)

section Facts

variable (c : Dev nD)
  (hR : Reads D (m ((c.tc : Thread nD τ).loc main_arg0)) (m ((c.tc : Thread nD τ).loc main_arg1)) (m ((c.tc : Thread nD τ).loc main_arg2)))
  (hL : LabelsOk (m ((c.tc : Thread nD τ).loc main_arg3)))

include hR in
/-- The first region finds the hidden rows flattened: row R is batch R / 2048, position R % 2048. -/
theorem v1_main_v0 (R : Fin 4096) (d : Fin 2048) : V1 m c main_v0 (ix2 R d) = ((D.x R d : ℝ) : EReal) := by
  show StableHlo.after hostOps0 (W0 m c) (Proc.devRef .tc main_v0) (ix2 R d) = _
  rw [reshape_v0]
  show m ((c.tc : Thread nD τ).loc main_arg0) (ix3 _ _ d) = _
  rw [hR.x_eq, row_div_mod]

include hR in
/-- The first region finds the weight vector as launched. -/
theorem v1_main_arg1 (d : Fin 2048) : V1 m c main_arg1 (ix1 d) = ((D.w d : ℝ) : EReal) := by
  show W1 m c (Proc.devRef .tc main_arg1) (ix1 d) = _
  rw [W1_of m c main_arg1 (by decide)]
  exact hR.w_eq d

include hR in
/-- The second region finds the normalised hidden states in the first region's output array. -/
theorem v3_main_v1 (R : Fin 4096) (d : Fin 2048) : V3 m c main_v1 (ix2 R d) = ((hid D R d : ℝ) : EReal) := by
  show W3 m c (Proc.devRef .tc main_v1) (ix2 R d) = _
  rw [W3_of m c main_v1 (by decide)]
  show W2 m c (Proc.devRef .tc (Pipeline.arrRef spec0 2)) (ix2 R d) = _
  rw [W2_arr m c 2]
  exact arr_v1 (V1 m) c D (v1_main_v0 m D c hR) (v1_main_arg1 m D c hR) hR.eps_eq R d

include hR in
/-- The second region finds the vocabulary matrix as launched. -/
theorem v3_main_arg2 (v : Fin 50257) (d : Fin 2048) : V3 m c main_arg2 (ix2 v d) = ((D.lm v d : ℝ) : EReal) := by
  show W3 m c (Proc.devRef .tc main_arg2) (ix2 v d) = _
  rw [W3_of m c main_arg2 (by decide), W2_of_ne m c main_arg2 (by decide), W1_of m c main_arg2 (by decide)]
  exact hR.lm_eq v d

/-- The second region finds the labels shifted by one position. -/
theorem v3_main_v5 (R : Fin 4096) : V3 m c main_v5 (ix2 R (0 : Fin 1)) = shift (labAt m c) R := by
  show StableHlo.after hostOps1 (W2 m c) (Proc.devRef .tc main_v5) (ix2 R (0 : Fin 1)) = _
  rw [labels_v5, W2_main_arg3]

include hL in
/-- Every launched label is a class or the ignore label. -/
theorem labAt_ok : ∀ b t, IsClass (labAt m c b t) ∨ labAt m c b t = ignoreW := fun b t => hL b t

include hL in
/-- The last host stretch finds the validity mask: a row's entry is its count. -/
theorem w4_main_v15 (R : Fin 4096) :
    W4 m D (labAt m c) c (Proc.devRef .tc main_v15) (ix1 R) = ((cnt (shift (labAt m c) R) : ℝ) : EReal) := by
  rw [W4_of_ne m D (labAt m c) c main_v15 (by decide)]
  show StableHlo.after hostOps1 (W2 m c) (Proc.devRef .tc main_v15) (ix1 R) = _
  rw [valid_v15 (W2 m c) (by rw [W2_main_arg3]; exact hL) R, W2_main_arg3]
  exact cnt_coe _

/-- The last host stretch finds, in the second region's output array, each row's log-sum-exp minus its picked logit. -/
theorem w4_main_v16 (R : Fin 4096) :
    W4 m D (labAt m c) c (Proc.devRef .tc main_v16) (ix2 R (0 : Fin 1)) = ((lsePick D R (shift (labAt m c) R) : ℝ) : EReal) := by
  show W4 m D (labAt m c) c (Proc.devRef .tc (Pipeline.arrRef spec1 3)) (ix2 R (0 : Fin 1)) = _
  rw [W4_arr m D (labAt m c) c 3]
  exact arr_v16_of (dat1 (V3 m) D (labAt m c) c) D (labAt m c) (after1_3 (V3 m) D (labAt m c) c) R

include hL in
/-- The result buffer's final contents: the loss at every index. -/
theorem w5_main_v22 :
    W5 m D (labAt m c) c (Proc.devRef .tc main_v22) = fun _ => ((loss D (labAt m c) : ℝ) : EReal) := by
  show StableHlo.after hostOps2 (W4 m D (labAt m c) c) (Proc.devRef .tc main_v22) = _
  rw [tail_v22 (W4 m D (labAt m c) c) (fun R => lsePick D R (shift (labAt m c) R)) (fun R => cnt (shift (labAt m c) R))
    (w4_main_v16 m D c) (w4_main_v15 m D c hL), loss_eq]

end Facts

/-- THE VALUE RUN: from a memory whose argument arrays hold the specification's data and admissible labels, every
    weakly fair execution of the program terminates with the result buffer holding the specification's loss and the
    argument arrays as launched. -/
theorem kernel_run (m : (ℓ : Loc nD τ sig) → Buf (Elt Ideal) ℓ) (ρ : Dev nD → PrngReg) (D : Cert.Spec.Data) (c0 : Dev nD)
    (hR : Cert.Spec.Reads D (m ((c0.tc : Thread nD τ).loc main_arg0)) (m ((c0.tc : Thread nD τ).loc main_arg1)) (m ((c0.tc : Thread nD τ).loc main_arg2)))
    (hL : Cert.Spec.LabelsOk (m ((c0.tc : Thread nD τ).loc main_arg3))) :
    θ_run defs (onTc (τ := τ) (main (F := Ideal))) ⟨m, fun _ => 0, ρ⟩ (fun r => ∀ c : Dev nD,
      r.2.mem ((c.tc : Thread nD τ).loc main_v22) = (fun _ => ((Cert.Spec.loss D (Cert.Spec.labOf (m ((c0.tc : Thread nD τ).loc main_arg3))) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hc : ∀ c : Dev nD, c = c0 := fun c => Subsingleton.elim c c0
  refine (θ_run defs _ _).mono (fun r hr c => ?_)
    (run_ideal m ρ D (labAt m c0) (labAt_ok m c0 hL)
      (fun c R d => by rw [hc c]; exact v3_main_v1 m D c0 hR R d)
      (fun c v d => by rw [hc c]; exact v3_main_arg2 m D c0 hR v d)
      (fun c R => by rw [hc c]; exact v3_main_v5 m c0 R))
  obtain ⟨h22, h0, h1, h2, h3⟩ := hr c
  refine ⟨h22.trans ?_, h0, h1, h2, h3⟩
  rw [hc c]
  exact w5_main_v22 m D c0 hL

end Cert.KernelIdeal.Hand

end
-- ==== Proof.RefValue.lean ====
/-
  The reference program's value. Read with exact arithmetic over the extended reals, on inputs that are real
  numbers, the reference's result is the specification's loss.

  Stage by stage. The sum of a hidden row's squares, divided by 2048, plus the offset, under the reciprocal root,
  times the entry and the norm weight, is the normalised hidden state; its inner products with the vocabulary rows
  are the logits. Over the 2047 kept positions of each batch: the row's greatest logit (a fold of maxima from −∞
  over real numbers), the logits shifted by it, the sum of their exponentials (positive), its logarithm, and so the
  log-probabilities logit − maximum − log(sum). A kept position's label is the next position's; with the ignore
  word replaced by class 0 it is, under the label condition, a class number: it is not negative, it lies in range,
  its clamp is itself, and the picked entry is the log-probability in its column. The negated picked entry times
  the 0/1 flag "the label is not the ignore word" is the row's contribution to the sum, the flag its contribution
  to the count. The two totals over the kept positions are the totals over all 4096 rows, the last position of
  each batch contributing nothing, and their quotient, the divisor at least one, is the loss.
-/
import proofs.«416190_j54460185313708_2_alg».proof.Proof.RefRead
import proofs.«416190_j54460185313708_2_alg».proof.Proof.Spec
import proofs.«416190_j54460185313708_2_alg».proof.Proof.SoftmaxDefs
import proofs.«416190_j54460185313708_2_alg».proof.Proof.Consts
import proofs.«416190_j54460185313708_2_alg».proof.Proof.SoftmaxMath
import Idealize.ShloMosaic.Lib.ValueIdx
import Idealize.ShloMosaic.PureOps.Ideal.Laws
import Idealize.ShloMosaic.PureOps.Reduce
import Mathlib.Data.EReal.Basic
import Mathlib.Data.EReal.Operations
import Mathlib.Data.Finset.Lattice.Fold
import Mathlib.Order.MinMax
import Mathlib.Analysis.SpecialFunctions.Exp
import Mathlib.Analysis.SpecialFunctions.Log.Basic

noncomputable section

open scoped BigOperators

namespace Cert.ReferenceIdeal.RefValue

open Cert.ReferenceIdeal Cert.ReferenceIdeal.ReadP Cert.ReferenceIdeal.Gen Idealize.ShloMosaic Idealize.ShloMosaic.ValueIdx

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-- The four arguments' types: hidden states, norm weight, vocabulary matrix, labels. -/
abbrev X0 : Type := (⟨S2x2048x2048, .f32⟩ : BufTy).Contents (Elt Ideal)
abbrev X1 : Type := (⟨S2048, .f32⟩ : BufTy).Contents (Elt Ideal)
abbrev X2 : Type := (⟨S50257x2048, .f32⟩ : BufTy).Contents (Elt Ideal)
abbrev X3 : Type := (⟨S2x2048, .i32⟩ : BufTy).Contents (Elt Ideal)

/-! ## The three folds and the pick, read at an index -/

theorem red_max : S2x2047x50257.Reduces [2] S2x2047 := by decide
theorem red_and : S2x2047x1x1.Reduces [3] S2x2047x1 := by decide

/-- Position (b, t) of the reduced array with class k put back is (b, t, k). -/
theorem lift_max (b : Fin 2) (t : Fin 2047) (k : Fin (S2x2047x50257.size 2)) :
    red_max.lift (ix2 b t) k = ix3 b t (⟨k.val, k.isLt⟩ : Fin 50257) := by
  funext c; apply Fin.ext
  fin_cases c <;> rfl

/-- A maximum-reduce over the class axis is, at (b, t), the fold of maxima over the classes from the initial value. -/
theorem reduce_max_apply (x : FVec Ideal S2x2047x50257 .f32) (init : FVec Ideal S_ .f32) (b : Fin 2) (t : Fin 2047) :
    Host.reduce FloatOps.maximumf x init reducesTo_S2x2047x50257_S2x2047_d2 h_S_ (ix2 b t)
      = (Finset.univ : Finset (Fin 50257)).fold max (init (Shape.Idx.first h_S_)) (fun k => x (ix3 b t k)) := by
  rw [Host.reduce_eq_fold_single FloatOps.maximumf x _ reducesTo_S2x2047x50257_S2x2047_d2 red_max h_S_]
  have hf : (x ∘ red_max.lift (ix2 b t)) = fun k : Fin 50257 => x (ix3 b t k) := funext fun k => congrArg x (lift_max b t k)
  exact congrArg (fun f => Finset.fold max (init (Shape.Idx.first h_S_)) f (Finset.univ : Finset (Fin 50257))) hf

theorem lift_and (b : Fin 2) (t : Fin 2047) (k : Fin (S2x2047x1x1.size 3)) :
    red_and.lift (ix3 b t (0 : Fin 1)) k = ix4 b t (0 : Fin 1) (0 : Fin 1) := by
  funext c; apply Fin.ext
  have hk : k.val = 0 := by have := k.isLt; change k.val < 1 at this; omega
  fin_cases c
  · rfl
  · rfl
  · rfl
  · exact hk

/-- A conjunction-reduce over an axis of one entry is that entry and the initial value. -/
theorem reduce_and_apply (x : IVec S2x2047x1x1 1) (init : IVec S_ 1) (b : Fin 2) (t : Fin 2047) :
    Host.reduce IntOp.andi x init reducesTo_S2x2047x1x1_S2x2047x1_d3 h_S_ (ix3 b t (0 : Fin 1))
      = IntOp.andi (x (ix4 b t (0 : Fin 1) (0 : Fin 1))) (init (Shape.Idx.first h_S_)) := by
  rw [Host.reduce_eq_fold_single IntOp.andi x _ reducesTo_S2x2047x1x1_S2x2047x1_d3 red_and h_S_]
  have hf : (x ∘ red_and.lift (ix3 b t (0 : Fin 1))) = fun _ : Fin 1 => x (ix4 b t (0 : Fin 1) (0 : Fin 1)) :=
    funext fun k => congrArg x (lift_and b t k)
  have e : (Finset.univ : Finset (Fin (S2x2047x1x1.size 3))) = ({0} : Finset (Fin 1)) := rfl
  rw [hf, e]
  show Finset.fold IntOp.andi (init (Shape.Idx.first h_S_)) (fun _ : Fin 1 => x (ix4 b t (0 : Fin 1) (0 : Fin 1))) ({0} : Finset (Fin 1)) = _
  rw [Finset.fold_singleton]

/-- The pick's dimension numbers. -/
abbrev gd : GatherDims S2x2047x50257 S2x2047x1x1 S2x2047x1 := gather_S2x2047x50257_S2x2047x1x1_S2x2047x1_n_2_01_01_2_3_111

/-- The batched pick along the class axis: entry (b, t, 0) is the operand at (b, t, the start index at (b, t, 0, 0) read
    signed and clamped into the classes). -/
theorem gather_apply {α : Type} (x : S2x2047x50257.Idx → α) (idx : IVec S2x2047x1x1 32) (b : Fin 2) (t : Fin 2047) :
    Host.gather gd x idx (ix3 b t (0 : Fin 1))
      = x (ix3 b t (⟨min (idx (ix4 b t (0 : Fin 1) (0 : Fin 1))).toInt.toNat 50256, by omega⟩ : Fin 50257)) := by
  unfold Host.gather
  congr 1
  funext a
  apply Fin.ext
  match a with
  | ⟨0, _⟩ =>
    show gd.start (ix3 b t (0 : Fin 1)) idx 0 + gd.batchCoord (ix3 b t (0 : Fin 1)) 0 + gd.offCoord (ix3 b t (0 : Fin 1)) 0 = b.val
    rw [gd.start_batching _ _ _ (by decide), gd.offCoord_eq_zero _ _ (by decide), Nat.zero_add, Nat.add_zero]
    rfl
  | ⟨1, _⟩ =>
    show gd.start (ix3 b t (0 : Fin 1)) idx 1 + gd.batchCoord (ix3 b t (0 : Fin 1)) 1 + gd.offCoord (ix3 b t (0 : Fin 1)) 1 = t.val
    rw [gd.start_batching _ _ _ (by decide), gd.offCoord_eq_zero _ _ (by decide), Nat.zero_add, Nat.add_zero]
    rfl
  | ⟨2, _⟩ =>
    show gd.start (ix3 b t (0 : Fin 1)) idx 2 + gd.batchCoord (ix3 b t (0 : Fin 1)) 2 + gd.offCoord (ix3 b t (0 : Fin 1)) 2
      = min (idx (ix4 b t (0 : Fin 1) (0 : Fin 1))).toInt.toNat 50256
    rw [gd.batchCoord_eq_zero _ _ (by decide), gd.offCoord_eq_zero _ _ (by decide)]
    simp only [Nat.add_zero]
    unfold GatherDims.start
    rw [dif_pos (show (2 : Fin S2x2047x50257.rank) ∈ gd.startIndexMap by decide)]
    have hsi : gd.siIdx (ix3 b t (0 : Fin 1)) ⟨List.idxOf (2 : Fin S2x2047x50257.rank) gd.startIndexMap,
        List.idxOf_lt_length_iff.2 (show (2 : Fin S2x2047x50257.rank) ∈ gd.startIndexMap by decide)⟩ = ix4 b t (0 : Fin 1) (0 : Fin 1) := by
      funext b'; refine Fin.ext ?_
      match b' with
      | ⟨0, _⟩ => rfl
      | ⟨1, _⟩ => rfl
      | ⟨2, _⟩ => rfl
      | ⟨3, _⟩ => rfl
    rw [hsi]
    rfl

/-! ## Extended reals and words -/

/-- A fold of maxima from −∞ over real numbers is the greatest of them. -/
theorem fold_max_coe {ι : Type} [Fintype ι] [Nonempty ι] (f : ι → ℝ) :
    (Finset.univ : Finset ι).fold max (⊥ : EReal) (fun k => ((f k : ℝ) : EReal))
      = ((Finset.univ.sup' Finset.univ_nonempty f : ℝ) : EReal) := by
  have h1 : (Finset.univ : Finset ι).fold max (⊥ : EReal) (fun k => ((f k : ℝ) : EReal))
      = Finset.univ.sup (fun k => ((f k : ℝ) : EReal)) := rfl
  rw [h1, ← Finset.sup'_eq_sup Finset.univ_nonempty]
  exact (Finset.comp_sup'_eq_sup'_comp Finset.univ_nonempty (fun r : ℝ => (r : EReal))
    (fun x y => EReal.coe_strictMono.monotone.map_max)).symm

/-- The label made safe: the ignore word replaced by class 0. -/
def safe (z : BitVec 32) : BitVec 32 := if z = 4294967196#32 then 0#32 else z

theorem cmpi_eq_of_ne (z c : BitVec 32) (h : z ≠ c) : IntOp.cmpi .eq z c = 0#1 := by
  show BitVec.ofBool (z == c) = 0#1
  rw [beq_eq_false_iff_ne.2 h]; rfl
theorem cmpi_eq_self (c : BitVec 32) : IntOp.cmpi .eq c c = 1#1 := by
  show BitVec.ofBool (c == c) = 1#1
  rw [beq_self_eq_true]; rfl
theorem cmpi_ne_of_ne (z c : BitVec 32) (h : z ≠ c) : IntOp.cmpi .ne z c = 1#1 := by
  show BitVec.ofBool (z != c) = 1#1
  rw [bne_iff_ne.2 h]; rfl
theorem cmpi_ne_self (c : BitVec 32) : IntOp.cmpi .ne c c = 0#1 := by
  show BitVec.ofBool (c != c) = 0#1
  rw [bne_self_eq_false]; rfl

theorem select_eq_safe (z : BitVec 32) :
    Scalar.select (IntOp.cmpi .eq z 4294967196#32) (0#32 : BitVec 32) z = safe z := by
  unfold safe
  by_cases h : z = 4294967196#32
  · rw [if_pos h, h, cmpi_eq_self, select_one]
  · rw [if_neg h, cmpi_eq_of_ne z _ h, select_zero]

theorem class_ne_ignore (z : BitVec 32) (h : Cert.Spec.IsClass z) : z ≠ 4294967196#32 := by
  intro e; rw [e] at h; exact absurd h (by decide)

theorem safe_of_class (z : BitVec 32) (h : Cert.Spec.IsClass z) : safe z = z := by
  unfold safe; rw [if_neg (class_ne_ignore z h)]

theorem safe_lt (z : BitVec 32) (hz : Cert.Spec.IsClass z ∨ z = Cert.Spec.ignoreW) : (safe z).toNat < 50257 := by
  rcases hz with h | h
  · rw [safe_of_class z h]; exact h
  · unfold safe; rw [if_pos h]; decide

theorem toInt_of_lt (z : BitVec 32) (h : z.toNat < 50257) : z.toInt = (z.toNat : ℤ) := by
  rw [BitVec.toInt_eq_toNat_cond, if_pos (by omega)]

theorem slt_zero (z : BitVec 32) (h : z.toNat < 50257) : IntOp.cmpi .slt z 0#32 = 0#1 := by
  have h0 : (0#32 : BitVec 32).toInt = 0 := by decide
  have hn : ¬ ((z.toNat : ℤ) < 0) := by omega
  simp [IntOp.cmpi, BitVec.slt, toInt_of_lt z h, h0, hn]

theorem sge_zero (z : BitVec 32) (h : z.toNat < 50257) : IntOp.cmpi .sge z 0#32 = 1#1 := by
  have h0 : (0#32 : BitVec 32).toInt = 0 := by decide
  simp [IntOp.cmpi, BitVec.sle, toInt_of_lt z h, h0]

theorem sle_top (z : BitVec 32) (h : z.toNat < 50257) : IntOp.cmpi .sle z 50256#32 = 1#1 := by
  have h0 : (50256#32 : BitVec 32).toInt = 50256 := by decide
  have hn : (z.toNat : ℤ) ≤ 50256 := by omega
  simp [IntOp.cmpi, BitVec.sle, toInt_of_lt z h, h0, hn]

theorem clamp_eq (z : BitVec 32) (h : z.toNat < 50257) : min z.toInt.toNat 50256 = z.toNat := by
  rw [toInt_of_lt z h, Int.toNat_natCast]; omega

theorem ne_flag_class (z : BitVec 32) (h : Cert.Spec.IsClass z) :
    FloatOps.uitofp (F := Ideal) .f32 (IntOp.cmpi .ne z 4294967196#32) = (1 : EReal) := by
  rw [cmpi_ne_of_ne z _ (class_ne_ignore z h)]
  show (((1#1 : BitVec 1).toNat : ℝ) : EReal) = 1
  simp

theorem ne_flag_ignore :
    FloatOps.uitofp (F := Ideal) .f32 (IntOp.cmpi .ne (4294967196#32 : BitVec 32) 4294967196#32) = (0 : EReal) := by
  rw [cmpi_ne_self]
  show (((0#1 : BitVec 1).toNat : ℝ) : EReal) = 0
  simp

/-- A kept position as a position. -/
abbrev pos (t : Fin 2047) : Fin 2048 := ⟨t.val, by omega⟩
/-- The position after a kept position. -/
abbrev nxt (t : Fin 2047) : Fin 2048 := ⟨t.val + 1, by omega⟩

/-! ## The normalised hidden state and the logits -/

theorem sumsq_apply (D : Cert.Spec.Data) (x0 : X0) (x1 : X1) (x2 : X2) (hR : Cert.Spec.Reads D x0 x1 x2)
    (b : Fin 2) (p : Fin 2048) :
    val_main_v1 (F := Ideal) x0 (ix2 b p)
      = ∑ d' : Fin 2048, ((D.x (Cert.Spec.row b p) d' : ℝ) : EReal) * ((D.x (Cert.Spec.row b p) d' : ℝ) : EReal) := by
  rw [val_main_v1_apply, val_main_cst_apply, Ideal.ofBits_def, Cert.Consts.ofBits_zero, zero_add]
  refine Finset.sum_congr rfl fun k _ => ?_
  rw [val_main_v0_apply, Ideal.mulf_def, show idx_main_v1 (ix2 b p) k = ix3 b p k from by idx3, hR.x_eq]

theorem hid_apply (D : Cert.Spec.Data) (x0 : X0) (x1 : X1) (x2 : X2) (hR : Cert.Spec.Reads D x0 x1 x2)
    (b : Fin 2) (p : Fin 2048) (d : Fin 2048) :
    val_main_v12 (F := Ideal) x0 x1 (ix3 b p d) = ((Cert.Spec.hid D (Cert.Spec.row b p) d : ℝ) : EReal) := by
  rw [val_main_v12_apply, val_main_v9_apply, val_main_v11_apply, val_main_v10_apply, val_main_v8_apply, val_main_v7_apply,
    val_main_v6_apply, val_main_v5_apply, val_main_cst_1_apply, val_main_v4_apply, val_main_v3_apply, val_main_cst_0_apply,
    val_main_v2_apply]
  rw [show idx_main_v2 (idx_main_v8 (ix3 b p d)) = ix2 b p from by idx2, sumsq_apply D x0 x1 x2 hR b p,
    show idx_main_v10 (idx_main_v11 (ix3 b p d)) = ix1 d from by idx1, hR.x_eq, hR.w_eq]
  simp only [Ideal.mulf_def, Ideal.addf_def, Ideal.hostDivf_def, Ideal.hostUnary_rsqrt_def, Ideal.ofBits_def]
  rw [Cert.Consts.ofBits_2048, hR.eps_eq]
  exact Cert.Spec.hid_coe D (Cert.Spec.row b p) d

theorem logit_apply (D : Cert.Spec.Data) (x0 : X0) (x1 : X1) (x2 : X2) (hR : Cert.Spec.Reads D x0 x1 x2)
    (b : Fin 2) (p : Fin 2048) (v : Fin 50257) :
    val_main_v13 (F := Ideal) x0 x1 x2 (ix3 b p v) = ((Cert.Spec.logit D (Cert.Spec.row b p) v : ℝ) : EReal) := by
  rw [val_main_v13_apply, ← Cert.Spec.logit_coe D (Cert.Spec.row b p) v]
  refine Finset.sum_congr rfl fun k _ => ?_
  rw [show lidx_main_v13 (ix3 b p v) k = ix3 b p k from by idx3, show ridx_main_v13 (ix3 b p v) k = ix2 v k from by idx2,
    hid_apply D x0 x1 x2 hR, hR.lm_eq]

theorem kept_logit_apply (D : Cert.Spec.Data) (x0 : X0) (x1 : X1) (x2 : X2) (hR : Cert.Spec.Reads D x0 x1 x2)
    (b : Fin 2) (t : Fin 2047) (v : Fin 50257) :
    val_main_v14 (F := Ideal) x0 x1 x2 (ix3 b t v) = ((Cert.Spec.logit D (Cert.Spec.row b (pos t)) v : ℝ) : EReal) := by
  rw [val_main_v14_apply, show idx_main_v14 (ix3 b t v) = ix3 b (pos t) v from by idx3, logit_apply D x0 x1 x2 hR]

/-! ## The log-probabilities -/

theorem rowmax_apply (D : Cert.Spec.Data) (x0 : X0) (x1 : X1) (x2 : X2) (hR : Cert.Spec.Reads D x0 x1 x2)
    (b : Fin 2) (t : Fin 2047) :
    val_main_call0_v0 (F := Ideal) x0 x1 x2 (ix2 b t) = ((Cert.Spec.rowMax D (Cert.Spec.row b (pos t)) : ℝ) : EReal) := by
  unfold val_main_call0_v0
  refine (reduce_max_apply (val_main_v14 (F := Ideal) x0 x1 x2) (val_main_call0_cst (F := Ideal)) b t).trans ?_
  rw [val_main_call0_cst_apply, Ideal.ofBits_def, Cert.Consts.ofBits_neg_inf,
    show (fun k : Fin 50257 => val_main_v14 (F := Ideal) x0 x1 x2 (ix3 b t k))
      = fun k => ((Cert.Spec.logit D (Cert.Spec.row b (pos t)) k : ℝ) : EReal)
      from funext fun k => kept_logit_apply D x0 x1 x2 hR b t k]
  exact fold_max_coe _

theorem shifted_apply (D : Cert.Spec.Data) (x0 : X0) (x1 : X1) (x2 : X2) (hR : Cert.Spec.Reads D x0 x1 x2)
    (b : Fin 2) (t : Fin 2047) (v : Fin 50257) :
    val_main_call0_v5 (F := Ideal) x0 x1 x2 (ix3 b t v)
      = ((Cert.Spec.logit D (Cert.Spec.row b (pos t)) v - Cert.Spec.rowMax D (Cert.Spec.row b (pos t)) : ℝ) : EReal) := by
  rw [val_main_call0_v5_apply, kept_logit_apply D x0 x1 x2 hR, val_main_call0_v4_apply, val_main_call0_v3_apply,
    val_main_call0_v2_apply, val_main_call0_v1_apply, val_main_call0_cst_0_apply,
    show idx_main_call0_v3 (idx_main_call0_v4 (ix3 b t v)) = ix2 b t from by idx2, rowmax_apply D x0 x1 x2 hR,
    Ideal.subf_def, Ideal.maximumf_def, Ideal.ofBits_def, Cert.Consts.ofBits_neg_inf, max_eq_right bot_le, ← EReal.coe_sub]

theorem rowSum_pos (D : Cert.Spec.Data) (R : Fin 4096) : 0 < Cert.Spec.rowSum D R :=
  Finset.sum_pos (fun _ _ => Real.exp_pos _) Finset.univ_nonempty

theorem rowsum_apply (D : Cert.Spec.Data) (x0 : X0) (x1 : X1) (x2 : X2) (hR : Cert.Spec.Reads D x0 x1 x2)
    (b : Fin 2) (t : Fin 2047) :
    val_main_call0_v7 (F := Ideal) x0 x1 x2 (ix2 b t) = ((Cert.Spec.rowSum D (Cert.Spec.row b (pos t)) : ℝ) : EReal) := by
  rw [val_main_call0_v7_apply, val_main_call0_cst_1_apply, Ideal.ofBits_def, Cert.Consts.ofBits_zero, zero_add]
  unfold Cert.Spec.rowSum
  rw [Cert.Spec.coe_sum]
  refine Finset.sum_congr rfl fun k _ => ?_
  rw [val_main_call0_v6_apply, show idx_main_call0_v7 (ix2 b t) k = ix3 b t k from by idx3, shifted_apply D x0 x1 x2 hR,
    Ideal.hostUnary_exp_def, Ideal.exp_coe]

theorem logprob_apply (D : Cert.Spec.Data) (x0 : X0) (x1 : X1) (x2 : X2) (hR : Cert.Spec.Reads D x0 x1 x2)
    (b : Fin 2) (t : Fin 2047) (v : Fin 50257) :
    val_main_v16 (F := Ideal) x0 x1 x2 (ix3 b t v)
      = ((Cert.Spec.logit D (Cert.Spec.row b (pos t)) v - Cert.Spec.rowMax D (Cert.Spec.row b (pos t))
          - Real.log (Cert.Spec.rowSum D (Cert.Spec.row b (pos t))) : ℝ) : EReal) := by
  rw [val_main_v16_apply, shifted_apply D x0 x1 x2 hR, val_main_call0_v10_apply, val_main_call0_v9_apply, val_main_call0_v8_apply,
    show idx_main_call0_v8 (idx_main_call0_v10 (ix3 b t v)) = ix2 b t from by idx2, rowsum_apply D x0 x1 x2 hR,
    Ideal.subf_def, Ideal.hostUnary_log_def, Ideal.log_coe, if_neg (not_le.2 (rowSum_pos D _)), ← EReal.coe_sub]

/-! ## The labels and the pick -/

theorem label_apply (x3 : X3) (b : Fin 2) (t : Fin 2047) :
    val_main_v15 (F := Ideal) x3 (ix2 b t) = x3 (ix2 b (nxt t)) := by
  rw [val_main_v15_apply]
  refine congrArg x3 ?_
  funext a
  match a with
  | ⟨0, _⟩ => rfl
  | ⟨1, _⟩ => exact Fin.ext (Nat.add_comm 1 t.val)

theorem safe_apply (x3 : X3) (b : Fin 2) (t : Fin 2047) :
    val_main_v19 (F := Ideal) x3 (ix2 b t) = safe (x3 (ix2 b (nxt t))) := by
  rw [val_main_v19_apply, val_main_v18_apply, label_apply, val_main_v17_apply, val_main_c_apply, val_main_call1_v1_apply,
    val_main_call1_v0_apply, val_main_c_2_apply]
  exact select_eq_safe _

theorem start_apply (x3 : X3) (b : Fin 2) (t : Fin 2047) (hs : (safe (x3 (ix2 b (nxt t)))).toNat < 50257) :
    val_main_call2_v5 (F := Ideal) x3 (ix4 b t (0 : Fin 1) (0 : Fin 1)) = safe (x3 (ix2 b (nxt t))) := by
  have hi : idx_main_call2_v5 (ix4 b t (0 : Fin 1) (0 : Fin 1)) = ix3 b t (0 : Fin 1) := by
    funext a
    match a with
    | ⟨0, _⟩ => exact Fin.ext (by show (((b.val * 2047 + t.val) * 1 + 0) * 1 + 0) / 2047 = b.val; omega)
    | ⟨1, _⟩ => exact Fin.ext (by show (((b.val * 2047 + t.val) * 1 + 0) * 1 + 0) / 1 % 2047 = t.val; omega)
    | ⟨2, _⟩ => rfl
  rw [val_main_call2_v5_apply, hi, val_main_call2_v4_apply, val_main_call2_v1_apply, val_main_v20_apply,
    show idx_main_v20 (ix3 b t (0 : Fin 1)) = ix2 b t from by idx2, safe_apply, val_main_call2_v0_apply, val_main_call2_c_apply,
    slt_zero _ hs, select_zero]

theorem inrange_apply (x3 : X3) (b : Fin 2) (t : Fin 2047) (hs : (safe (x3 (ix2 b (nxt t)))).toNat < 50257) :
    val_main_call2_v12 (F := Ideal) x3 (ix3 b t (0 : Fin 1)) = 1#1 := by
  unfold val_main_call2_v12
  refine (reduce_and_apply (val_main_call2_v11 (F := Ideal) x3) (val_main_call2_c_3 (F := Ideal)) b t).trans ?_
  rw [val_main_call2_v11_apply, val_main_call2_v7_apply, val_main_call2_v10_apply, start_apply x3 b t hs,
    val_main_call2_v6_apply, val_main_call2_c_2_apply, val_main_call2_v9_apply, val_main_call2_v8_apply, val_main_call2_c_1_apply,
    sge_zero _ hs, sle_top _ hs, val_main_call2_c_3_apply]
  decide

theorem pick_apply (x0 : X0) (x1 : X1) (x2 : X2) (x3 : X3) (b : Fin 2) (t : Fin 2047)
    (hs : (safe (x3 (ix2 b (nxt t)))).toNat < 50257) :
    val_main_call2_v13 (F := Ideal) x0 x1 x2 x3 (ix3 b t (0 : Fin 1))
      = val_main_v16 (F := Ideal) x0 x1 x2 (ix3 b t (⟨(safe (x3 (ix2 b (nxt t)))).toNat, hs⟩ : Fin 50257)) := by
  unfold val_main_call2_v13
  refine (gather_apply (val_main_v16 (F := Ideal) x0 x1 x2) (val_main_call2_v5 (F := Ideal) x3) b t).trans ?_
  refine congrArg (val_main_v16 (F := Ideal) x0 x1 x2) ?_
  funext a
  match a with
  | ⟨0, _⟩ => rfl
  | ⟨1, _⟩ => rfl
  | ⟨2, _⟩ =>
    refine Fin.ext ?_
    show min (val_main_call2_v5 (F := Ideal) x3 (ix4 b t (0 : Fin 1) (0 : Fin 1))).toInt.toNat 50256 = (safe (x3 (ix2 b (nxt t)))).toNat
    rw [start_apply x3 b t hs, clamp_eq _ hs]

theorem picked_apply (x0 : X0) (x1 : X1) (x2 : X2) (x3 : X3) (b : Fin 2) (t : Fin 2047)
    (hs : (safe (x3 (ix2 b (nxt t)))).toNat < 50257) :
    val_main_v22 (F := Ideal) x0 x1 x2 x3 (ix2 b t)
      = val_main_v16 (F := Ideal) x0 x1 x2 (ix3 b t (⟨(safe (x3 (ix2 b (nxt t)))).toNat, hs⟩ : Fin 50257)) := by
  have hi : idx_main_v22 (ix2 b t) = ix3 b t (0 : Fin 1) := by
    funext a
    match a with
    | ⟨0, _⟩ => exact Fin.ext (by show (b.val * 2047 + t.val) / 2047 = b.val; omega)
    | ⟨1, _⟩ => exact Fin.ext (by show (b.val * 2047 + t.val) / 1 % 2047 = t.val; omega)
    | ⟨2, _⟩ => rfl
  rw [val_main_v22_apply, hi, val_main_v21_apply, inrange_apply x3 b t hs, select_one, pick_apply x0 x1 x2 x3 b t hs]

/-! ## A row's contribution and count -/

theorem flag_apply (x3 : X3) (b : Fin 2) (t : Fin 2047) :
    val_main_v26 (F := Ideal) x3 (ix2 b t)
      = FloatOps.uitofp (F := Ideal) .f32 (IntOp.cmpi .ne (x3 (ix2 b (nxt t))) 4294967196#32) := by
  rw [val_main_v26_apply, val_main_v25_apply, label_apply, val_main_v24_apply, val_main_c_3_apply]

theorem cnt_apply (x3 : X3) (hL : Cert.Spec.LabelsOk x3) (b : Fin 2) (t : Fin 2047) :
    val_main_v26 (F := Ideal) x3 (ix2 b t) = ((Cert.Spec.cnt (x3 (ix2 b (nxt t))) : ℝ) : EReal) := by
  rw [flag_apply]
  rcases hL b (nxt t) with h | h
  · rw [ne_flag_class _ h]; unfold Cert.Spec.cnt; rw [if_pos h]; rfl
  · rw [h]
    have hn : ¬ Cert.Spec.IsClass Cert.Spec.ignoreW := by decide
    rw [ne_flag_ignore]; unfold Cert.Spec.cnt; rw [if_neg hn]; rfl

theorem term_apply (D : Cert.Spec.Data) (x0 : X0) (x1 : X1) (x2 : X2) (x3 : X3) (hR : Cert.Spec.Reads D x0 x1 x2)
    (hL : Cert.Spec.LabelsOk x3) (b : Fin 2) (t : Fin 2047) :
    val_main_v27 (F := Ideal) x0 x1 x2 x3 (ix2 b t)
      = ((Cert.Spec.term D (Cert.Spec.row b (pos t)) (x3 (ix2 b (nxt t))) : ℝ) : EReal) := by
  have hz := hL b (nxt t)
  have hs := safe_lt _ hz
  rw [val_main_v27_apply, val_main_v23_apply, picked_apply x0 x1 x2 x3 b t hs, logprob_apply D x0 x1 x2 hR, flag_apply,
    Ideal.mulf_def, Ideal.hostNegf_def, Ideal.negf_def]
  rcases hz with h | h
  · rw [ne_flag_class _ h, mul_one]
    unfold Cert.Spec.term
    rw [dif_pos h]
    unfold Cert.Spec.nll
    have hf : (⟨(safe (x3 (ix2 b (nxt t)))).toNat, hs⟩ : Fin 50257) = ⟨(x3 (ix2 b (nxt t))).toNat, h⟩ :=
      Fin.ext (congrArg BitVec.toNat (safe_of_class _ h))
    rw [hf, ← EReal.coe_neg]
    congr 1
    ring
  · have hn : ¬ Cert.Spec.IsClass (x3 (ix2 b (nxt t))) := by rw [h]; decide
    unfold Cert.Spec.term
    rw [dif_neg hn]
    have hflag : FloatOps.uitofp (F := Ideal) .f32 (IntOp.cmpi .ne (x3 (ix2 b (nxt t))) 4294967196#32) = (0 : EReal) := by
      rw [h]; exact ne_flag_ignore
    rw [hflag, mul_zero]; rfl

/-! ## The two totals and the loss -/

theorem shift_kept (lab : Fin 2 → Fin 2048 → BitVec 32) (b : Fin 2) (t : Fin 2047) :
    Cert.Spec.shift lab (Cert.Spec.row b (pos t)) = lab b (nxt t) := by
  unfold Cert.Spec.shift
  have h1 : (Cert.Spec.row b (pos t)).val % 2048 = t.val := by show (2048 * b.val + t.val) % 2048 = t.val; omega
  have h2 : (Cert.Spec.row b (pos t)).val / 2048 = b.val := by show (2048 * b.val + t.val) / 2048 = b.val; omega
  rw [dif_pos (by rw [h1]; omega)]
  congr 1
  · exact Fin.ext h2
  · exact Fin.ext (by show (Cert.Spec.row b (pos t)).val % 2048 + 1 = t.val + 1; rw [h1])

theorem shift_last (lab : Fin 2 → Fin 2048 → BitVec 32) (b : Fin 2) :
    Cert.Spec.shift lab (Cert.Spec.row b ⟨2047, by omega⟩) = Cert.Spec.ignoreW := by
  unfold Cert.Spec.shift
  have h1 : (Cert.Spec.row b (⟨2047, by omega⟩ : Fin 2048)).val % 2048 = 2047 := by
    show (2048 * b.val + 2047) % 2048 = 2047; omega
  rw [dif_neg (by rw [h1]; omega)]

theorem total_term (D : Cert.Spec.Data) (x0 : X0) (x1 : X1) (x2 : X2) (x3 : X3) (hR : Cert.Spec.Reads D x0 x1 x2)
    (hL : Cert.Spec.LabelsOk x3) (i : S_.Idx) :
    val_main_v28 (F := Ideal) x0 x1 x2 x3 i
      = ((∑ R, Cert.Spec.term D R (Cert.Spec.shift (Cert.Spec.labOf x3) R) : ℝ) : EReal) := by
  have hn : ¬ Cert.Spec.IsClass Cert.Spec.ignoreW := by decide
  rw [val_main_v28_apply, val_main_cst_4_apply, Ideal.ofBits_def, Cert.Consts.ofBits_zero, zero_add, sum_idx2,
    Cert.Spec.sum_rows_eq (fun R => Cert.Spec.term D R (Cert.Spec.shift (Cert.Spec.labOf x3) R))
      (fun b t => Cert.Spec.term D (Cert.Spec.row b (pos t)) (x3 (ix2 b (nxt t))))
      (fun b t => by show Cert.Spec.term D (Cert.Spec.row b (pos t)) _ = _; rw [shift_kept]; rfl)
      (fun b => by
        show Cert.Spec.term D _ (Cert.Spec.shift (Cert.Spec.labOf x3) (Cert.Spec.row b ⟨2047, by omega⟩)) = 0
        rw [shift_last]; unfold Cert.Spec.term; rw [dif_neg hn]),
    Cert.Spec.coe_sum]
  refine Finset.sum_congr rfl fun b _ => ?_
  rw [Cert.Spec.coe_sum]
  exact Finset.sum_congr rfl fun t _ => term_apply D x0 x1 x2 x3 hR hL b t

theorem total_cnt (x3 : X3) (hL : Cert.Spec.LabelsOk x3) (i : S_.Idx) :
    val_main_v29 (F := Ideal) x3 i = ((∑ R, Cert.Spec.cnt (Cert.Spec.shift (Cert.Spec.labOf x3) R) : ℝ) : EReal) := by
  have hn : ¬ Cert.Spec.IsClass Cert.Spec.ignoreW := by decide
  rw [val_main_v29_apply, val_main_cst_5_apply, Ideal.ofBits_def, Cert.Consts.ofBits_zero, zero_add, sum_idx2,
    Cert.Spec.sum_rows_eq (fun R => Cert.Spec.cnt (Cert.Spec.shift (Cert.Spec.labOf x3) R))
      (fun b t => Cert.Spec.cnt (x3 (ix2 b (nxt t))))
      (fun b t => by show Cert.Spec.cnt _ = _; rw [shift_kept]; rfl)
      (fun b => by
        show Cert.Spec.cnt (Cert.Spec.shift (Cert.Spec.labOf x3) (Cert.Spec.row b ⟨2047, by omega⟩)) = 0
        rw [shift_last]; unfold Cert.Spec.cnt; rw [if_neg hn]),
    Cert.Spec.coe_sum]
  refine Finset.sum_congr rfl fun b _ => ?_
  rw [Cert.Spec.coe_sum]
  exact Finset.sum_congr rfl fun t _ => cnt_apply x3 hL b t

/-- THE REFERENCE'S VALUE: on real inputs whose labels are classes or the ignore label, the reference's result is the loss. -/
theorem result_eq (D : Cert.Spec.Data)
    (x0 : (⟨S2x2048x2048, .f32⟩ : BufTy).Contents (Elt Ideal)) (x1 : (⟨S2048, .f32⟩ : BufTy).Contents (Elt Ideal))
    (x2 : (⟨S50257x2048, .f32⟩ : BufTy).Contents (Elt Ideal)) (x3 : (⟨S2x2048, .i32⟩ : BufTy).Contents (Elt Ideal))
    (hR : Cert.Spec.Reads D x0 x1 x2) (hL : Cert.Spec.LabelsOk x3) :
    val_main_v31 (F := Ideal) x0 x1 x2 x3 = fun _ => ((Cert.Spec.loss D (Cert.Spec.labOf x3) : ℝ) : EReal) := by
  funext i
  rw [val_main_v31_apply, val_main_v30_apply, total_term D x0 x1 x2 x3 hR hL, total_cnt x3 hL, val_main_cst_6_apply,
    Ideal.ofBits_def, Cert.Consts.ofBits_one, Ideal.hostDivf_def, Ideal.maximumf_def]
  have h1 : (1 : EReal) = ((1 : ℝ) : EReal) := rfl
  rw [h1, ← EReal.coe_strictMono.monotone.map_max]
  have hpos : max (∑ R, Cert.Spec.cnt (Cert.Spec.shift (Cert.Spec.labOf x3) R)) (1 : ℝ) ≠ 0 :=
    ne_of_gt (lt_of_lt_of_le one_pos (le_max_right _ _))
  rw [Ideal.div_coe hpos, ← EReal.coe_mul]
  unfold Cert.Spec.loss
  congr 1
  rw [mul_one_div]

end Cert.ReferenceIdeal.RefValue

end
-- ==== Proof.PreFacts.lean ====
/-
  The precondition, read back: every float entry of the three arrays is a real number, and every label is a class or
  the ignore label.

  The precondition is a conjunction of four statements, each saying that every element of an array of truth values is
  true. For a float array the truth value at an entry x is |x| < +∞ with |x| = max x (−x) on the extended reals, which
  excludes both infinities, so x is the image of a real. For the label array the truth value at a word l is
  (0 ≤ l and l < 50257) or l = −100, the comparisons signed: a word that is non-negative as a signed number reads the
  same unsigned, so the first alternative says that l, read unsigned, is below the vocabulary size.
-/
import proofs.«416190_j54460185313708_2_alg».proof.Pre_finite_inputs
import proofs.«416190_j54460185313708_2_alg».proof.Proof.Spec
import proofs.«416190_j54460185313708_2_alg».proof.Proof.Consts
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx

/-- An extended real whose absolute value max x (−x) is below +∞ is a real number. -/
theorem real_of_abs_lt_top (x : EReal)
    (h : Ideal.cmp .olt (max x (-x)) (Ideal.ofBits .f32 0x7F800000#32) = 1#1) : ∃ r : ℝ, x = (r : EReal) := by
  rw [Cert.Consts.ofBits_pos_inf] at h
  unfold Ideal.cmp at h
  dsimp only at h
  have h' : max x (-x) < ⊤ := by
    by_contra hn
    rw [decide_eq_false hn] at h
    exact absurd h (by decide)
  rw [max_lt_iff] at h'
  induction x using EReal.rec with
  | bot => exact absurd h'.2 (by simp)
  | top => exact absurd h'.1 (by simp)
  | coe r => exact ⟨r, rfl⟩

/-- A label word that is (non-negative and below 50257, signed) or equal to −100 is a class or the ignore label. -/
theorem label_ok (l : BitVec 32)
    (h : IntOp.ori (IntOp.andi (IntOp.cmpi .sge l 0#32) (IntOp.cmpi .slt l 50257#32)) (IntOp.cmpi .eq l 4294967196#32) = 1#1) :
    Cert.Spec.IsClass l ∨ l = Cert.Spec.ignoreW := by
  rcases IntOp.ori_eq_one.1 h with h1 | h2
  · left
    obtain ⟨ha, hb⟩ := IntOp.andi_eq_one.1 h1
    rw [IntOp.cmpi_sge] at ha
    rw [IntOp.cmpi_slt] at hb
    have e0 : (0#32 : BitVec 32).toInt = 0 := by decide
    have e1 : (50257#32 : BitVec 32).toInt = 50257 := by decide
    rw [e0, BitVec.toInt_eq_toNat_cond] at ha
    rw [e1, BitVec.toInt_eq_toNat_cond] at hb
    have hl := l.isLt
    show l.toNat < 50257
    split at ha <;> omega
  · right
    exact IntOp.cmpi_eq.1 h2

/-- The shape of rank zero has one index. -/
instance : Subsingleton Cert.Pre_finite_inputs.S_.Idx := ⟨fun a b => funext fun d => d.elim0⟩

/-- Under the precondition the float arrays hold real data and the labels are classes or the ignore label. -/
theorem reads_of_pre [Cert.Pre_finite_inputs.Facts]
    (x0 : Cert.Pre_finite_inputs.S2x2048x2048.Idx → EReal) (x1 : Cert.Pre_finite_inputs.S2048.Idx → EReal)
    (x2 : Cert.Pre_finite_inputs.S50257x2048.Idx → EReal) (x3 : Cert.Pre_finite_inputs.S2x2048.Idx → BitVec 32)
    (h : Cert.Pre_finite_inputs.fn (F := Ideal) x0 x1 x2 x3 = fun _ => 1#1) :
    ∃ D : Cert.Spec.Data, Cert.Spec.Reads D x0 x1 x2 ∧ Cert.Spec.LabelsOk x3 := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  have hx : ∀ i, ∃ r : ℝ, x0 i = (r : EReal) := fun i =>
    real_of_abs_lt_top (x0 i) (Host.reduce_andi_all _ _ _ _ _ h0' i)
  have hw : ∀ i, ∃ r : ℝ, x1 i = (r : EReal) := fun i =>
    real_of_abs_lt_top (x1 i) (Host.reduce_andi_all _ _ _ _ _ h1 i)
  have hl : ∀ i, ∃ r : ℝ, x2 i = (r : EReal) := fun i =>
    real_of_abs_lt_top (x2 i) (Host.reduce_andi_all _ _ _ _ _ h2 i)
  have hlab : ∀ i, Cert.Spec.IsClass (x3 i) ∨ x3 i = Cert.Spec.ignoreW := fun i =>
    label_ok (x3 i) (Host.reduce_andi_all _ _ _ _ _ h3 i)
  choose fx hfx using hx
  choose fw hfw using hw
  choose fl hfl using hl
  obtain ⟨e, he, hee⟩ := Cert.Consts.eps_pos
  refine ⟨⟨fun R d => fx (ix3 (⟨R.val / 2048, by omega⟩ : Fin 2) (⟨R.val % 2048, by omega⟩ : Fin 2048) d),
    fun d => fw (ix1 d), fun v d => fl (ix2 v d), e, he⟩, ⟨?_, ?_, ?_, hee⟩, ?_⟩
  · intro b t d
    have hb : (⟨(Cert.Spec.row b t).val / 2048, by have := (Cert.Spec.row b t).isLt; omega⟩ : Fin 2) = b :=
      Fin.ext (by show (2048 * b.val + t.val) / 2048 = b.val; omega)
    have ht : (⟨(Cert.Spec.row b t).val % 2048, by omega⟩ : Fin 2048) = t :=
      Fin.ext (by show (2048 * b.val + t.val) % 2048 = t.val; omega)
    show x0 (ix3 b t d) = ((fx (ix3 (⟨(Cert.Spec.row b t).val / 2048, _⟩ : Fin 2)
      (⟨(Cert.Spec.row b t).val % 2048, _⟩ : Fin 2048) d) : ℝ) : EReal)
    rw [hb, ht]
    exact hfx _
  · intro d
    exact hfw _
  · intro v d
    exact hfl _
  · intro b t
    exact hlab _

end Cert.PreFacts

end
-- ==== Proof.lean ====
/-
  A language-model loss head: RMSNorm of the hidden states, the vocabulary projection, and the shifted cross-entropy
  with an ignore label, averaged over the labelled positions — computed by two kernels (a row-tiled RMSNorm; a
  cross-entropy kernel that never forms the logits but walks the vocabulary in 99 tiles of 512 columns, keeping per row
  a running maximum, a running sum of exponentials rescaled to it, and the logit in the label's column) against the
  plain reference (all logits, log-softmax, gather at the label).

  Over the extended reals, for finite inputs and labels that are classes or the ignore label, both are one number:
  with M the row's greatest logit, the reference's −(s_l − M − log Σ_v exp(s_v − M)) is M + log Σ_v exp(s_v − M) − s_l,
  and the kernel's running values end at exactly M, Σ_v exp(s_v − M) and s_l — the columns past the vocabulary are
  filled with the named −∞ and add exp(−∞) = 0, and rescaling a sum of exponentials from one maximum to a greater one
  is multiplication by exp of the difference. The last position of each batch has no next label: the kernel gives it
  the ignore label and weight 0, the reference leaves it out. The proof states the common value once
  (Proof/Spec.lean), shows the reference's stages and the kernel's run equal to it, and reads the precondition's
  conjuncts back into "every entry is a real" and "every label is a class or the ignore label".

  The three frames: the reference's is its run with the result dropped; the idealized kernel's is its value run with
  the result dropped; the word-level kernel's holds for every input, with nothing said of what the second region
  computes — its vocabulary window's last block is cut at the array's end, the staging rows past it hold anything, so
  its scratch and output are left unnamed, and only the last host stretch reads them.
-/
import proofs.«416190_j54460185313708_2_alg».proof.Defs
import proofs.«416190_j54460185313708_2_alg».proof.Proof.Gen.Kernel
import proofs.«416190_j54460185313708_2_alg».proof.Proof.Gen.Kernel.Skeleton
import proofs.«416190_j54460185313708_2_alg».proof.Proof.Gen.Kernel.Launch
import proofs.«416190_j54460185313708_2_alg».proof.Proof.Gen.Kernel.Regions
import proofs.«416190_j54460185313708_2_alg».proof.Proof.Gen.Kernel.Points
import proofs.«416190_j54460185313708_2_alg».proof.Proof.Gen.KernelIdeal
import proofs.«416190_j54460185313708_2_alg».proof.Proof.Gen.KernelIdeal.Skeleton
import proofs.«416190_j54460185313708_2_alg».proof.Proof.Gen.KernelIdeal.Launch
import proofs.«416190_j54460185313708_2_alg».proof.Proof.Gen.KernelIdeal.Regions
import proofs.«416190_j54460185313708_2_alg».proof.Proof.Gen.KernelIdeal.Points
import proofs.«416190_j54460185313708_2_alg».proof.Proof.Gen.ReferenceIdeal
import proofs.«416190_j54460185313708_2_alg».proof.Proof.Gen.Pre_finite_inputs
import proofs.«416190_j54460185313708_2_alg».proof.Proof.RunBits
import proofs.«416190_j54460185313708_2_alg».proof.Proof.Glue
import proofs.«416190_j54460185313708_2_alg».proof.Proof.RefValue
import proofs.«416190_j54460185313708_2_alg».proof.Proof.PreFacts
import Idealize.ShloMosaic.Adequacy
import Idealize.ShloMosaic.Init

noncomputable section

namespace Cert.Proof

open Idealize.ShloMosaic Idealize.SL.Sem

/-- The word-level kernel program runs and leaves its arguments unchanged, for every input. -/
theorem frame_k : Cert.frame_Kernel := fun m ρ _ => Cert.Kernel.Hand.frame m ρ

/-- The idealized kernel program's frame: its value run with the result dropped. -/
theorem frame_ki : Cert.frame_KernelIdeal := fun m ρ hpre => by
  obtain ⟨D, hR, hL⟩ := Cert.PreFacts.reads_of_pre _ _ _ _ (hpre (0 : Fin 1))
  exact (θ_run Cert.KernelIdeal.defs _ _).mono (fun _ h c => (h c).2) (Cert.KernelIdeal.Hand.kernel_run m ρ D (0 : Fin 1) hR hL)

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ledger's two entries: the certificate's table gives the masking constant the value −∞, and the printed
    constant is that value at the exact instance, at both sites. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- Both programs end at the specification's loss of the argument arrays. -/
theorem algebraic : Cert.algebraic_KernelIdeal_ReferenceIdeal := by
  intro m ρ m' ρ' hpre hagree
  let c0 : Dev Cert.KernelIdeal.nD := (0 : Fin 1)
  obtain ⟨D, hR, hL⟩ := Cert.PreFacts.reads_of_pre _ _ _ _ (hpre c0)
  refine ⟨fun _ => fun _ => ((Cert.Spec.loss D (Cert.Spec.labOf (m ((c0.tc : Thread Cert.KernelIdeal.nD Cert.KernelIdeal.τ).loc Cert.KernelIdeal.main_arg3))) : ℝ) : EReal),
    Cert.KernelIdeal.Hand.kernel_run m ρ D c0 hR hL, ?_⟩
  refine (θ_run Cert.ReferenceIdeal.defs _ _).mono (fun _ h c => ⟨(h c).1.trans ?_, (h c).2⟩)
    (Cert.ReferenceIdeal.ValueP.run (F := Ideal) m' ρ')
  obtain rfl : c = (0 : Fin 1) := Subsingleton.elim _ _
  rw [Cert.ReferenceIdeal.ReadP.val_main_v31_eq, (hagree _).1, (hagree _).2.1, (hagree _).2.2.1, (hagree _).2.2.2]
  exact Cert.ReferenceIdeal.RefValue.result_eq D _ _ _ _ hR hL

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
